-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10_0)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg6
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S256x128 .f32) (main_arg3 : FVec F S128 .f32) (main_arg4 : FVec F S256x128 .f32) (main_arg5 : FVec F S128 .f32) (main_arg6 : FVec F S128x40 .f32) (main_arg7 : FVec F S40 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S256x128 : Shape := ⟨2, ![256, 128]⟩
abbrev S128 : Shape := ⟨1, ![128]⟩
abbrev S128x40 : Shape := ⟨2, ![128, 40]⟩
abbrev S40 : Shape := ⟨1, ![40]⟩
abbrev S128x128 : Shape := ⟨2, ![128, 128]⟩
abbrev S1x128 : Shape := ⟨2, ![1, 128]⟩
abbrev S_ : Shape := ⟨0, ![]⟩
abbrev S1x40 : Shape := ⟨2, ![1, 40]⟩
abbrev S1024x2048 : Shape := ⟨2, ![1024, 2048]⟩
abbrev S1024x128 : Shape := ⟨2, ![1024, 128]⟩
abbrev S2048x128 : Shape := ⟨2, ![2048, 128]⟩
abbrev S1024 : Shape := ⟨1, ![1024]⟩
abbrev S1024x1 : Shape := ⟨2, ![1024, 1]⟩
abbrev S16384x40 : Shape := ⟨2, ![16384, 40]⟩

abbrev nBuf : Space → Nat
  | .hbm => 27
  | .vmem => 24
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128x128, .f32⟩
  | .hbm, ⟨17, _⟩ => ⟨S1x40, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x40, .f32⟩
  | .hbm, ⟨26, _⟩ => ⟨S16384x40, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .f32⟩
  | .local _ .vmem, ⟨10, _⟩ => ⟨S1024x2048, .f32⟩
  | .local _ .vmem, ⟨11, _⟩ => ⟨S16384x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg0 : BitVec 32 := BitVec.ofNat 32 (i 0).val
  let c1024_i32 : BitVec 32 := 1024#32
  let v19 : BitVec 32 := Scalar.muli arg0 c1024_i32
  v19
def k0_off2 (i : grid0.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def k1_mult2 (i : grid1.Coords) : BitVec 32 :=
  let arg0 : BitVec 32 := BitVec.ofNat 32 (i 0).val
  let c1024_i32 : BitVec 32 := 1024#32
  let v20 : BitVec 32 := Scalar.muli arg0 c1024_i32
  v20
def k1_off2 (i : grid1.Coords) : Fin 2 → Nat :=
  let arg0 : BitVec 32 := BitVec.ofNat 32 (i 0).val
  let c1024_i32 : BitVec 32 := 1024#32
  let v20 : BitVec 32 := Scalar.muli arg0 c1024_i32
  let v21 : BitVec 32 := v20
  let v22 : Index := Scalar.indexCast v21
  let c0_8 : Index := 0#32
  ![v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  pads_S128x40_S128x128_000_0880 : S128x40.Pads (![0, 0] : Fin 2 → Nat) ![0, 88] ![0, 0] S128x128
  h_S_ : 0 < S_.numel
  shapeCasts_S40_S1x40 : S40.ShapeCasts S1x40
  pads_S1x40_S1x128_000_0880 : S1x40.Pads (![0, 0] : Fin 2 → Nat) ![0, 88] ![0, 0] S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S2048x128_S2048x128 : S2048x128.ShapeCasts S2048x128
  iota_S1024x128_d1_w32 : S1024x128.Iotas .tc 32 [1]
  reduces_S1024x128_S1024 : S1024x128.Reduces [1] S1024
  shapeCasts_S1024_S1024x1 : S1024.ShapeCasts S1024x1
  broadcasts_S1024x1_S1024x128 : S1024x1.Broadcasts S1024x128
  slices_S16384x128_S16384x40_0_0 : S16384x128.Slices ![0, 0] S16384x40
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S16384x128.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S16384x128.size a
  hwx1_7 : ∀ i : grid1.Coords, EltTy.bits .f32 = 32 ∨ (Rect.block (s := S16384x128) S1024x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S16384x128.size a
  hwx1_8 : ∀ i : grid1.Coords, EltTy.bits .f32 = 32 ∨ (Rect.block (s := S16384x128) S1024x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S16384x128.size a
  hwx1_9 : ∀ i : grid1.Coords, EltTy.bits .f32 = 32 ∨ (Rect.block (s := S16384x128) S1024x128.size (cc1_transform_9 i) (hinb1_9 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10_0) S1024x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_1) S1024x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v10_2) S1024x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | 9 => fun i => !(k1_cond2 i == 1#1) | ⟨_ + 10, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S256x128 : Shape := ⟨2, ![256, 128]⟩
abbrev S128 : Shape := ⟨1, ![128]⟩
abbrev S128x40 : Shape := ⟨2, ![128, 40]⟩
abbrev S40 : Shape := ⟨1, ![40]⟩
abbrev S16384x256 : Shape := ⟨2, ![16384, 256]⟩
abbrev S1x128 : Shape := ⟨2, ![1, 128]⟩
abbrev S_ : Shape := ⟨0, ![]⟩
abbrev S16384x40 : Shape := ⟨2, ![16384, 40]⟩
abbrev S1x40 : Shape := ⟨2, ![1, 40]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S16384x128, .f32⟩
  | .hbm, ⟨9, _⟩ => ⟨S16384x256, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S_, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x256, .f32⟩
  | .hbm, ⟨19, _⟩ => ⟨S16384x128, .f32⟩
  | .hbm, ⟨20, _⟩ => ⟨S1x128, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x40, .f32⟩
  | .hbm, ⟨27, _⟩ => ⟨S1x40, .f32⟩
  | .hbm, ⟨28, _⟩ => ⟨S16384x40, .f32⟩
  | .hbm, ⟨29, _⟩ => ⟨S16384x40, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x40, .f32⟩
  | .hbm, ⟨37, _⟩ => ⟨S16384x40, .f32⟩
  | .hbm, ⟨38, _⟩ => ⟨S16384x40, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1, .f32⟩
  | .hbm, ⟨43, _⟩ => ⟨S16384x40, .f32⟩
  | .hbm, ⟨44, _⟩ => ⟨S16384x40, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call2_cst : Ref sig .tc := ⟨.hbm, 30, rfl⟩
abbrev main_call2_v0 : Ref sig .tc := ⟨.hbm, 31, rfl⟩
abbrev main_call2_cst_0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_cst_1 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  concatenates_S16384x128_S16384x128_S16384x256_d1 : Shape.Concatenates [S16384x128, S16384x128] S16384x256 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  reducesTo_S16384x40_S16384_d1 : S16384x40.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x40_0_1 : S16384x1.BroadcastsInDim S16384x40 (![0, 1] : Fin 2 → Fin S16384x40.rank)
  dot_S16384x16384_S16384x128_S16384x128_1_0_0_1_n_n_wf : DotDims.WF S16384x16384 S16384x128 S16384x128 [1] [0] [0] [1] [] []
  dot_S16384x256_S256x128_S16384x128_1_0_0_1_n_n_wf : DotDims.WF S16384x256 S256x128 S16384x128 [1] [0] [0] [1] [] []
  dot_S16384x128_S128x40_S16384x40_1_0_0_1_n_n_wf : DotDims.WF S16384x128 S128x40 S16384x40 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x40_S16384x40_1_0_0_1_n_n : DotDims S16384x128 S128x40 S16384x40 where
  lhsContracting := [1]
  rhsContracting := [0]
  lhsNonContracting := [0]
  rhsNonContracting := [1]
  lhsBatch := []
  rhsBatch := []
  wf := dot_S16384x128_S128x40_S16384x40_1_0_0_1_n_n_wf

class Facts : Prop extends Facts₀ where

variable [Facts]
-- ==== Proof.KR0.lean ====
import proofs.«102636_j72069551227476_2_alg».proof.Proof.Gen.Kernel.Launch
import proofs.«102636_j72069551227476_2_alg».proof.Proof.Gen.Kernel.Skeleton
import proofs.«102636_j72069551227476_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one GraphSAGE layer, `relu (x · Wx + (adj · x) · Ws + b)`, on a 16 × 8 grid

Point `(i, k)` multiplies the `1024 × 2048` block `(i, k)` of `adj` with rows `2048 k … 2048 k + 2047` of `x` and adds the
product to an accumulator carried from point to point (zeroed first where `k = 0`); where `k = 7` the accumulator holds
rows `1024 i …` of `adj · x`, and the point stores the layer's output block. -/

/-! ## Which points zero the accumulator and which store the output -/

/-- `k = 0`: the accumulator is zeroed before it is added to. -/
abbrev condFirst (i : grid0.Coords) : Prop :=
  (Scalar.cmpi .ne (Scalar.extui (Scalar.cmpi .eq (BitVec.ofNat 32 (i 1).val) 0#32)) 0#32) = 1#1
/-- `k = 7`: the output block is computed and stored. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- Where the output is not stored its window is idle, -/
theorem idle_out {i : grid0.Coords} (h : ¬condLast i) : cfg0.idle 5 i = true := by
  show (!(k0_cond2 i == 1#1)) = true
  simp only [Bool.not_eq_true', beq_eq_false_iff_ne, ne_eq]; exact h
/-- and where it is stored it is live. -/
theorem live_out {i : grid0.Coords} (h : condLast i) : cfg0.idle 5 i = false := by
  show (!(k0_cond2 i == 1#1)) = false
  simp only [Bool.not_eq_false', beq_iff_eq]; exact h

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The accumulator: a scoped buffer of the kernel's own. -/
abbrev scM : Memref sig .tc .vmem S1024x128 .f32 := Memref.whole cc0_scratch0

/-- The accumulator taken out of the scoped buffers the pipeline does not stage, with the way back. -/
theorem PhiA_open (c : Dev nD) :
    (Pipeline.ΦA spec0 c : sProp 𝕄)
      ⊢ iprop((∃ d, owns (c : Thread nD τ) scM fullShare d) ∗ ((∃ d, owns (c : Thread nD τ) scM fullShare d) -∗ Pipeline.ΦA spec0 c)) := by
  unfold Pipeline.ΦA; rw [scopedRest0_eq]; simp only [scM, owns_whole]
  iintro ⟨⟨HS, Hrest⟩, Hg⟩
  isplitl [HS]; · iexact HS
  iintro HS
  isplitl [HS Hrest]
  · isplitl [HS]; · iexact HS
    iexact Hrest
  iexact Hg

/-! ## What a point loads of `x` -/

/-- Rows `2048 k …` of `x`: what the point multiplies the `adj` block with. -/
abbrev xk (i : grid0.Coords) (x : Vec F S16384x128 .f32) : Vec F S2048x128 .f32 :=
  View.ld x (Rect.unit (s := S16384x128) (k0_off1 i) S2048x128.size (k0_off1_inb i))
/-- Rows `1024 i …` of `x`: the output block's own rows. -/
abbrev xi (i : grid0.Coords) (h : condLast i) (x : Vec F S16384x128 .f32) : Vec F S1024x128 .f32 :=
  View.ld x (Rect.unit (s := S16384x128) (k0_off2 i) S1024x128.size (k0_off2_inb i h))

/-! ## The body, case by case -/

/-- The zero offsets, however spelt. -/
theorem hz : (![0, 0] : Fin 2 → ℕ) = fun _ => 0 := by funext a; fin_cases a <;> rfl

set_option maxHeartbeats 2000000 in
/-- A first point (`k = 0`): the accumulator, whatever it held, ends at `0 +` the product. -/
theorem runA (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : condFirst i) (hc1 : ¬condLast i) (a : Vec F S1024x2048 .f32) (x : Vec F S16384x128 .f32) (wx ws : Vec F S128x128 .f32) (b : Vec F S1x128 .f32) (o : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ (∃ d, owns (c : Thread nD τ) arg8 fullShare d)
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare (k0_pay2 (xk i x) a (k0_pay1 (F := F)))) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_cons_unit_zero hz]
  simp only [View.readAt_eq_ld, harg3.read_unread, harg2.read_unread, View.ld_unit_zero (S := S1024x2048) hz, View.readCov_unit_zero (S := S1024x128) _ hz]
  rfl

set_option maxHeartbeats 2000000 in
/-- A middle point (`0 < k < 7`): the product is added to the accumulator. -/
theorem runB (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : ¬condFirst i) (hc1 : ¬condLast i) (a : Vec F S1024x2048 .f32) (x : Vec F S16384x128 .f32) (wx ws : Vec F S128x128 .f32) (b : Vec F S1x128 .f32) (o s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare (k0_pay2 (xk i x) a s)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg8.read_unread, View.ld_unit_zero (S := S1024x2048) hz, View.ld_unit_zero (S := S1024x128) hz]
  rfl

set_option maxHeartbeats 2000000 in
/-- A last point (`k = 7`): the product is added to the accumulator, and the output block is stored: the layer on the
    block's own rows of `x` and the finished accumulator. -/
theorem runC (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : ¬condFirst i) (hc1 : condLast i) (a : Vec F S1024x2048 .f32) (x : Vec F S16384x128 .f32) (wx ws : Vec F S128x128 .f32) (b : Vec F S1x128 .f32) (s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ (∃ o, owns (c : Thread nD τ) arg7 fullShare o) ∗ owns (c : Thread nD τ) arg8 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare (k0_pay3 (xi i hc1 x) (k0_pay2 (xk i x) a s) ws wx b) ∗ owns (c : Thread nD τ) arg8 fullShare (k0_pay2 (xk i x) a s)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%o7, %f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg8.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg8.read_unread, View.ld_unit_zero (S := S1024x2048) hz, View.ld_unit_zero (S := S1024x128) hz]
  rfl

/-! ## What the accumulator and the output's buffer hold, point by point -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the point's product added to what the point before left, or to zero at a first
    point (`n ≡ 0 mod 8`). -/
def acc (c : Dev nD) : (n : ℕ) → n < cfg0.N → Vec F S1024x128 .f32
  | 0, hn => k0_pay2 (xk (grid0.coords ⟨0, hn⟩) (iblk V c 1 ⟨0, hn⟩)) (iblk V c 0 ⟨0, hn⟩) (k0_pay1 (F := F))
  | n + 1, hn => k0_pay2 (xk (grid0.coords ⟨n + 1, hn⟩) (iblk V c 1 ⟨n + 1, hn⟩)) (iblk V c 0 ⟨n + 1, hn⟩)
      (if (n + 1) % 8 = 0 then k0_pay1 (F := F) else acc c n (Nat.lt_of_succ_lt hn))

theorem acc_first (c : Dev nD) (t : Fin cfg0.N) (h : t.val % 8 = 0) :
    acc V c t.val t.isLt = k0_pay2 (xk (grid0.coords t) (iblk V c 1 t)) (iblk V c 0 t) (k0_pay1 (F := F)) := by
  obtain ⟨n, hn⟩ := t
  cases n with
  | zero => rfl
  | succ n => show k0_pay2 _ _ (if (n + 1) % 8 = 0 then _ else _) = _; rw [if_pos h]

theorem acc_step (c : Dev nD) (t : Fin cfg0.N) (h : ¬t.val % 8 = 0) :
    acc V c t.val t.isLt = k0_pay2 (xk (grid0.coords t) (iblk V c 1 t)) (iblk V c 0 t)
      (acc V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 8 = 0 then _ else _) = _; rw [if_neg h]; rfl

/-- The output block a last point stores. -/
def outAt (c : Dev nD) (t : Fin cfg0.N) (h : condLast (grid0.coords t)) : Vec F S1024x128 .f32 :=
  k0_pay3 (xi (grid0.coords t) h (iblk V c 1 t)) (acc V c t.val t.isLt) (iblk V c 3 t) (iblk V c 2 t) (iblk V c 4 t)

/-- What the proof data names the output's buffer after point `t`: the stored block at a last point (elsewhere the
    window is idle and the name is never read). -/
def outB (c : Dev nD) (t : Fin cfg0.N) : Vec F S1024x128 .f32 :=
  if h : condLast (grid0.coords t) then outAt V c t h else k0_pay1 (F := F)

/-- The invariant before point `n`: at the region's entry the scoped buffers the pipeline does not stage, at anything;
    afterwards the accumulator at what point `n - 1` left, beside the way back to the entry form. -/
def Phi (c : Dev nD) : (n : ℕ) → n ≤ cfg0.N → sProp 𝕄
  | 0, _ => Pipeline.ΦA spec0 c
  | n + 1, hn => iprop(owns (c : Thread nD τ) scM fullShare (acc V c n hn)
      ∗ ((∃ d, owns (c : Thread nD τ) scM fullShare d) -∗ Pipeline.ΦA spec0 c))

theorem Phi_pos (c : Dev nD) (n : ℕ) (h : n ≤ cfg0.N) (hz : n ≠ 0) :
    Phi V c n h = iprop(owns (c : Thread nD τ) scM fullShare (acc V c (n - 1) (by omega))
      ∗ ((∃ d, owns (c : Thread nD τ) scM fullShare d) -∗ Pipeline.ΦA spec0 c)) := by
  cases n with
  | zero => exact absurd rfl hz
  | succ n => rfl

/-! ## The proof data -/

/-- The arrays as the region finds them; after the body each input's buffer at its block, the output's at `outB`; the
    invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outB V c t
  Φ t := Phi V c t.val (Nat.le_of_lt_succ t.isLt)
  q _ := fullShare
  owed _ := 0

theorem A_eq (c : Dev nD) (w : Fin cfg0.W) : (dat V c).A w = V c (Pipeline.arrRef spec0 w) := by dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = outB V c t := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_in0 (c : Dev nD) (t : Fin cfg0.N) : (dat V c).leavesExact 0 t = owns (c : Thread nD τ) (ms0 t) fullShare (iblk V c 0 t) := by
  unfold Dat.leavesExact; rw [show cfg0.idle 0 (cfg0.grid.coords t) = false from rfl, after0]
theorem leaves_in1 (c : Dev nD) (t : Fin cfg0.N) : (dat V c).leavesExact 1 t = owns (c : Thread nD τ) (ms1 t) fullShare (iblk V c 1 t) := by
  unfold Dat.leavesExact; rw [show cfg0.idle 1 (cfg0.grid.coords t) = false from rfl, after1]
theorem leaves_in2 (c : Dev nD) (t : Fin cfg0.N) : (dat V c).leavesExact 2 t = owns (c : Thread nD τ) (ms2 t) fullShare (iblk V c 2 t) := by
  unfold Dat.leavesExact; rw [show cfg0.idle 2 (cfg0.grid.coords t) = false from rfl, after2]
theorem leaves_in3 (c : Dev nD) (t : Fin cfg0.N) : (dat V c).leavesExact 3 t = owns (c : Thread nD τ) (ms3 t) fullShare (iblk V c 3 t) := by
  unfold Dat.leavesExact; rw [show cfg0.idle 3 (cfg0.grid.coords t) = false from rfl, after3]
theorem leaves_in4 (c : Dev nD) (t : Fin cfg0.N) : (dat V c).leavesExact 4 t = owns (c : Thread nD τ) (ms4 t) fullShare (iblk V c 4 t) := by
  unfold Dat.leavesExact; rw [show cfg0.idle 4 (cfg0.grid.coords t) = false from rfl, after4]

theorem Phi_zero (c : Dev nD) (n : ℕ) (h : n ≤ cfg0.N) (hz : n = 0) : Phi V c n h = Pipeline.ΦA spec0 c := by
  subst hz; rfl

/-- The output is written back at the last points only. -/
theorem noflush_out (t : Fin cfg0.N) (h : ¬t.val % 8 = 7) : (cfg0.win 5).flush t = false := by
  cases hf : (cfg0.win 5).flush t with
  | false => rfl
  | true => exact absurd ((flush0_5 t).mp hf) h

set_option maxHeartbeats 4800000 in
/-- The body at any point: the inputs' buffers hold their blocks; the point's place in its row of eight says which case it
    is; the invariant hands the body the accumulator at what the point before left (at anything at the region's first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, leaves_in0, leaves_in1, leaves_in2, leaves_in3, leaves_in4]
  rw [show (dat V c).owesAt () t.succ = (dat V c).owesAt () t.castSucc from rfl]
  rw [show (dat V c).Φ t.succ = iprop(owns (c : Thread nD τ) scM fullShare (acc V c t.val t.isLt)
      ∗ ((∃ d, owns (c : Thread nD τ) scM fullShare d) -∗ Pipeline.ΦA spec0 c)) from rfl]
  rw [show (dat V c).Φ t.castSucc = Phi V c t.val (Nat.le_of_lt t.isLt) from by dsimp only [dat]; simp only [Fin.coe_castSucc]]
  by_cases h7 : t.val % 8 = 7
  · have hc1 : condLast (grid0.coords t) := (hcondLast t).mpr h7
    have hc0 : ¬condFirst (grid0.coords t) := fun h => by have := (hcondFirst t).mp h; omega
    have hz0 : t.val ≠ 0 := by omega
    have hn0 : ¬t.val % 8 = 0 := by omega
    rw [show (dat V c).leavesExact 5 t = owns (c : Thread nD τ) (ms5 t) fullShare (outAt V c t hc1) from by
      unfold Dat.leavesExact; rw [live_out hc1, after5]; unfold outB; rw [dif_pos hc1]]
    unfold outAt
    rw [Phi_pos V c _ _ hz0, acc_step V c t hn0]
    iintro ⟨⟨HS, HW⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ hc0 hc1 (iblk V c 0 t) (iblk V c 1 t) (iblk V c 2 t) (iblk V c 3 t) (iblk V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    iexact H5
  · have hc1 : ¬condLast (grid0.coords t) := fun h => h7 ((hcondLast t).mp h)
    rw [Dat.leavesExact_idle (dat V c) 5 t (idle_out hc1) (noflush_out t h7)]
    by_cases h0 : t.val % 8 = 0
    · have hc0 : condFirst (grid0.coords t) := (hcondFirst t).mpr h0
      rw [acc_first V c t h0]
      by_cases hz : t.val = 0
      · rw [Phi_zero V c _ _ hz]
        refine (sep_mono (PhiA_open (F := F) c) .rfl).trans ?_
        iintro ⟨⟨HS, HW⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ hc0 hc1 (iblk V c 0 t) (iblk V c 1 t) (iblk V c 2 t) (iblk V c 3 t) (iblk V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi_pos V c _ _ hz]
        iintro ⟨⟨HS, HW⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ hc0 hc1 (iblk V c 0 t) (iblk V c 1 t) (iblk V c 2 t) (iblk V c 3 t) (iblk V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        iexists _; iexact H5
    · have hc0 : ¬condFirst (grid0.coords t) := fun h => h0 ((hcondFirst t).mp h)
      have hz0 : t.val ≠ 0 := fun e => h0 (by rw [e])
      rw [Phi_pos V c _ _ hz0, acc_step V c t h0]
      iintro ⟨⟨HS, HW⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ hc0 hc1 (iblk V c 0 t) (iblk V c 1 t) (iblk V c 2 t) (iblk V c 3 t) (iblk V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is what the region's entry provides, -/
theorem Phi_first (c : Dev nD) : (dat V c).Φ 0 = Pipeline.ΦA spec0 c := rfl

/-- and after the last point it gives that back: the accumulator's contents are forgotten. -/
theorem Phi_last (c : Dev nD) : (dat V c).Φ (Fin.last cfg0.N) ⊢ Pipeline.ΦA spec0 c := by
  rw [show (dat V c).Φ (Fin.last cfg0.N) = Phi V c cfg0.N (le_refl _) from rfl,
    Phi_pos V c _ _ (by rw [show cfg0.N = 128 from N_0]; decide)]
  iintro ⟨HS, HW⟩
  iapply HW
  iexists _; iexact HS

end Cert.Kernel.R0

end
-- ==== Proof.KR1.lean ====
import proofs.«102636_j72069551227476_2_alg».proof.Proof.Gen.Kernel.Launch
import proofs.«102636_j72069551227476_2_alg».proof.Proof.Gen.Kernel.Skeleton
import proofs.«102636_j72069551227476_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the second GraphSAGE layer and the classifier head, on a 16 × 8 grid

With `x` the first layer's output, point `(i, k)` multiplies the `1024 × 2048` block `(i, k)` of `adj` with rows
`2048 k … 2048 k + 2047` of `x` and adds the product to an accumulator carried from point to point (zeroed first where
`k = 0`); where `k = 7` the accumulator holds rows `1024 i …` of `adj · x`, and the point stores three blocks: the hidden
layer `h = relu (x · Wx + (adj · x) · Ws + b)`, the logits `h · W₂ + b₂`, and the log-softmax of the logits over their
first `40` columns. -/

/-! ## Which points zero the accumulator and which store the outputs -/

/-- `k = 0`: the accumulator is zeroed before it is added to. -/
abbrev condFirst (i : grid1.Coords) : Prop :=
  (Scalar.cmpi .ne (Scalar.extui (Scalar.cmpi .eq (BitVec.ofNat 32 (i 1).val) 0#32)) 0#32) = 1#1
/-- `k = 7`: the output blocks are computed and stored. -/
abbrev condLast (i : grid1.Coords) : Prop := k1_cond2 i = 1#1

theorem hcondFirst : ∀ t : Fin cfg1.N, condFirst (grid1.coords t) ↔ t.val % 8 = 0 :=
  (by decide +kernel : ∀ t : Fin grid1.N, condFirst (grid1.coords t) ↔ t.val % 8 = 0)
theorem hcondLast : ∀ t : Fin cfg1.N, condLast (grid1.coords t) ↔ t.val % 8 = 7 :=
  (by decide +kernel : ∀ t : Fin grid1.N, condLast (grid1.coords t) ↔ t.val % 8 = 7)

/-- Where the outputs are not stored window 7 is idle, -/
theorem idle_out7 {i : grid1.Coords} (h : ¬condLast i) : cfg1.idle 7 i = true := by
  show (!(k1_cond2 i == 1#1)) = true
  simp only [Bool.not_eq_true', beq_eq_false_iff_ne, ne_eq]; exact h
/-- and where they are stored it is live. -/
theorem live_out7 {i : grid1.Coords} (h : condLast i) : cfg1.idle 7 i = false := by
  show (!(k1_cond2 i == 1#1)) = false
  simp only [Bool.not_eq_false', beq_iff_eq]; exact h
/-- Where the outputs are not stored window 8 is idle, -/
theorem idle_out8 {i : grid1.Coords} (h : ¬condLast i) : cfg1.idle 8 i = true := by
  show (!(k1_cond2 i == 1#1)) = true
  simp only [Bool.not_eq_true', beq_eq_false_iff_ne, ne_eq]; exact h
/-- and where they are stored it is live. -/
theorem live_out8 {i : grid1.Coords} (h : condLast i) : cfg1.idle 8 i = false := by
  show (!(k1_cond2 i == 1#1)) = false
  simp only [Bool.not_eq_false', beq_iff_eq]; exact h
/-- Where the outputs are not stored window 9 is idle, -/
theorem idle_out9 {i : grid1.Coords} (h : ¬condLast i) : cfg1.idle 9 i = true := by
  show (!(k1_cond2 i == 1#1)) = true
  simp only [Bool.not_eq_true', beq_eq_false_iff_ne, ne_eq]; exact h
/-- and where they are stored it is live. -/
theorem live_out9 {i : grid1.Coords} (h : condLast i) : cfg1.idle 9 i = false := by
  show (!(k1_cond2 i == 1#1)) = false
  simp only [Bool.not_eq_false', beq_iff_eq]; exact h

/-! ## The memrefs the body is called with -/

abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16384x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1024x128 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1024x128 .f32 := win1_9.stage (cfg1.slots t 9)
abbrev hs9 (t : Fin cfg1.N) : (ms9 t).IsWhole := hstage1_9 ((cfg1.slots t 9).cast nbuf1_9)
/-- The accumulator: a scoped buffer of the kernel's own. -/
abbrev scM : Memref sig .tc .vmem S1024x128 .f32 := Memref.whole cc1_scratch0

/-- The accumulator taken out of the scoped buffers the pipeline does not stage (it is the last of the ten), with the
    way back. -/
theorem PhiA_open (c : Dev nD) :
    (Pipeline.ΦA spec1 c : sProp 𝕄)
      ⊢ iprop((∃ d, owns (c : Thread nD τ) scM fullShare d) ∗ ((∃ d, owns (c : Thread nD τ) scM fullShare d) -∗ Pipeline.ΦA spec1 c)) := by
  unfold Pipeline.ΦA; rw [scopedRest1_eq]; simp only [scM, owns_whole]
  iintro ⟨⟨R0, R1, R2, R3, R4, R5, R6, R7, R8, HS⟩, Hg⟩
  isplitl [HS]; · iexact HS
  iintro HS
  isplitl [R0 R1 R2 R3 R4 R5 R6 R7 R8 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-! ## What a point loads of `x` -/

/-- Rows `2048 k …` of `x`: what the point multiplies the `adj` block with. -/
abbrev xk (i : grid1.Coords) (x : Vec F S16384x128 .f32) : Vec F S2048x128 .f32 :=
  View.ld x (Rect.unit (s := S16384x128) (k1_off1 i) S2048x128.size (k1_off1_inb i))
/-- Rows `1024 i …` of `x`: the output blocks' own rows. -/
abbrev xi (i : grid1.Coords) (h : condLast i) (x : Vec F S16384x128 .f32) : Vec F S1024x128 .f32 :=
  View.ld x (Rect.unit (s := S16384x128) (k1_off2 i) S1024x128.size (k1_off2_inb i h))

/-! ## The body, case by case -/

/-- The zero offsets, however spelt. -/
theorem hz : (![0, 0] : Fin 2 → ℕ) = fun _ => 0 := by funext a; fin_cases a <;> rfl

set_option maxHeartbeats 4000000 in
/-- A first point (`k = 0`): the accumulator, whatever it held, ends at `0 +` the product; the three outputs' buffers are left as found. -/
theorem runA (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : condFirst i) (hc1 : ¬condLast i) (a : Vec F S1024x2048 .f32) (x : Vec F S16384x128 .f32) (wx ws : Vec F S128x128 .f32) (b : Vec F S1x128 .f32) (w2 : Vec F S128x128 .f32) (b2 : Vec F S1x128 .f32) (o9 o10 o11 : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ (∃ d, owns (c : Thread nD τ) arg12 fullShare d)
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare (k1_pay2 (xk i x) a (k1_pay1 (F := F)))) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_cons_unit_zero hz]
  simp only [View.readAt_eq_ld, harg3.read_unread, harg2.read_unread, View.ld_unit_zero (S := S1024x2048) hz, View.readCov_unit_zero (S := S1024x128) _ hz]
  rfl

set_option maxHeartbeats 4000000 in
/-- A middle point (`0 < k < 7`): the product is added to the accumulator; the three outputs' buffers are left as found. -/
theorem runB (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : ¬condFirst i) (hc1 : ¬condLast i) (a : Vec F S1024x2048 .f32) (x : Vec F S16384x128 .f32) (wx ws : Vec F S128x128 .f32) (b : Vec F S1x128 .f32) (w2 : Vec F S128x128 .f32) (b2 : Vec F S1x128 .f32) (o9 o10 o11 s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare (k1_pay2 (xk i x) a s)) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg12.read_unread, View.ld_unit_zero (S := S1024x2048) hz, View.ld_unit_zero (S := S1024x128) hz]
  rfl

set_option maxHeartbeats 4000000 in
/-- A last point (`k = 7`): the product is added to the accumulator, and the three output blocks are stored: the hidden layer on the block's own rows of `x` and the finished accumulator, the logits of that, and their masked log-softmax. -/
theorem runC (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : ¬condFirst i) (hc1 : condLast i) (a : Vec F S1024x2048 .f32) (x : Vec F S16384x128 .f32) (wx ws : Vec F S128x128 .f32) (b : Vec F S1x128 .f32) (w2 : Vec F S128x128 .f32) (b2 : Vec F S1x128 .f32) (s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ (∃ o, owns (c : Thread nD τ) arg9 fullShare o) ∗ (∃ o, owns (c : Thread nD τ) arg10 fullShare o)
        ∗ (∃ o, owns (c : Thread nD τ) arg11 fullShare o) ∗ owns (c : Thread nD τ) arg12 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare (k1_pay4 (xi i hc1 x) (k1_pay2 (xk i x) a s) ws wx b) ∗ owns (c : Thread nD τ) arg10 fullShare (k1_pay5 (xi i hc1 x) (k1_pay2 (xk i x) a s) ws wx b w2 b2)
        ∗ owns (c : Thread nD τ) arg11 fullShare (k1_pay3 (k1_pay5 (xi i hc1 x) (k1_pay2 (xk i x) a s) ws wx b w2 b2) (iota .tc S1024x128 32 [1] iota_S1024x128_d1_w32) 40#32) ∗ owns (c : Thread nD τ) arg12 fullShare (k1_pay2 (xk i x) a s)) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%o9, %f9, %hf9, H9⟩, ⟨%o10, %f10, %hf10, H10⟩, ⟨%o11, %f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  isplitl [H10]
  · iexists _; isplitr; swap; · iexact H10
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg7.read_unread, harg8.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  isplitl [H11]
  · iexists _; isplitr; swap; · iexact H11
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg7.read_unread, harg8.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg12.read_unread, View.ld_unit_zero (S := S1024x2048) hz, View.ld_unit_zero (S := S1024x128) hz]
  rfl

/-! ## What the accumulator and the outputs' buffers hold, point by point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the point's product added to what the point before left, or to zero at a first
    point (`n ≡ 0 mod 8`). -/
def acc (c : Dev nD) : (n : ℕ) → n < cfg1.N → Vec F S1024x128 .f32
  | 0, hn => k1_pay2 (xk (grid1.coords ⟨0, hn⟩) (iblk V c 1 ⟨0, hn⟩)) (iblk V c 0 ⟨0, hn⟩) (k1_pay1 (F := F))
  | n + 1, hn => k1_pay2 (xk (grid1.coords ⟨n + 1, hn⟩) (iblk V c 1 ⟨n + 1, hn⟩)) (iblk V c 0 ⟨n + 1, hn⟩)
      (if (n + 1) % 8 = 0 then k1_pay1 (F := F) else acc c n (Nat.lt_of_succ_lt hn))

theorem acc_first (c : Dev nD) (t : Fin cfg1.N) (h : t.val % 8 = 0) :
    acc V c t.val t.isLt = k1_pay2 (xk (grid1.coords t) (iblk V c 1 t)) (iblk V c 0 t) (k1_pay1 (F := F)) := by
  obtain ⟨n, hn⟩ := t
  cases n with
  | zero => rfl
  | succ n => show k1_pay2 _ _ (if (n + 1) % 8 = 0 then _ else _) = _; rw [if_pos h]

theorem acc_step (c : Dev nD) (t : Fin cfg1.N) (h : ¬t.val % 8 = 0) :
    acc V c t.val t.isLt = k1_pay2 (xk (grid1.coords t) (iblk V c 1 t)) (iblk V c 0 t)
      (acc V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 8 = 0 then _ else _) = _; rw [if_neg h]; rfl

/-- The hidden-layer block a last point stores: the layer on the block's own rows of `x` and the finished accumulator. -/
def out7At (c : Dev nD) (t : Fin cfg1.N) (h : condLast (grid1.coords t)) : Vec F S1024x128 .f32 :=
  k1_pay4 (xi (grid1.coords t) h (iblk V c 1 t)) (acc V c t.val t.isLt) (iblk V c 3 t) (iblk V c 2 t) (iblk V c 4 t)
/-- The logits block a last point stores: the hidden-layer block through the head's weights and bias. -/
def out8At (c : Dev nD) (t : Fin cfg1.N) (h : condLast (grid1.coords t)) : Vec F S1024x128 .f32 :=
  k1_pay5 (xi (grid1.coords t) h (iblk V c 1 t)) (acc V c t.val t.isLt) (iblk V c 3 t) (iblk V c 2 t) (iblk V c 4 t) (iblk V c 5 t) (iblk V c 6 t)
/-- The log-softmax block a last point stores: of the logits block, over the columns below `40`. -/
def out9At (c : Dev nD) (t : Fin cfg1.N) (h : condLast (grid1.coords t)) : Vec F S1024x128 .f32 :=
  k1_pay3 (k1_pay5 (xi (grid1.coords t) h (iblk V c 1 t)) (acc V c t.val t.isLt) (iblk V c 3 t) (iblk V c 2 t) (iblk V c 4 t) (iblk V c 5 t) (iblk V c 6 t))
    (iota .tc S1024x128 32 [1] iota_S1024x128_d1_w32) 40#32

/-- What the proof data names output window 7's buffer after point `t`: the stored block at a last point (elsewhere the
    window is idle and the name is never read). -/
def outB7 (c : Dev nD) (t : Fin cfg1.N) : Vec F S1024x128 .f32 :=
  if h : condLast (grid1.coords t) then out7At V c t h else k1_pay1 (F := F)
/-- What the proof data names output window 8's buffer after point `t`: the stored block at a last point (elsewhere the
    window is idle and the name is never read). -/
def outB8 (c : Dev nD) (t : Fin cfg1.N) : Vec F S1024x128 .f32 :=
  if h : condLast (grid1.coords t) then out8At V c t h else k1_pay1 (F := F)
/-- What the proof data names output window 9's buffer after point `t`: the stored block at a last point (elsewhere the
    window is idle and the name is never read). -/
def outB9 (c : Dev nD) (t : Fin cfg1.N) : Vec F S1024x128 .f32 :=
  if h : condLast (grid1.coords t) then out9At V c t h else k1_pay1 (F := F)

/-- The invariant before point `n`: at the region's entry the scoped buffers the pipeline does not stage, at anything;
    afterwards the accumulator at what point `n - 1` left, beside the way back to the entry form. -/
def Phi (c : Dev nD) : (n : ℕ) → n ≤ cfg1.N → sProp 𝕄
  | 0, _ => Pipeline.ΦA spec1 c
  | n + 1, hn => iprop(owns (c : Thread nD τ) scM fullShare (acc V c n hn)
      ∗ ((∃ d, owns (c : Thread nD τ) scM fullShare d) -∗ Pipeline.ΦA spec1 c))

theorem Phi_pos (c : Dev nD) (n : ℕ) (h : n ≤ cfg1.N) (hz : n ≠ 0) :
    Phi V c n h = iprop(owns (c : Thread nD τ) scM fullShare (acc V c (n - 1) (by omega))
      ∗ ((∃ d, owns (c : Thread nD τ) scM fullShare d) -∗ Pipeline.ΦA spec1 c)) := by
  cases n with
  | zero => exact absurd rfl hz
  | succ n => rfl

theorem Phi_zero (c : Dev nD) (n : ℕ) (h : n ≤ cfg1.N) (hz : n = 0) : Phi V c n h = Pipeline.ΦA spec1 c := by
  subst hz; rfl

/-! ## The proof data -/

/-- The arrays as the region finds them; after the body each input's buffer at its block, each output's at its `outB`;
    the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outB7 V c t
    | ⟨8, _⟩ => outB8 V c t
    | ⟨9, _⟩ => outB9 V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = outB7 V c t := by dsimp only [dat]
theorem after8 (c : Dev nD) (t : Fin cfg1.N) : (dat V c).after 8 t = outB8 V c t := by dsimp only [dat]
theorem after9 (c : Dev nD) (t : Fin cfg1.N) : (dat V c).after 9 t = outB9 V c t := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t
    ∗ (dat V c).leavesExact 6 t ∗ (dat V c).leavesExact 7 t ∗ (dat V c).leavesExact 8 t
    ∗ (dat V c).leavesExact 9 t)

theorem leaves_in0 (c : Dev nD) (t : Fin cfg1.N) : (dat V c).leavesExact 0 t = owns (c : Thread nD τ) (ms0 t) fullShare (iblk V c 0 t) := by
  unfold Dat.leavesExact; rw [show cfg1.idle 0 (cfg1.grid.coords t) = false from rfl, after0]
theorem leaves_in1 (c : Dev nD) (t : Fin cfg1.N) : (dat V c).leavesExact 1 t = owns (c : Thread nD τ) (ms1 t) fullShare (iblk V c 1 t) := by
  unfold Dat.leavesExact; rw [show cfg1.idle 1 (cfg1.grid.coords t) = false from rfl, after1]
theorem leaves_in2 (c : Dev nD) (t : Fin cfg1.N) : (dat V c).leavesExact 2 t = owns (c : Thread nD τ) (ms2 t) fullShare (iblk V c 2 t) := by
  unfold Dat.leavesExact; rw [show cfg1.idle 2 (cfg1.grid.coords t) = false from rfl, after2]
theorem leaves_in3 (c : Dev nD) (t : Fin cfg1.N) : (dat V c).leavesExact 3 t = owns (c : Thread nD τ) (ms3 t) fullShare (iblk V c 3 t) := by
  unfold Dat.leavesExact; rw [show cfg1.idle 3 (cfg1.grid.coords t) = false from rfl, after3]
theorem leaves_in4 (c : Dev nD) (t : Fin cfg1.N) : (dat V c).leavesExact 4 t = owns (c : Thread nD τ) (ms4 t) fullShare (iblk V c 4 t) := by
  unfold Dat.leavesExact; rw [show cfg1.idle 4 (cfg1.grid.coords t) = false from rfl, after4]
theorem leaves_in5 (c : Dev nD) (t : Fin cfg1.N) : (dat V c).leavesExact 5 t = owns (c : Thread nD τ) (ms5 t) fullShare (iblk V c 5 t) := by
  unfold Dat.leavesExact; rw [show cfg1.idle 5 (cfg1.grid.coords t) = false from rfl, after5]
theorem leaves_in6 (c : Dev nD) (t : Fin cfg1.N) : (dat V c).leavesExact 6 t = owns (c : Thread nD τ) (ms6 t) fullShare (iblk V c 6 t) := by
  unfold Dat.leavesExact; rw [show cfg1.idle 6 (cfg1.grid.coords t) = false from rfl, after6]

/-- Output window 7 is written back at the last points only. -/
theorem noflush_out7 (t : Fin cfg1.N) (h : ¬t.val % 8 = 7) : (cfg1.win 7).flush t = false := by
  cases hf : (cfg1.win 7).flush t with
  | false => rfl
  | true => exact absurd ((flush1_7 t).mp hf) h
/-- Output window 8 is written back at the last points only. -/
theorem noflush_out8 (t : Fin cfg1.N) (h : ¬t.val % 8 = 7) : (cfg1.win 8).flush t = false := by
  cases hf : (cfg1.win 8).flush t with
  | false => rfl
  | true => exact absurd ((flush1_8 t).mp hf) h
/-- Output window 9 is written back at the last points only. -/
theorem noflush_out9 (t : Fin cfg1.N) (h : ¬t.val % 8 = 7) : (cfg1.win 9).flush t = false := by
  cases hf : (cfg1.win 9).flush t with
  | false => rfl
  | true => exact absurd ((flush1_9 t).mp hf) h

set_option maxHeartbeats 8000000 in
/-- The body at any point: the inputs' buffers hold their blocks; the point's place in its row of eight says which case it
    is; the invariant hands the body the accumulator at what the point before left (at anything at the region's first
    point) and takes it back at this point's contents; at a last point the three outputs go live together, elsewhere
    they are idle; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6,
    leaves_in0, leaves_in1, leaves_in2, leaves_in3, leaves_in4, leaves_in5, leaves_in6]
  rw [show (dat V c).owesAt () t.succ = (dat V c).owesAt () t.castSucc from rfl]
  rw [show (dat V c).Φ t.succ = iprop(owns (c : Thread nD τ) scM fullShare (acc V c t.val t.isLt)
      ∗ ((∃ d, owns (c : Thread nD τ) scM fullShare d) -∗ Pipeline.ΦA spec1 c)) from rfl]
  rw [show (dat V c).Φ t.castSucc = Phi V c t.val (Nat.le_of_lt t.isLt) from by dsimp only [dat]; simp only [Fin.coe_castSucc]]
  by_cases h7 : t.val % 8 = 7
  · have hc1 : condLast (grid1.coords t) := (hcondLast t).mpr h7
    have hc0 : ¬condFirst (grid1.coords t) := fun h => by have := (hcondFirst t).mp h; omega
    have hz0 : t.val ≠ 0 := by omega
    have hn0 : ¬t.val % 8 = 0 := by omega
    rw [show (dat V c).leavesExact 7 t = owns (c : Thread nD τ) (ms7 t) fullShare (out7At V c t hc1) from by
      unfold Dat.leavesExact; rw [live_out7 hc1, after7]; unfold outB7; rw [dif_pos hc1]]
    rw [show (dat V c).leavesExact 8 t = owns (c : Thread nD τ) (ms8 t) fullShare (out8At V c t hc1) from by
      unfold Dat.leavesExact; rw [live_out8 hc1, after8]; unfold outB8; rw [dif_pos hc1]]
    rw [show (dat V c).leavesExact 9 t = owns (c : Thread nD τ) (ms9 t) fullShare (out9At V c t hc1) from by
      unfold Dat.leavesExact; rw [live_out9 hc1, after9]; unfold outB9; rw [dif_pos hc1]]
    unfold out7At out8At out9At
    rw [Phi_pos V c _ _ hz0, acc_step V c t hn0]
    iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runC c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc1 : ¬condLast (grid1.coords t) := fun h => h7 ((hcondLast t).mp h)
    rw [Dat.leavesExact_idle (dat V c) 7 t (idle_out7 hc1) (noflush_out7 t h7),
      Dat.leavesExact_idle (dat V c) 8 t (idle_out8 hc1) (noflush_out8 t h7),
      Dat.leavesExact_idle (dat V c) 9 t (idle_out9 hc1) (noflush_out9 t h7)]
    by_cases h0 : t.val % 8 = 0
    · have hc0 : condFirst (grid1.coords t) := (hcondFirst t).mpr h0
      rw [acc_first V c t h0]
      by_cases hz : t.val = 0
      · rw [Phi_zero V c _ _ hz]
        refine (sep_mono (PhiA_open (F := F) c) .rfl).trans ?_
        iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS]; · iexact HS
        iintro ⟨H0, H1, H2, H3, H4, H5, H6, H7, H8, H9, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
      · rw [Phi_pos V c _ _ hz]
        iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS]; · iexists _; iexact HS
        iintro ⟨H0, H1, H2, H3, H4, H5, H6, H7, H8, H9, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
    · have hc0 : ¬condFirst (grid1.coords t) := fun h => h0 ((hcondFirst t).mp h)
      have hz0 : t.val ≠ 0 := fun e => h0 (by rw [e])
      rw [Phi_pos V c _ _ hz0, acc_step V c t h0]
      iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation (c : Dev nD) : BodyObligation (dat (F := F) V c) (defs₀ (F := F)) Variants.none () Set.univ := fun t => by
  rw [bigSep_W1, bigSep_W1]
  exact sound_body V c t

/-- The invariant before the first point is what the region's entry provides, -/
theorem Phi_first (c : Dev nD) : (dat V c).Φ 0 = Pipeline.ΦA spec1 c := rfl

/-- and after the last point it gives that back: the accumulator's contents are forgotten. -/
theorem Phi_last (c : Dev nD) : (dat V c).Φ (Fin.last cfg1.N) ⊢ Pipeline.ΦA spec1 c := by
  rw [show (dat V c).Φ (Fin.last cfg1.N) = Phi V c cfg1.N (le_refl _) from rfl,
    Phi_pos V c _ _ (by rw [show cfg1.N = 128 from N_1]; decide)]
  iintro ⟨HS, HW⟩
  iapply HW
  iexists _; iexact HS

end Cert.Kernel.R1

end
-- ==== Proof.KRegs.lean ====
import proofs.«102636_j72069551227476_2_alg».proof.Proof.KR0
import proofs.«102636_j72069551227476_2_alg».proof.Proof.KR1
import proofs.«102636_j72069551227476_2_alg».proof.Proof.Gen.Kernel.Regions
import Idealize.ShloMosaic.Lib.Pipeline.RegionsLoop
import Idealize.ShloMosaic.Lib.Pipeline.FrameSuffix

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The two regions over the thread state, and the program's frame

Between two items of @main a core holds every unscoped buffer whole at a valuation; region 0 is entered from the
launch contents after the host prefix and leaves its output array at what its write-backs fold to; region 1 is entered
from that and leaves its three. -/

/-- Region 0's entry contents, read at the TensorCore's references. -/
abbrev Ve0 : (c : Dev nD) → (b : Ref sig .tc) → Buf (Elt F) ((c : Thread nD τ).loc b) := fun c b => V4 m c b

/-- At region 0's exit: its arrays at what the pipeline leaves, every other buffer as entered. -/
def Wx0 (c : Dev nD) : Valuation τ sig (Elt F) :=
  Pipeline.withArrays spec0 c (V4 m c) fun w => (R0.dat (Ve0 m) c).arrAt w cfg0.N

/-- Region 1's entry contents: region 0's entry with the first layer's output array at what region 0 left. -/
abbrev We1 (c : Dev nD) : Valuation τ sig (Elt F) := Function.update (V4 m c) main_v9 (Wx0 m c main_v9)
abbrev Ve1 : (c : Dev nD) → (b : Ref sig .tc) → Buf (Elt F) ((c : Thread nD τ).loc b) := fun c b => We1 m c b

/-- At region 1's exit: its arrays at what the pipeline leaves, every other buffer as entered. -/
def Wx1 (c : Dev nD) : Valuation τ sig (Elt F) :=
  Pipeline.withArrays spec1 c (We1 m c) fun w => (R1.dat (Ve1 m) c).arrAt w cfg1.N

/-- What the regions leave in the buffers they may change. -/
def outs : Outs (F := F) := fun J r c => match J with
  | 5 => Wx0 m c r
  | _ => Wx1 m c r

theorem V5_eq (c : Dev nD) : V5 m (outs m) c = We1 m c := rfl

/-- The proof data, each region's at its entry contents. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 m) c

abbrev L : GSem nD τ sig → Finset Unit := fun _ => ∅
abbrev lv : GSem nD τ sig → Unit → ℕ := fun _ _ => 0

/-- What rides beside the buffers through every item: the core's generator register at some state, and its dues, none. -/
abbrev R (c : Dev nD) : sProp 𝕄 := iprop((∃ r, prngReg c r) ∗ ∃ W, owes (c : Thread nD τ) (0 : CellTallies nD τ sig Unit) W)

/-! ## Region 0's arrays at its exit -/

theorem Wx0_arr (c : Dev nD) (w : Fin cfg0.W) :
    Wx0 m c (Proc.devRef .tc (Pipeline.arrRef spec0 w)) = (R0.dat (Ve0 m) c).arrAt w cfg0.N := by
  unfold Wx0; exact Pipeline.withArrays_arr spec0 launch0.win.arr_inj c _ _ w

theorem hF0 (c : Dev nD) (w : Fin cfg0.W) : (pdats m 0 c).arrAt w cfg0.N = V5 m (outs m) c (Pipeline.arrRef spec0 w) := by
  show (R0.dat (Ve0 m) c).arrAt w cfg0.N = _
  fin_cases w
  · exact ((R0.dat (Ve0 m) c).arrAt_in 0 rfl _).trans ((R0.A_eq (Ve0 m) c 0).trans (V5_of m (outs m) c _ (by decide)).symm)
  · exact ((R0.dat (Ve0 m) c).arrAt_in 1 rfl _).trans ((R0.A_eq (Ve0 m) c 1).trans (V5_of m (outs m) c _ (by decide)).symm)
  · exact ((R0.dat (Ve0 m) c).arrAt_in 2 rfl _).trans ((R0.A_eq (Ve0 m) c 2).trans (V5_of m (outs m) c _ (by decide)).symm)
  · exact ((R0.dat (Ve0 m) c).arrAt_in 3 rfl _).trans ((R0.A_eq (Ve0 m) c 3).trans (V5_of m (outs m) c _ (by decide)).symm)
  · exact ((R0.dat (Ve0 m) c).arrAt_in 4 rfl _).trans ((R0.A_eq (Ve0 m) c 4).trans (V5_of m (outs m) c _ (by decide)).symm)
  · exact (Wx0_arr m c 5).symm.trans (Function.update_self (f := V4 m c) (Proc.devRef .tc main_v9) _).symm

theorem hrest0 (c : Dev nD) : ∀ b, b ∉ Finset.univ.image (Pipeline.arrRef spec0) → V5 m (outs m) c b = V4 m c b :=
  fun b hb => V5_of m (outs m) c b (by
    intro h
    rw [List.mem_singleton] at h
    exact hb (h ▸ Finset.mem_image.mpr ⟨5, Finset.mem_univ _, rfl⟩))

set_option backward.isDefEq.respectTransparency.types false in
/-- REGION 0 over the thread state: entered from every unscoped buffer at the host prefix's contents, left with the
    first layer's output array at what the write-backs fold to. Its arrays are split out of the unscoped buffers and put
    back; the generator register goes into the region's invariant and comes out; nothing is owed; the kernel has no
    semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.Phi_last (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## Region 1's arrays at its exit -/

theorem Wx1_arr (c : Dev nD) (w : Fin cfg1.W) :
    Wx1 m c (Proc.devRef .tc (Pipeline.arrRef spec1 w)) = (R1.dat (Ve1 m) c).arrAt w cfg1.N := by
  unfold Wx1; exact Pipeline.withArrays_arr spec1 launch1.win.arr_inj c _ _ w

theorem V6_v10_0 (c : Dev nD) : V6 m (outs m) c main_v10_0 = Wx1 m c main_v10_0 :=
  (Function.update_of_ne (StableHlo.devRef_ne_of_ne (by decide : (main_v10_0 : Ref sig .tc) ≠ main_v10_2)) _ _).trans
    ((Function.update_of_ne (StableHlo.devRef_ne_of_ne (by decide : (main_v10_0 : Ref sig .tc) ≠ main_v10_1)) _ _).trans (Function.update_self _ _ _))
theorem V6_v10_1 (c : Dev nD) : V6 m (outs m) c main_v10_1 = Wx1 m c main_v10_1 :=
  (Function.update_of_ne (StableHlo.devRef_ne_of_ne (by decide : (main_v10_1 : Ref sig .tc) ≠ main_v10_2)) _ _).trans (Function.update_self _ _ _)
theorem V6_v10_2 (c : Dev nD) : V6 m (outs m) c main_v10_2 = Wx1 m c main_v10_2 := Function.update_self _ _ _

theorem in1 (c : Dev nD) (w : Fin cfg1.W) (hw : (cfg1.win w).isOut = false) (hne : Pipeline.arrRef spec1 w ∉ ([main_v10_0, main_v10_1, main_v10_2] : List (Ref sig .tc))) :
    (R1.dat (Ve1 m) c).arrAt w cfg1.N = V6 m (outs m) c (Pipeline.arrRef spec1 w) :=
  ((R1.dat (Ve1 m) c).arrAt_in w hw _).trans ((R1.A_eq (Ve1 m) c w).trans (V6_of m (outs m) c _ hne).symm)

theorem hF1 (c : Dev nD) (w : Fin cfg1.W) : (pdats m 1 c).arrAt w cfg1.N = V6 m (outs m) c (Pipeline.arrRef spec1 w) := by
  show (R1.dat (Ve1 m) c).arrAt w cfg1.N = _
  fin_cases w
  · exact in1 m c 0 rfl (by decide)
  · exact in1 m c 1 rfl (by decide)
  · exact in1 m c 2 rfl (by decide)
  · exact in1 m c 3 rfl (by decide)
  · exact in1 m c 4 rfl (by decide)
  · exact in1 m c 5 rfl (by decide)
  · exact in1 m c 6 rfl (by decide)
  · exact (Wx1_arr m c 7).symm.trans (V6_v10_0 m c).symm
  · exact (Wx1_arr m c 8).symm.trans (V6_v10_1 m c).symm
  · exact (Wx1_arr m c 9).symm.trans (V6_v10_2 m c).symm

theorem hrest1 (c : Dev nD) : ∀ b, b ∉ Finset.univ.image (Pipeline.arrRef spec1) → V6 m (outs m) c b = We1 m c b :=
  fun b hb => V6_of m (outs m) c b (by
    intro h
    simp only [List.mem_cons, List.mem_singleton, List.not_mem_nil, or_false] at h
    rcases h with h | h | h
    · exact hb (h ▸ Finset.mem_image.mpr ⟨7, Finset.mem_univ _, rfl⟩)
    · exact hb (h ▸ Finset.mem_image.mpr ⟨8, Finset.mem_univ _, rfl⟩)
    · exact hb (h ▸ Finset.mem_image.mpr ⟨9, Finset.mem_univ _, rfl⟩))

set_option backward.isDefEq.respectTransparency.types false in
/-- REGION 1 over the thread state: entered from region 0's exit contents, left with its three output arrays at what the
    write-backs fold to; otherwise as region 0. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.Phi_last (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's element yields the pipelines' at every staging cell; no other ghost resource is needed. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: its generator register at some state, owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- Every weakly fair execution of @main terminates, nothing faulting, and the argument arrays end as launched: the
    generated conditional frame at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () Variants.none L lv (fun _ _ => rfl) ρ (outs m) (pdats m) (O₀ := 0) (G := fun _ => iprop(emp))
    (u₀ := initOf (Pipeline.cells cfgs cellOf_inj) (Pipeline.launchToks cfgs cellOf_inj)) (hu₀ := hu0)
    (E := fun _ c => R c) (hE0 := hE0 ρ) (hE2 := hE2)
    (reg0 m) (fun c => .rfl) (fun c => .rfl) (reg1 m) (fun c => .rfl) (fun c => .rfl)

end Cert.Kernel.Regs

end
-- ==== Proof.KIR0.lean ====
import proofs.«102636_j72069551227476_2_alg».proof.Proof.Gen.KernelIdeal.Launch
import proofs.«102636_j72069551227476_2_alg».proof.Proof.Gen.KernelIdeal.Skeleton
import proofs.«102636_j72069551227476_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0: one GraphSAGE layer, `relu (x · Wx + (adj · x) · Ws + b)`, on a 16 × 8 grid

Point `(i, k)` multiplies the `1024 × 2048` block `(i, k)` of `adj` with rows `2048 k … 2048 k + 2047` of `x` and adds the
product to an accumulator carried from point to point (zeroed first where `k = 0`); where `k = 7` the accumulator holds
rows `1024 i …` of `adj · x`, and the point stores the layer's output block. -/

/-! ## Which points zero the accumulator and which store the output -/

/-- `k = 0`: the accumulator is zeroed before it is added to. -/
abbrev condFirst (i : grid0.Coords) : Prop :=
  (Scalar.cmpi .ne (Scalar.extui (Scalar.cmpi .eq (BitVec.ofNat 32 (i 1).val) 0#32)) 0#32) = 1#1
/-- `k = 7`: the output block is computed and stored. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- Where the output is not stored its window is idle, -/
theorem idle_out {i : grid0.Coords} (h : ¬condLast i) : cfg0.idle 5 i = true := by
  show (!(k0_cond2 i == 1#1)) = true
  simp only [Bool.not_eq_true', beq_eq_false_iff_ne, ne_eq]; exact h
/-- and where it is stored it is live. -/
theorem live_out {i : grid0.Coords} (h : condLast i) : cfg0.idle 5 i = false := by
  show (!(k0_cond2 i == 1#1)) = false
  simp only [Bool.not_eq_false', beq_iff_eq]; exact h

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The accumulator: a scoped buffer of the kernel's own. -/
abbrev scM : Memref sig .tc .vmem S1024x128 .f32 := Memref.whole cc0_scratch0

/-- The accumulator taken out of the scoped buffers the pipeline does not stage, with the way back. -/
theorem PhiA_open (c : Dev nD) :
    (Pipeline.ΦA spec0 c : sProp 𝕄)
      ⊢ iprop((∃ d, owns (c : Thread nD τ) scM fullShare d) ∗ ((∃ d, owns (c : Thread nD τ) scM fullShare d) -∗ Pipeline.ΦA spec0 c)) := by
  unfold Pipeline.ΦA; rw [scopedRest0_eq]; simp only [scM, owns_whole]
  iintro ⟨⟨HS, Hrest⟩, Hg⟩
  isplitl [HS]; · iexact HS
  iintro HS
  isplitl [HS Hrest]
  · isplitl [HS]; · iexact HS
    iexact Hrest
  iexact Hg

/-! ## What a point loads of `x` -/

/-- Rows `2048 k …` of `x`: what the point multiplies the `adj` block with. -/
abbrev xk (i : grid0.Coords) (x : Vec F S16384x128 .f32) : Vec F S2048x128 .f32 :=
  View.ld x (Rect.unit (s := S16384x128) (k0_off1 i) S2048x128.size (k0_off1_inb i))
/-- Rows `1024 i …` of `x`: the output block's own rows. -/
abbrev xi (i : grid0.Coords) (h : condLast i) (x : Vec F S16384x128 .f32) : Vec F S1024x128 .f32 :=
  View.ld x (Rect.unit (s := S16384x128) (k0_off2 i) S1024x128.size (k0_off2_inb i h))

/-! ## The body, case by case -/

/-- The zero offsets, however spelt. -/
theorem hz : (![0, 0] : Fin 2 → ℕ) = fun _ => 0 := by funext a; fin_cases a <;> rfl

set_option maxHeartbeats 2000000 in
/-- A first point (`k = 0`): the accumulator, whatever it held, ends at `0 +` the product. -/
theorem runA (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : condFirst i) (hc1 : ¬condLast i) (a : Vec F S1024x2048 .f32) (x : Vec F S16384x128 .f32) (wx ws : Vec F S128x128 .f32) (b : Vec F S1x128 .f32) (o : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ (∃ d, owns (c : Thread nD τ) arg8 fullShare d)
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare (k0_pay2 (xk i x) a (k0_pay1 (F := F)))) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_cons_unit_zero hz]
  simp only [View.readAt_eq_ld, harg3.read_unread, harg2.read_unread, View.ld_unit_zero (S := S1024x2048) hz, View.readCov_unit_zero (S := S1024x128) _ hz]
  rfl

set_option maxHeartbeats 2000000 in
/-- A middle point (`0 < k < 7`): the product is added to the accumulator. -/
theorem runB (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : ¬condFirst i) (hc1 : ¬condLast i) (a : Vec F S1024x2048 .f32) (x : Vec F S16384x128 .f32) (wx ws : Vec F S128x128 .f32) (b : Vec F S1x128 .f32) (o s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare o ∗ owns (c : Thread nD τ) arg8 fullShare (k0_pay2 (xk i x) a s)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg8.read_unread, View.ld_unit_zero (S := S1024x2048) hz, View.ld_unit_zero (S := S1024x128) hz]
  rfl

set_option maxHeartbeats 2000000 in
/-- A last point (`k = 7`): the product is added to the accumulator, and the output block is stored: the layer on the
    block's own rows of `x` and the finished accumulator. -/
theorem runC (c : Dev nD) (i : grid0.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x128 .f32) (harg8 : arg8.IsWhole)
    (hc0 : ¬condFirst i) (hc1 : condLast i) (a : Vec F S1024x2048 .f32) (x : Vec F S16384x128 .f32) (wx ws : Vec F S128x128 .f32) (b : Vec F S1x128 .f32) (s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ (∃ o, owns (c : Thread nD τ) arg7 fullShare o) ∗ owns (c : Thread nD τ) arg8 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare (k0_pay3 (xi i hc1 x) (k0_pay2 (xk i x) a s) ws wx b) ∗ owns (c : Thread nD τ) arg8 fullShare (k0_pay2 (xk i x) a s)) -∗ K ⟨⟩))
      ⊢ wp frame (wpE (defs₀ (F := F)) Variants.none c none) E (cc0__sage_kernel i arg2 harg2 arg3 harg3 arg4 harg4 arg5 harg5 arg6 harg6 arg7 harg7 arg8 harg8) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%o7, %f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg8.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  iexists _; isplitr; swap; · iexact H8
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg8.read_unread, View.ld_unit_zero (S := S1024x2048) hz, View.ld_unit_zero (S := S1024x128) hz]
  rfl

/-! ## What the accumulator and the output's buffer hold, point by point -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: the point's product added to what the point before left, or to zero at a first
    point (`n ≡ 0 mod 8`). -/
def acc (c : Dev nD) : (n : ℕ) → n < cfg0.N → Vec F S1024x128 .f32
  | 0, hn => k0_pay2 (xk (grid0.coords ⟨0, hn⟩) (iblk V c 1 ⟨0, hn⟩)) (iblk V c 0 ⟨0, hn⟩) (k0_pay1 (F := F))
  | n + 1, hn => k0_pay2 (xk (grid0.coords ⟨n + 1, hn⟩) (iblk V c 1 ⟨n + 1, hn⟩)) (iblk V c 0 ⟨n + 1, hn⟩)
      (if (n + 1) % 8 = 0 then k0_pay1 (F := F) else acc c n (Nat.lt_of_succ_lt hn))

theorem acc_first (c : Dev nD) (t : Fin cfg0.N) (h : t.val % 8 = 0) :
    acc V c t.val t.isLt = k0_pay2 (xk (grid0.coords t) (iblk V c 1 t)) (iblk V c 0 t) (k0_pay1 (F := F)) := by
  obtain ⟨n, hn⟩ := t
  cases n with
  | zero => rfl
  | succ n => show k0_pay2 _ _ (if (n + 1) % 8 = 0 then _ else _) = _; rw [if_pos h]

theorem acc_step (c : Dev nD) (t : Fin cfg0.N) (h : ¬t.val % 8 = 0) :
    acc V c t.val t.isLt = k0_pay2 (xk (grid0.coords t) (iblk V c 1 t)) (iblk V c 0 t)
      (acc V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 8 = 0 then _ else _) = _; rw [if_neg h]; rfl

/-- The output block a last point stores. -/
def outAt (c : Dev nD) (t : Fin cfg0.N) (h : condLast (grid0.coords t)) : Vec F S1024x128 .f32 :=
  k0_pay3 (xi (grid0.coords t) h (iblk V c 1 t)) (acc V c t.val t.isLt) (iblk V c 3 t) (iblk V c 2 t) (iblk V c 4 t)

/-- What the proof data names the output's buffer after point `t`: the stored block at a last point (elsewhere the
    window is idle and the name is never read). -/
def outB (c : Dev nD) (t : Fin cfg0.N) : Vec F S1024x128 .f32 :=
  if h : condLast (grid0.coords t) then outAt V c t h else k0_pay1 (F := F)

/-- The invariant before point `n`: at the region's entry the scoped buffers the pipeline does not stage, at anything;
    afterwards the accumulator at what point `n - 1` left, beside the way back to the entry form. -/
def Phi (c : Dev nD) : (n : ℕ) → n ≤ cfg0.N → sProp 𝕄
  | 0, _ => Pipeline.ΦA spec0 c
  | n + 1, hn => iprop(owns (c : Thread nD τ) scM fullShare (acc V c n hn)
      ∗ ((∃ d, owns (c : Thread nD τ) scM fullShare d) -∗ Pipeline.ΦA spec0 c))

theorem Phi_pos (c : Dev nD) (n : ℕ) (h : n ≤ cfg0.N) (hz : n ≠ 0) :
    Phi V c n h = iprop(owns (c : Thread nD τ) scM fullShare (acc V c (n - 1) (by omega))
      ∗ ((∃ d, owns (c : Thread nD τ) scM fullShare d) -∗ Pipeline.ΦA spec0 c)) := by
  cases n with
  | zero => exact absurd rfl hz
  | succ n => rfl

/-! ## The proof data -/

/-- The arrays as the region finds them; after the body each input's buffer at its block, the output's at `outB`; the
    invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outB V c t
  Φ t := Phi V c t.val (Nat.le_of_lt_succ t.isLt)
  q _ := fullShare
  owed _ := 0

theorem A_eq (c : Dev nD) (w : Fin cfg0.W) : (dat V c).A w = V c (Pipeline.arrRef spec0 w) := by dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = outB V c t := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_in0 (c : Dev nD) (t : Fin cfg0.N) : (dat V c).leavesExact 0 t = owns (c : Thread nD τ) (ms0 t) fullShare (iblk V c 0 t) := by
  unfold Dat.leavesExact; rw [show cfg0.idle 0 (cfg0.grid.coords t) = false from rfl, after0]
theorem leaves_in1 (c : Dev nD) (t : Fin cfg0.N) : (dat V c).leavesExact 1 t = owns (c : Thread nD τ) (ms1 t) fullShare (iblk V c 1 t) := by
  unfold Dat.leavesExact; rw [show cfg0.idle 1 (cfg0.grid.coords t) = false from rfl, after1]
theorem leaves_in2 (c : Dev nD) (t : Fin cfg0.N) : (dat V c).leavesExact 2 t = owns (c : Thread nD τ) (ms2 t) fullShare (iblk V c 2 t) := by
  unfold Dat.leavesExact; rw [show cfg0.idle 2 (cfg0.grid.coords t) = false from rfl, after2]
theorem leaves_in3 (c : Dev nD) (t : Fin cfg0.N) : (dat V c).leavesExact 3 t = owns (c : Thread nD τ) (ms3 t) fullShare (iblk V c 3 t) := by
  unfold Dat.leavesExact; rw [show cfg0.idle 3 (cfg0.grid.coords t) = false from rfl, after3]
theorem leaves_in4 (c : Dev nD) (t : Fin cfg0.N) : (dat V c).leavesExact 4 t = owns (c : Thread nD τ) (ms4 t) fullShare (iblk V c 4 t) := by
  unfold Dat.leavesExact; rw [show cfg0.idle 4 (cfg0.grid.coords t) = false from rfl, after4]

theorem Phi_zero (c : Dev nD) (n : ℕ) (h : n ≤ cfg0.N) (hz : n = 0) : Phi V c n h = Pipeline.ΦA spec0 c := by
  subst hz; rfl

/-- The output is written back at the last points only. -/
theorem noflush_out (t : Fin cfg0.N) (h : ¬t.val % 8 = 7) : (cfg0.win 5).flush t = false := by
  cases hf : (cfg0.win 5).flush t with
  | false => rfl
  | true => exact absurd ((flush0_5 t).mp hf) h

set_option maxHeartbeats 4800000 in
/-- The body at any point: the inputs' buffers hold their blocks; the point's place in its row of eight says which case it
    is; the invariant hands the body the accumulator at what the point before left (at anything at the region's first
    point) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, leaves_in0, leaves_in1, leaves_in2, leaves_in3, leaves_in4]
  rw [show (dat V c).owesAt () t.succ = (dat V c).owesAt () t.castSucc from rfl]
  rw [show (dat V c).Φ t.succ = iprop(owns (c : Thread nD τ) scM fullShare (acc V c t.val t.isLt)
      ∗ ((∃ d, owns (c : Thread nD τ) scM fullShare d) -∗ Pipeline.ΦA spec0 c)) from rfl]
  rw [show (dat V c).Φ t.castSucc = Phi V c t.val (Nat.le_of_lt t.isLt) from by dsimp only [dat]; simp only [Fin.coe_castSucc]]
  by_cases h7 : t.val % 8 = 7
  · have hc1 : condLast (grid0.coords t) := (hcondLast t).mpr h7
    have hc0 : ¬condFirst (grid0.coords t) := fun h => by have := (hcondFirst t).mp h; omega
    have hz0 : t.val ≠ 0 := by omega
    have hn0 : ¬t.val % 8 = 0 := by omega
    rw [show (dat V c).leavesExact 5 t = owns (c : Thread nD τ) (ms5 t) fullShare (outAt V c t hc1) from by
      unfold Dat.leavesExact; rw [live_out hc1, after5]; unfold outB; rw [dif_pos hc1]]
    unfold outAt
    rw [Phi_pos V c _ _ hz0, acc_step V c t hn0]
    iintro ⟨⟨HS, HW⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ hc0 hc1 (iblk V c 0 t) (iblk V c 1 t) (iblk V c 2 t) (iblk V c 3 t) (iblk V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    iexact H5
  · have hc1 : ¬condLast (grid0.coords t) := fun h => h7 ((hcondLast t).mp h)
    rw [Dat.leavesExact_idle (dat V c) 5 t (idle_out hc1) (noflush_out t h7)]
    by_cases h0 : t.val % 8 = 0
    · have hc0 : condFirst (grid0.coords t) := (hcondFirst t).mpr h0
      rw [acc_first V c t h0]
      by_cases hz : t.val = 0
      · rw [Phi_zero V c _ _ hz]
        refine (sep_mono (PhiA_open (F := F) c) .rfl).trans ?_
        iintro ⟨⟨HS, HW⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ hc0 hc1 (iblk V c 0 t) (iblk V c 1 t) (iblk V c 2 t) (iblk V c 3 t) (iblk V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi_pos V c _ _ hz]
        iintro ⟨⟨HS, HW⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ hc0 hc1 (iblk V c 0 t) (iblk V c 1 t) (iblk V c 2 t) (iblk V c 3 t) (iblk V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        iexists _; iexact H5
    · have hc0 : ¬condFirst (grid0.coords t) := fun h => h0 ((hcondFirst t).mp h)
      have hz0 : t.val ≠ 0 := fun e => h0 (by rw [e])
      rw [Phi_pos V c _ _ hz0, acc_step V c t h0]
      iintro ⟨⟨HS, HW⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ hc0 hc1 (iblk V c 0 t) (iblk V c 1 t) (iblk V c 2 t) (iblk V c 3 t) (iblk V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is what the region's entry provides, -/
theorem Phi_first (c : Dev nD) : (dat V c).Φ 0 = Pipeline.ΦA spec0 c := rfl

/-- and after the last point it gives that back: the accumulator's contents are forgotten. -/
theorem Phi_last (c : Dev nD) : (dat V c).Φ (Fin.last cfg0.N) ⊢ Pipeline.ΦA spec0 c := by
  rw [show (dat V c).Φ (Fin.last cfg0.N) = Phi V c cfg0.N (le_refl _) from rfl,
    Phi_pos V c _ _ (by rw [show cfg0.N = 128 from N_0]; decide)]
  iintro ⟨HS, HW⟩
  iapply HW
  iexists _; iexact HS

end Cert.KernelIdeal.R0

end
-- ==== Proof.KIR1.lean ====
import proofs.«102636_j72069551227476_2_alg».proof.Proof.Gen.KernelIdeal.Launch
import proofs.«102636_j72069551227476_2_alg».proof.Proof.Gen.KernelIdeal.Skeleton
import proofs.«102636_j72069551227476_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: the second GraphSAGE layer and the classifier head, on a 16 × 8 grid

With `x` the first layer's output, point `(i, k)` multiplies the `1024 × 2048` block `(i, k)` of `adj` with rows
`2048 k … 2048 k + 2047` of `x` and adds the product to an accumulator carried from point to point (zeroed first where
`k = 0`); where `k = 7` the accumulator holds rows `1024 i …` of `adj · x`, and the point stores three blocks: the hidden
layer `h = relu (x · Wx + (adj · x) · Ws + b)`, the logits `h · W₂ + b₂`, and the log-softmax of the logits over their
first `40` columns. -/

/-! ## Which points zero the accumulator and which store the outputs -/

/-- `k = 0`: the accumulator is zeroed before it is added to. -/
abbrev condFirst (i : grid1.Coords) : Prop :=
  (Scalar.cmpi .ne (Scalar.extui (Scalar.cmpi .eq (BitVec.ofNat 32 (i 1).val) 0#32)) 0#32) = 1#1
/-- `k = 7`: the output blocks are computed and stored. -/
abbrev condLast (i : grid1.Coords) : Prop := k1_cond2 i = 1#1

theorem hcondFirst : ∀ t : Fin cfg1.N, condFirst (grid1.coords t) ↔ t.val % 8 = 0 :=
  (by decide +kernel : ∀ t : Fin grid1.N, condFirst (grid1.coords t) ↔ t.val % 8 = 0)
theorem hcondLast : ∀ t : Fin cfg1.N, condLast (grid1.coords t) ↔ t.val % 8 = 7 :=
  (by decide +kernel : ∀ t : Fin grid1.N, condLast (grid1.coords t) ↔ t.val % 8 = 7)

/-- Where the outputs are not stored window 7 is idle, -/
theorem idle_out7 {i : grid1.Coords} (h : ¬condLast i) : cfg1.idle 7 i = true := by
  show (!(k1_cond2 i == 1#1)) = true
  simp only [Bool.not_eq_true', beq_eq_false_iff_ne, ne_eq]; exact h
/-- and where they are stored it is live. -/
theorem live_out7 {i : grid1.Coords} (h : condLast i) : cfg1.idle 7 i = false := by
  show (!(k1_cond2 i == 1#1)) = false
  simp only [Bool.not_eq_false', beq_iff_eq]; exact h
/-- Where the outputs are not stored window 8 is idle, -/
theorem idle_out8 {i : grid1.Coords} (h : ¬condLast i) : cfg1.idle 8 i = true := by
  show (!(k1_cond2 i == 1#1)) = true
  simp only [Bool.not_eq_true', beq_eq_false_iff_ne, ne_eq]; exact h
/-- and where they are stored it is live. -/
theorem live_out8 {i : grid1.Coords} (h : condLast i) : cfg1.idle 8 i = false := by
  show (!(k1_cond2 i == 1#1)) = false
  simp only [Bool.not_eq_false', beq_iff_eq]; exact h
/-- Where the outputs are not stored window 9 is idle, -/
theorem idle_out9 {i : grid1.Coords} (h : ¬condLast i) : cfg1.idle 9 i = true := by
  show (!(k1_cond2 i == 1#1)) = true
  simp only [Bool.not_eq_true', beq_eq_false_iff_ne, ne_eq]; exact h
/-- and where they are stored it is live. -/
theorem live_out9 {i : grid1.Coords} (h : condLast i) : cfg1.idle 9 i = false := by
  show (!(k1_cond2 i == 1#1)) = false
  simp only [Bool.not_eq_false', beq_iff_eq]; exact h

/-! ## The memrefs the body is called with -/

abbrev ms0 (t : Fin cfg1.N) : Memref sig .tc .vmem S1024x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16384x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S128x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1024x128 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1024x128 .f32 := win1_9.stage (cfg1.slots t 9)
abbrev hs9 (t : Fin cfg1.N) : (ms9 t).IsWhole := hstage1_9 ((cfg1.slots t 9).cast nbuf1_9)
/-- The accumulator: a scoped buffer of the kernel's own. -/
abbrev scM : Memref sig .tc .vmem S1024x128 .f32 := Memref.whole cc1_scratch0

/-- The accumulator taken out of the scoped buffers the pipeline does not stage (it is the last of the ten), with the
    way back. -/
theorem PhiA_open (c : Dev nD) :
    (Pipeline.ΦA spec1 c : sProp 𝕄)
      ⊢ iprop((∃ d, owns (c : Thread nD τ) scM fullShare d) ∗ ((∃ d, owns (c : Thread nD τ) scM fullShare d) -∗ Pipeline.ΦA spec1 c)) := by
  unfold Pipeline.ΦA; rw [scopedRest1_eq]; simp only [scM, owns_whole]
  iintro ⟨⟨R0, R1, R2, R3, R4, R5, R6, R7, R8, HS⟩, Hg⟩
  isplitl [HS]; · iexact HS
  iintro HS
  isplitl [R0 R1 R2 R3 R4 R5 R6 R7 R8 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-! ## What a point loads of `x` -/

/-- Rows `2048 k …` of `x`: what the point multiplies the `adj` block with. -/
abbrev xk (i : grid1.Coords) (x : Vec F S16384x128 .f32) : Vec F S2048x128 .f32 :=
  View.ld x (Rect.unit (s := S16384x128) (k1_off1 i) S2048x128.size (k1_off1_inb i))
/-- Rows `1024 i …` of `x`: the output blocks' own rows. -/
abbrev xi (i : grid1.Coords) (h : condLast i) (x : Vec F S16384x128 .f32) : Vec F S1024x128 .f32 :=
  View.ld x (Rect.unit (s := S16384x128) (k1_off2 i) S1024x128.size (k1_off2_inb i h))

/-! ## The body, case by case -/

/-- The zero offsets, however spelt. -/
theorem hz : (![0, 0] : Fin 2 → ℕ) = fun _ => 0 := by funext a; fin_cases a <;> rfl

set_option maxHeartbeats 4000000 in
/-- A first point (`k = 0`): the accumulator, whatever it held, ends at `0 +` the product; the three outputs' buffers are left as found. -/
theorem runA (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : condFirst i) (hc1 : ¬condLast i) (a : Vec F S1024x2048 .f32) (x : Vec F S16384x128 .f32) (wx ws : Vec F S128x128 .f32) (b : Vec F S1x128 .f32) (w2 : Vec F S128x128 .f32) (b2 : Vec F S1x128 .f32) (o9 o10 o11 : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ (∃ d, owns (c : Thread nD τ) arg12 fullShare d)
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare (k1_pay2 (xk i x) a (k1_pay1 (F := F)))) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_cons_unit_zero hz]
  simp only [View.readAt_eq_ld, harg3.read_unread, harg2.read_unread, View.ld_unit_zero (S := S1024x2048) hz, View.readCov_unit_zero (S := S1024x128) _ hz]
  rfl

set_option maxHeartbeats 4000000 in
/-- A middle point (`0 < k < 7`): the product is added to the accumulator; the three outputs' buffers are left as found. -/
theorem runB (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : ¬condFirst i) (hc1 : ¬condLast i) (a : Vec F S1024x2048 .f32) (x : Vec F S16384x128 .f32) (wx ws : Vec F S128x128 .f32) (b : Vec F S1x128 .f32) (w2 : Vec F S128x128 .f32) (b2 : Vec F S1x128 .f32) (o9 o10 o11 s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare o9 ∗ owns (c : Thread nD τ) arg10 fullShare o10
        ∗ owns (c : Thread nD τ) arg11 fullShare o11 ∗ owns (c : Thread nD τ) arg12 fullShare (k1_pay2 (xk i x) a s)) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg12.read_unread, View.ld_unit_zero (S := S1024x2048) hz, View.ld_unit_zero (S := S1024x128) hz]
  rfl

set_option maxHeartbeats 4000000 in
/-- A last point (`k = 7`): the product is added to the accumulator, and the three output blocks are stored: the hidden layer on the block's own rows of `x` and the finished accumulator, the logits of that, and their masked log-softmax. -/
theorem runC (c : Dev nD) (i : grid1.Coords) (arg2 : Memref sig .tc .vmem S1024x2048 .f32) (harg2 : arg2.IsWhole) (arg3 : Memref sig .tc .vmem S16384x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x128 .f32) (harg11 : arg11.IsWhole)
    (arg12 : Memref sig .tc .vmem S1024x128 .f32) (harg12 : arg12.IsWhole)
    (hc0 : ¬condFirst i) (hc1 : condLast i) (a : Vec F S1024x2048 .f32) (x : Vec F S16384x128 .f32) (wx ws : Vec F S128x128 .f32) (b : Vec F S1x128 .f32) (w2 : Vec F S128x128 .f32) (b2 : Vec F S1x128 .f32) (s : Vec F S1024x128 .f32)
    (E : Set ℕ) (K : PUnit → sProp 𝕄) :
    iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ (∃ o, owns (c : Thread nD τ) arg9 fullShare o) ∗ (∃ o, owns (c : Thread nD τ) arg10 fullShare o)
        ∗ (∃ o, owns (c : Thread nD τ) arg11 fullShare o) ∗ owns (c : Thread nD τ) arg12 fullShare s
        ∗ (iprop(owns (c : Thread nD τ) arg2 fullShare a ∗ owns (c : Thread nD τ) arg3 fullShare x ∗ owns (c : Thread nD τ) arg4 fullShare wx
        ∗ owns (c : Thread nD τ) arg5 fullShare ws ∗ owns (c : Thread nD τ) arg6 fullShare b ∗ owns (c : Thread nD τ) arg7 fullShare w2
        ∗ owns (c : Thread nD τ) arg8 fullShare b2 ∗ owns (c : Thread nD τ) arg9 fullShare (k1_pay4 (xi i hc1 x) (k1_pay2 (xk i x) a s) ws wx b) ∗ owns (c : Thread nD τ) arg10 fullShare (k1_pay5 (xi i hc1 x) (k1_pay2 (xk i x) a s) ws wx b w2 b2)
        ∗ owns (c : Thread nD τ) arg11 fullShare (k1_pay3 (k1_pay5 (xi i hc1 x) (k1_pay2 (xk i x) a s) ws wx b w2 b2) (iota .tc S1024x128 32 [1] iota_S1024x128_d1_w32) 40#32) ∗ owns (c : Thread nD τ) arg12 fullShare (k1_pay2 (xk i x) a s)) -∗ K ⟨⟩))
      ⊢ wp frame (wpE (defs₀ (F := F)) Variants.none c none) E (cc1__sage_head_kernel i arg2 harg2 arg3 harg3 arg4 harg4 arg5 harg5 arg6 harg6 arg7 harg7 arg8 harg8 arg9 harg9 arg10 harg10 arg11 harg11 arg12 harg12) K := by
  simp only [cc1__sage_head_kernel_eq_skeleton]; unfold cc1__sage_head_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%o9, %f9, %hf9, H9⟩, ⟨%o10, %f10, %hf10, H10⟩, ⟨%o11, %f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  isplitl [H10]
  · iexists _; isplitr; swap; · iexact H10
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg7.read_unread, harg8.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  isplitl [H11]
  · iexists _; isplitr; swap; · iexact H11
    ipureintro
    sl_unfold_words
    rw [View.read_writes_eq_canon _ _ _ (fun y => ⟨_, List.mem_cons_self, View.mem_set_unit_zero hz inb_S1024x128_S1024x128_0_0 y⟩), View.canon_unit_zero hz]
    simp only [View.readAt_eq_ld, harg3.read_unread, harg2.read_unread, harg4.read_unread, harg5.read_unread, harg6.read_unread, harg7.read_unread, harg8.read_unread, harg12.read_unread,
      View.ld_unit_zero (S := S1024x2048) hz, View.ld_unit_zero (S := S1024x128) hz, View.ld_unit_zero (S := S128x128) hz, View.ld_unit_zero (S := S1x128) hz,
      View.readCov_unit_zero (S := S1024x128) _ hz]
    rfl
  iexists _; isplitr; swap; · iexact H12
  ipureintro
  sl_unfold_words
  rw [View.read_writes_eq_canon _ _ _ (fun y => ⟨_, List.mem_cons_self, View.mem_set_unit_zero hz inb_S1024x128_S1024x128_0_0 y⟩), View.canon_unit_zero hz]
  simp only [View.readAt_eq_ld, harg3.read_unread, harg2.read_unread, harg12.read_unread, View.ld_unit_zero (S := S1024x2048) hz, View.ld_unit_zero (S := S1024x128) hz]
  rfl

/-! ## What the accumulator and the outputs' buffers hold, point by point -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the point's product added to what the point before left, or to zero at a first
    point (`n ≡ 0 mod 8`). -/
def acc (c : Dev nD) : (n : ℕ) → n < cfg1.N → Vec F S1024x128 .f32
  | 0, hn => k1_pay2 (xk (grid1.coords ⟨0, hn⟩) (iblk V c 1 ⟨0, hn⟩)) (iblk V c 0 ⟨0, hn⟩) (k1_pay1 (F := F))
  | n + 1, hn => k1_pay2 (xk (grid1.coords ⟨n + 1, hn⟩) (iblk V c 1 ⟨n + 1, hn⟩)) (iblk V c 0 ⟨n + 1, hn⟩)
      (if (n + 1) % 8 = 0 then k1_pay1 (F := F) else acc c n (Nat.lt_of_succ_lt hn))

theorem acc_first (c : Dev nD) (t : Fin cfg1.N) (h : t.val % 8 = 0) :
    acc V c t.val t.isLt = k1_pay2 (xk (grid1.coords t) (iblk V c 1 t)) (iblk V c 0 t) (k1_pay1 (F := F)) := by
  obtain ⟨n, hn⟩ := t
  cases n with
  | zero => rfl
  | succ n => show k1_pay2 _ _ (if (n + 1) % 8 = 0 then _ else _) = _; rw [if_pos h]

theorem acc_step (c : Dev nD) (t : Fin cfg1.N) (h : ¬t.val % 8 = 0) :
    acc V c t.val t.isLt = k1_pay2 (xk (grid1.coords t) (iblk V c 1 t)) (iblk V c 0 t)
      (acc V c (t.val - 1) (Nat.lt_of_le_of_lt (Nat.sub_le _ _) t.isLt)) := by
  obtain ⟨n, hn⟩ := t
  cases n with
  | zero => exact absurd (Nat.zero_mod _) h
  | succ n => show k1_pay2 _ _ (if (n + 1) % 8 = 0 then _ else _) = _; rw [if_neg h]; rfl

/-- The hidden-layer block a last point stores: the layer on the block's own rows of `x` and the finished accumulator. -/
def out7At (c : Dev nD) (t : Fin cfg1.N) (h : condLast (grid1.coords t)) : Vec F S1024x128 .f32 :=
  k1_pay4 (xi (grid1.coords t) h (iblk V c 1 t)) (acc V c t.val t.isLt) (iblk V c 3 t) (iblk V c 2 t) (iblk V c 4 t)
/-- The logits block a last point stores: the hidden-layer block through the head's weights and bias. -/
def out8At (c : Dev nD) (t : Fin cfg1.N) (h : condLast (grid1.coords t)) : Vec F S1024x128 .f32 :=
  k1_pay5 (xi (grid1.coords t) h (iblk V c 1 t)) (acc V c t.val t.isLt) (iblk V c 3 t) (iblk V c 2 t) (iblk V c 4 t) (iblk V c 5 t) (iblk V c 6 t)
/-- The log-softmax block a last point stores: of the logits block, over the columns below `40`. -/
def out9At (c : Dev nD) (t : Fin cfg1.N) (h : condLast (grid1.coords t)) : Vec F S1024x128 .f32 :=
  k1_pay3 (k1_pay5 (xi (grid1.coords t) h (iblk V c 1 t)) (acc V c t.val t.isLt) (iblk V c 3 t) (iblk V c 2 t) (iblk V c 4 t) (iblk V c 5 t) (iblk V c 6 t))
    (iota .tc S1024x128 32 [1] iota_S1024x128_d1_w32) 40#32

/-- What the proof data names output window 7's buffer after point `t`: the stored block at a last point (elsewhere the
    window is idle and the name is never read). -/
def outB7 (c : Dev nD) (t : Fin cfg1.N) : Vec F S1024x128 .f32 :=
  if h : condLast (grid1.coords t) then out7At V c t h else k1_pay1 (F := F)
/-- What the proof data names output window 8's buffer after point `t`: the stored block at a last point (elsewhere the
    window is idle and the name is never read). -/
def outB8 (c : Dev nD) (t : Fin cfg1.N) : Vec F S1024x128 .f32 :=
  if h : condLast (grid1.coords t) then out8At V c t h else k1_pay1 (F := F)
/-- What the proof data names output window 9's buffer after point `t`: the stored block at a last point (elsewhere the
    window is idle and the name is never read). -/
def outB9 (c : Dev nD) (t : Fin cfg1.N) : Vec F S1024x128 .f32 :=
  if h : condLast (grid1.coords t) then out9At V c t h else k1_pay1 (F := F)

/-- The invariant before point `n`: at the region's entry the scoped buffers the pipeline does not stage, at anything;
    afterwards the accumulator at what point `n - 1` left, beside the way back to the entry form. -/
def Phi (c : Dev nD) : (n : ℕ) → n ≤ cfg1.N → sProp 𝕄
  | 0, _ => Pipeline.ΦA spec1 c
  | n + 1, hn => iprop(owns (c : Thread nD τ) scM fullShare (acc V c n hn)
      ∗ ((∃ d, owns (c : Thread nD τ) scM fullShare d) -∗ Pipeline.ΦA spec1 c))

theorem Phi_pos (c : Dev nD) (n : ℕ) (h : n ≤ cfg1.N) (hz : n ≠ 0) :
    Phi V c n h = iprop(owns (c : Thread nD τ) scM fullShare (acc V c (n - 1) (by omega))
      ∗ ((∃ d, owns (c : Thread nD τ) scM fullShare d) -∗ Pipeline.ΦA spec1 c)) := by
  cases n with
  | zero => exact absurd rfl hz
  | succ n => rfl

theorem Phi_zero (c : Dev nD) (n : ℕ) (h : n ≤ cfg1.N) (hz : n = 0) : Phi V c n h = Pipeline.ΦA spec1 c := by
  subst hz; rfl

/-! ## The proof data -/

/-- The arrays as the region finds them; after the body each input's buffer at its block, each output's at its `outB`;
    the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outB7 V c t
    | ⟨8, _⟩ => outB8 V c t
    | ⟨9, _⟩ => outB9 V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = outB7 V c t := by dsimp only [dat]
theorem after8 (c : Dev nD) (t : Fin cfg1.N) : (dat V c).after 8 t = outB8 V c t := by dsimp only [dat]
theorem after9 (c : Dev nD) (t : Fin cfg1.N) : (dat V c).after 9 t = outB9 V c t := by dsimp only [dat]

/-- Each input's current staging buffer holds its block at every point, fetched there or not. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t
    ∗ (dat V c).leavesExact 6 t ∗ (dat V c).leavesExact 7 t ∗ (dat V c).leavesExact 8 t
    ∗ (dat V c).leavesExact 9 t)

theorem leaves_in0 (c : Dev nD) (t : Fin cfg1.N) : (dat V c).leavesExact 0 t = owns (c : Thread nD τ) (ms0 t) fullShare (iblk V c 0 t) := by
  unfold Dat.leavesExact; rw [show cfg1.idle 0 (cfg1.grid.coords t) = false from rfl, after0]
theorem leaves_in1 (c : Dev nD) (t : Fin cfg1.N) : (dat V c).leavesExact 1 t = owns (c : Thread nD τ) (ms1 t) fullShare (iblk V c 1 t) := by
  unfold Dat.leavesExact; rw [show cfg1.idle 1 (cfg1.grid.coords t) = false from rfl, after1]
theorem leaves_in2 (c : Dev nD) (t : Fin cfg1.N) : (dat V c).leavesExact 2 t = owns (c : Thread nD τ) (ms2 t) fullShare (iblk V c 2 t) := by
  unfold Dat.leavesExact; rw [show cfg1.idle 2 (cfg1.grid.coords t) = false from rfl, after2]
theorem leaves_in3 (c : Dev nD) (t : Fin cfg1.N) : (dat V c).leavesExact 3 t = owns (c : Thread nD τ) (ms3 t) fullShare (iblk V c 3 t) := by
  unfold Dat.leavesExact; rw [show cfg1.idle 3 (cfg1.grid.coords t) = false from rfl, after3]
theorem leaves_in4 (c : Dev nD) (t : Fin cfg1.N) : (dat V c).leavesExact 4 t = owns (c : Thread nD τ) (ms4 t) fullShare (iblk V c 4 t) := by
  unfold Dat.leavesExact; rw [show cfg1.idle 4 (cfg1.grid.coords t) = false from rfl, after4]
theorem leaves_in5 (c : Dev nD) (t : Fin cfg1.N) : (dat V c).leavesExact 5 t = owns (c : Thread nD τ) (ms5 t) fullShare (iblk V c 5 t) := by
  unfold Dat.leavesExact; rw [show cfg1.idle 5 (cfg1.grid.coords t) = false from rfl, after5]
theorem leaves_in6 (c : Dev nD) (t : Fin cfg1.N) : (dat V c).leavesExact 6 t = owns (c : Thread nD τ) (ms6 t) fullShare (iblk V c 6 t) := by
  unfold Dat.leavesExact; rw [show cfg1.idle 6 (cfg1.grid.coords t) = false from rfl, after6]

/-- Output window 7 is written back at the last points only. -/
theorem noflush_out7 (t : Fin cfg1.N) (h : ¬t.val % 8 = 7) : (cfg1.win 7).flush t = false := by
  cases hf : (cfg1.win 7).flush t with
  | false => rfl
  | true => exact absurd ((flush1_7 t).mp hf) h
/-- Output window 8 is written back at the last points only. -/
theorem noflush_out8 (t : Fin cfg1.N) (h : ¬t.val % 8 = 7) : (cfg1.win 8).flush t = false := by
  cases hf : (cfg1.win 8).flush t with
  | false => rfl
  | true => exact absurd ((flush1_8 t).mp hf) h
/-- Output window 9 is written back at the last points only. -/
theorem noflush_out9 (t : Fin cfg1.N) (h : ¬t.val % 8 = 7) : (cfg1.win 9).flush t = false := by
  cases hf : (cfg1.win 9).flush t with
  | false => rfl
  | true => exact absurd ((flush1_9 t).mp hf) h

set_option maxHeartbeats 8000000 in
/-- The body at any point: the inputs' buffers hold their blocks; the point's place in its row of eight says which case it
    is; the invariant hands the body the accumulator at what the point before left (at anything at the region's first
    point) and takes it back at this point's contents; at a last point the three outputs go live together, elsewhere
    they are idle; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6,
    leaves_in0, leaves_in1, leaves_in2, leaves_in3, leaves_in4, leaves_in5, leaves_in6]
  rw [show (dat V c).owesAt () t.succ = (dat V c).owesAt () t.castSucc from rfl]
  rw [show (dat V c).Φ t.succ = iprop(owns (c : Thread nD τ) scM fullShare (acc V c t.val t.isLt)
      ∗ ((∃ d, owns (c : Thread nD τ) scM fullShare d) -∗ Pipeline.ΦA spec1 c)) from rfl]
  rw [show (dat V c).Φ t.castSucc = Phi V c t.val (Nat.le_of_lt t.isLt) from by dsimp only [dat]; simp only [Fin.coe_castSucc]]
  by_cases h7 : t.val % 8 = 7
  · have hc1 : condLast (grid1.coords t) := (hcondLast t).mpr h7
    have hc0 : ¬condFirst (grid1.coords t) := fun h => by have := (hcondFirst t).mp h; omega
    have hz0 : t.val ≠ 0 := by omega
    have hn0 : ¬t.val % 8 = 0 := by omega
    rw [show (dat V c).leavesExact 7 t = owns (c : Thread nD τ) (ms7 t) fullShare (out7At V c t hc1) from by
      unfold Dat.leavesExact; rw [live_out7 hc1, after7]; unfold outB7; rw [dif_pos hc1]]
    rw [show (dat V c).leavesExact 8 t = owns (c : Thread nD τ) (ms8 t) fullShare (out8At V c t hc1) from by
      unfold Dat.leavesExact; rw [live_out8 hc1, after8]; unfold outB8; rw [dif_pos hc1]]
    rw [show (dat V c).leavesExact 9 t = owns (c : Thread nD τ) (ms9 t) fullShare (out9At V c t hc1) from by
      unfold Dat.leavesExact; rw [live_out9 hc1, after9]; unfold outB9; rw [dif_pos hc1]]
    unfold out7At out8At out9At
    rw [Phi_pos V c _ _ hz0, acc_step V c t hn0]
    iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runC c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS HW]
    · isplitl [HS]; · iexact HS
      iexact HW
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc1 : ¬condLast (grid1.coords t) := fun h => h7 ((hcondLast t).mp h)
    rw [Dat.leavesExact_idle (dat V c) 7 t (idle_out7 hc1) (noflush_out7 t h7),
      Dat.leavesExact_idle (dat V c) 8 t (idle_out8 hc1) (noflush_out8 t h7),
      Dat.leavesExact_idle (dat V c) 9 t (idle_out9 hc1) (noflush_out9 t h7)]
    by_cases h0 : t.val % 8 = 0
    · have hc0 : condFirst (grid1.coords t) := (hcondFirst t).mpr h0
      rw [acc_first V c t h0]
      by_cases hz : t.val = 0
      · rw [Phi_zero V c _ _ hz]
        refine (sep_mono (PhiA_open (F := F) c) .rfl).trans ?_
        iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS]; · iexact HS
        iintro ⟨H0, H1, H2, H3, H4, H5, H6, H7, H8, H9, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
      · rw [Phi_pos V c _ _ hz]
        iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (runA c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS]; · iexists _; iexact HS
        iintro ⟨H0, H1, H2, H3, H4, H5, H6, H7, H8, H9, HS⟩
        isplitl [HS HW]
        · isplitl [HS]; · iexact HS
          iexact HW
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9
    · have hc0 : ¬condFirst (grid1.coords t) := fun h => h0 ((hcondFirst t).mp h)
      have hz0 : t.val ≠ 0 := fun e => h0 (by rw [e])
      rw [Phi_pos V c _ _ hz0, acc_step V c t h0]
      iintro ⟨⟨HS, HW⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid1.coords t) _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS HW]
      · isplitl [HS]; · iexact HS
        iexact HW
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The library's body obligation, at every point. -/
theorem body_obligation (c : Dev nD) : BodyObligation (dat (F := F) V c) (defs₀ (F := F)) Variants.none () Set.univ := fun t => by
  rw [bigSep_W1, bigSep_W1]
  exact sound_body V c t

/-- The invariant before the first point is what the region's entry provides, -/
theorem Phi_first (c : Dev nD) : (dat V c).Φ 0 = Pipeline.ΦA spec1 c := rfl

/-- and after the last point it gives that back: the accumulator's contents are forgotten. -/
theorem Phi_last (c : Dev nD) : (dat V c).Φ (Fin.last cfg1.N) ⊢ Pipeline.ΦA spec1 c := by
  rw [show (dat V c).Φ (Fin.last cfg1.N) = Phi V c cfg1.N (le_refl _) from rfl,
    Phi_pos V c _ _ (by rw [show cfg1.N = 128 from N_1]; decide)]
  iintro ⟨HS, HW⟩
  iapply HW
  iexists _; iexact HS

end Cert.KernelIdeal.R1

end
-- ==== Proof.KIRegs.lean ====
import proofs.«102636_j72069551227476_2_alg».proof.Proof.KIR0
import proofs.«102636_j72069551227476_2_alg».proof.Proof.KIR1
import proofs.«102636_j72069551227476_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The two regions over the thread state, and the program's frame

Between two items of @main a core holds every unscoped buffer whole at a valuation; region 0 is entered from the
launch contents after the host prefix and leaves its output array at what its write-backs fold to; region 1 is entered
from that and leaves its three. -/

/-- Region 0's entry contents, read at the TensorCore's references. -/
abbrev Ve0 : (c : Dev nD) → (b : Ref sig .tc) → Buf (Elt F) ((c : Thread nD τ).loc b) := fun c b => V4 m c b

/-- At region 0's exit: its arrays at what the pipeline leaves, every other buffer as entered. -/
def Wx0 (c : Dev nD) : Valuation τ sig (Elt F) :=
  Pipeline.withArrays spec0 c (V4 m c) fun w => (R0.dat (Ve0 m) c).arrAt w cfg0.N

/-- Region 1's entry contents: region 0's entry with the first layer's output array at what region 0 left. -/
abbrev We1 (c : Dev nD) : Valuation τ sig (Elt F) := Function.update (V4 m c) main_v9 (Wx0 m c main_v9)
abbrev Ve1 : (c : Dev nD) → (b : Ref sig .tc) → Buf (Elt F) ((c : Thread nD τ).loc b) := fun c b => We1 m c b

/-- At region 1's exit: its arrays at what the pipeline leaves, every other buffer as entered. -/
def Wx1 (c : Dev nD) : Valuation τ sig (Elt F) :=
  Pipeline.withArrays spec1 c (We1 m c) fun w => (R1.dat (Ve1 m) c).arrAt w cfg1.N

/-- What the regions leave in the buffers they may change. -/
def outs : Outs (F := F) := fun J r c => match J with
  | 5 => Wx0 m c r
  | _ => Wx1 m c r

theorem V5_eq (c : Dev nD) : V5 m (outs m) c = We1 m c := rfl

/-- The proof data, each region's at its entry contents. -/
def pdats : (p : Fin 2) → (c : Dev nD) → Dat τ (Elt F) Unit ℕ (UR sig nD τ) ℕ (Pipeline.pin (pcfgs (F := F)) adm p) c
  | ⟨0, _⟩ => fun c => R0.dat (Ve0 m) c
  | ⟨1, _⟩ => fun c => R1.dat (Ve1 m) c

abbrev L : GSem nD τ sig → Finset Unit := fun _ => ∅
abbrev lv : GSem nD τ sig → Unit → ℕ := fun _ _ => 0

/-- What rides beside the buffers through every item: the core's generator register at some state, and its dues, none. -/
abbrev R (c : Dev nD) : sProp 𝕄 := iprop((∃ r, prngReg c r) ∗ ∃ W, owes (c : Thread nD τ) (0 : CellTallies nD τ sig Unit) W)

/-! ## Region 0's arrays at its exit -/

theorem Wx0_arr (c : Dev nD) (w : Fin cfg0.W) :
    Wx0 m c (Proc.devRef .tc (Pipeline.arrRef spec0 w)) = (R0.dat (Ve0 m) c).arrAt w cfg0.N := by
  unfold Wx0; exact Pipeline.withArrays_arr spec0 launch0.win.arr_inj c _ _ w

theorem hF0 (c : Dev nD) (w : Fin cfg0.W) : (pdats m 0 c).arrAt w cfg0.N = V5 m (outs m) c (Pipeline.arrRef spec0 w) := by
  show (R0.dat (Ve0 m) c).arrAt w cfg0.N = _
  fin_cases w
  · exact ((R0.dat (Ve0 m) c).arrAt_in 0 rfl _).trans ((R0.A_eq (Ve0 m) c 0).trans (V5_of m (outs m) c _ (by decide)).symm)
  · exact ((R0.dat (Ve0 m) c).arrAt_in 1 rfl _).trans ((R0.A_eq (Ve0 m) c 1).trans (V5_of m (outs m) c _ (by decide)).symm)
  · exact ((R0.dat (Ve0 m) c).arrAt_in 2 rfl _).trans ((R0.A_eq (Ve0 m) c 2).trans (V5_of m (outs m) c _ (by decide)).symm)
  · exact ((R0.dat (Ve0 m) c).arrAt_in 3 rfl _).trans ((R0.A_eq (Ve0 m) c 3).trans (V5_of m (outs m) c _ (by decide)).symm)
  · exact ((R0.dat (Ve0 m) c).arrAt_in 4 rfl _).trans ((R0.A_eq (Ve0 m) c 4).trans (V5_of m (outs m) c _ (by decide)).symm)
  · exact (Wx0_arr m c 5).symm.trans (Function.update_self (f := V4 m c) (Proc.devRef .tc main_v9) _).symm

theorem hrest0 (c : Dev nD) : ∀ b, b ∉ Finset.univ.image (Pipeline.arrRef spec0) → V5 m (outs m) c b = V4 m c b :=
  fun b hb => V5_of m (outs m) c b (by
    intro h
    rw [List.mem_singleton] at h
    exact hb (h ▸ Finset.mem_image.mpr ⟨5, Finset.mem_univ _, rfl⟩))

set_option backward.isDefEq.respectTransparency.types false in
/-- REGION 0 over the thread state: entered from every unscoped buffer at the host prefix's contents, left with the
    first layer's output array at what the write-backs fold to. Its arrays are split out of the unscoped buffers and put
    back; the generator register goes into the region's invariant and comes out; nothing is owed; the kernel has no
    semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (Ve0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from R0.Phi_last (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## Region 1's arrays at its exit -/

theorem Wx1_arr (c : Dev nD) (w : Fin cfg1.W) :
    Wx1 m c (Proc.devRef .tc (Pipeline.arrRef spec1 w)) = (R1.dat (Ve1 m) c).arrAt w cfg1.N := by
  unfold Wx1; exact Pipeline.withArrays_arr spec1 launch1.win.arr_inj c _ _ w

theorem V6_v10_0 (c : Dev nD) : V6 m (outs m) c main_v10_0 = Wx1 m c main_v10_0 :=
  (Function.update_of_ne (StableHlo.devRef_ne_of_ne (by decide : (main_v10_0 : Ref sig .tc) ≠ main_v10_2)) _ _).trans
    ((Function.update_of_ne (StableHlo.devRef_ne_of_ne (by decide : (main_v10_0 : Ref sig .tc) ≠ main_v10_1)) _ _).trans (Function.update_self _ _ _))
theorem V6_v10_1 (c : Dev nD) : V6 m (outs m) c main_v10_1 = Wx1 m c main_v10_1 :=
  (Function.update_of_ne (StableHlo.devRef_ne_of_ne (by decide : (main_v10_1 : Ref sig .tc) ≠ main_v10_2)) _ _).trans (Function.update_self _ _ _)
theorem V6_v10_2 (c : Dev nD) : V6 m (outs m) c main_v10_2 = Wx1 m c main_v10_2 := Function.update_self _ _ _

theorem in1 (c : Dev nD) (w : Fin cfg1.W) (hw : (cfg1.win w).isOut = false) (hne : Pipeline.arrRef spec1 w ∉ ([main_v10_0, main_v10_1, main_v10_2] : List (Ref sig .tc))) :
    (R1.dat (Ve1 m) c).arrAt w cfg1.N = V6 m (outs m) c (Pipeline.arrRef spec1 w) :=
  ((R1.dat (Ve1 m) c).arrAt_in w hw _).trans ((R1.A_eq (Ve1 m) c w).trans (V6_of m (outs m) c _ hne).symm)

theorem hF1 (c : Dev nD) (w : Fin cfg1.W) : (pdats m 1 c).arrAt w cfg1.N = V6 m (outs m) c (Pipeline.arrRef spec1 w) := by
  show (R1.dat (Ve1 m) c).arrAt w cfg1.N = _
  fin_cases w
  · exact in1 m c 0 rfl (by decide)
  · exact in1 m c 1 rfl (by decide)
  · exact in1 m c 2 rfl (by decide)
  · exact in1 m c 3 rfl (by decide)
  · exact in1 m c 4 rfl (by decide)
  · exact in1 m c 5 rfl (by decide)
  · exact in1 m c 6 rfl (by decide)
  · exact (Wx1_arr m c 7).symm.trans (V6_v10_0 m c).symm
  · exact (Wx1_arr m c 8).symm.trans (V6_v10_1 m c).symm
  · exact (Wx1_arr m c 9).symm.trans (V6_v10_2 m c).symm

theorem hrest1 (c : Dev nD) : ∀ b, b ∉ Finset.univ.image (Pipeline.arrRef spec1) → V6 m (outs m) c b = We1 m c b :=
  fun b hb => V6_of m (outs m) c b (by
    intro h
    simp only [List.mem_cons, List.mem_singleton, List.not_mem_nil, or_false] at h
    rcases h with h | h | h
    · exact hb (h ▸ Finset.mem_image.mpr ⟨7, Finset.mem_univ _, rfl⟩)
    · exact hb (h ▸ Finset.mem_image.mpr ⟨8, Finset.mem_univ _, rfl⟩)
    · exact hb (h ▸ Finset.mem_image.mpr ⟨9, Finset.mem_univ _, rfl⟩))

set_option backward.isDefEq.respectTransparency.types false in
/-- REGION 1 over the thread state: entered from region 0's exit contents, left with its three output arrays at what the
    write-backs fold to; otherwise as region 0. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation (Ve1 m) c).loose
  hwaits := Pipeline.hwaits_of_owed_zero _ _ _ _ L lv 1 fun _ _ => rfl
  pre c := iprop(StableHlo.held (c : Thread nD τ) (Pipeline.ucRefs τ sig) (We1 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from R1.Phi_last (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's element yields the pipelines' at every staging cell; no other ghost resource is needed. -/
theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes what rides along: its generator register at some state, owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- Every weakly fair execution of @main terminates, nothing faulting, and the argument arrays end as launched: the
    generated conditional frame at the two regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () Variants.none L lv (fun _ _ => rfl) ρ (outs m) (pdats m) (O₀ := 0) (G := fun _ => iprop(emp))
    (u₀ := initOf (Pipeline.cells cfgs cellOf_inj) (Pipeline.launchToks cfgs cellOf_inj)) (hu₀ := hu0)
    (E := fun _ c => R c) (hE0 := hE0 ρ) (hE2 := hE2)
    (reg0 m) (fun c => .rfl) (fun c => .rfl) (reg1 m) (fun c => .rfl) (fun c => .rfl)

end Cert.KernelIdeal.Regs

end
-- ==== Proof.Spec.lean ====
/-
  What the program computes, over the extended reals, as functions of matrices indexed by plain `Fin`s:
  a two-layer GraphSAGE forward pass on a dense adjacency followed by a linear head and a row-wise
  log-softmax. A layer is `relu (x · Wx + (adj · x) · Ws + b)`, the weight matrix of the concatenated
  features `[x, adj · x]` cut into its two halves. Three laws of finite sums and maxima on the extended
  reals (an additive commutative monoid, a linear order with bottom) join the two programs' arrangements:
  a sum over 16384 neighbours taken 2048 at a time, a sum over 256 concatenated features taken as two
  sums of 128, and a log-softmax over 128 columns of which the last 88 hold `⊥`.
-/
import Idealize.ShloMosaic.PureOps.Ideal
import Mathlib.Algebra.BigOperators.Fin
import Mathlib.Data.Finset.Fold
import Mathlib.Data.Fintype.BigOperators
import Mathlib.Logic.Equiv.Fin.Basic
import Mathlib.Data.EReal.Operations
import Idealize.ShloMosaic.Lib.ValueIdx

noncomputable section

namespace Cert.Spec

open Idealize.ShloMosaic

/-- A matrix of extended reals. -/
abbrev Mat (a b : ℕ) := Fin a → Fin b → EReal

/-- Neighbour aggregation: row `n` of `adj · x`. -/
def agg (adj : Mat 16384 16384) (x : Mat 16384 128) : Mat 16384 128 :=
  fun n f => ∑ l : Fin 16384, adj n l * x l f

/-- One layer: `max ((x · wx + (adj · x) · ws) + b) 0`. -/
def layer (adj : Mat 16384 16384) (x : Mat 16384 128) (wx ws : Mat 128 128) (b : Fin 128 → EReal) : Mat 16384 128 :=
  fun n o => max (((∑ k : Fin 128, x n k * wx k o) + ∑ k : Fin 128, agg adj x n k * ws k o) + b o) 0

/-- The linear head. -/
def logits (h : Mat 16384 128) (wl : Mat 128 40) (bl : Fin 40 → EReal) : Mat 16384 40 :=
  fun n c => (∑ k : Fin 128, h n k * wl k c) + bl c

/-- A row's maximum, from `⊥`. -/
def rowMax (lg : Mat 16384 40) (n : Fin 16384) : EReal := (Finset.univ : Finset (Fin 40)).fold max ⊥ (lg n)

/-- Row-wise log-softmax, shifted by the row's maximum. -/
def logSoftmax (lg : Mat 16384 40) : Mat 16384 40 :=
  fun n c => (lg n c - rowMax lg n) - Ideal.log (∑ c' : Fin 40, Ideal.exp (lg n c' - rowMax lg n))

/-- The first 128 rows of a 256-row weight matrix (they multiply the node's own features) -/
def top (W : Mat 256 128) : Mat 128 128 := fun k o => W ⟨k.val, by omega⟩ o
/-- and the last 128 (they multiply the aggregated neighbours). -/
def bot (W : Mat 256 128) : Mat 128 128 := fun k o => W ⟨128 + k.val, by omega⟩ o

/-- The four results as functions of the eight arguments: the first layer's activations, -/
def H1 (x : Mat 16384 128) (adj : Mat 16384 16384) (W1 : Mat 256 128) (b1 : Fin 128 → EReal) : Mat 16384 128 :=
  layer adj x (top W1) (bot W1) b1
/-- the second layer's, -/
def H2 (x : Mat 16384 128) (adj : Mat 16384 16384) (W1 : Mat 256 128) (b1 : Fin 128 → EReal) (W2 : Mat 256 128) (b2 : Fin 128 → EReal) :
    Mat 16384 128 :=
  layer adj (H1 x adj W1 b1) (top W2) (bot W2) b2
/-- the logits, -/
def LG (x : Mat 16384 128) (adj : Mat 16384 16384) (W1 : Mat 256 128) (b1 : Fin 128 → EReal) (W2 : Mat 256 128) (b2 : Fin 128 → EReal)
    (Wl : Mat 128 40) (bl : Fin 40 → EReal) : Mat 16384 40 :=
  logits (H2 x adj W1 b1 W2 b2) Wl bl
/-- and the log-probabilities. -/
def LP (x : Mat 16384 128) (adj : Mat 16384 16384) (W1 : Mat 256 128) (b1 : Fin 128 → EReal) (W2 : Mat 256 128) (b2 : Fin 128 → EReal)
    (Wl : Mat 128 40) (bl : Fin 40 → EReal) : Mat 16384 40 :=
  logSoftmax (LG x adj W1 b1 W2 b2 Wl bl)

/-! ## Arrays and matrices -/

open Idealize.ShloMosaic.ValueIdx in
/-- A rank-2 array as a matrix, -/
def mat {a b : ℕ} (v : (⟨2, ![a, b]⟩ : Shape).Idx → EReal) : Mat a b := fun p q => v (ix2 p q)
open Idealize.ShloMosaic.ValueIdx in
/-- a rank-1 array as a vector, -/
def vec {a : ℕ} (v : (⟨1, ![a]⟩ : Shape).Idx → EReal) : Fin a → EReal := fun p => v (ix1 p)
/-- and a matrix as a rank-2 array. -/
def unmat {a b : ℕ} (M : Mat a b) : (⟨2, ![a, b]⟩ : Shape).Idx → EReal := fun i => M (i 0) (i 1)

open Idealize.ShloMosaic.ValueIdx in
theorem unmat_apply {a b : ℕ} (M : Mat a b) (p : Fin a) (q : Fin b) : unmat M (ix2 p q) = M p q := rfl

/-! ## The three laws -/

/-- A sum over 16384 indices is the sum, over 8 consecutive stretches, of the sums over each stretch's 2048. -/
theorem sum_blocks (f : Fin 16384 → EReal) :
    ∑ l : Fin 16384, f l = ∑ k : Fin 8, ∑ j : Fin 2048, f ⟨2048 * k.val + j.val, by omega⟩ := by
  -- Reindex along the bijection `(k, j) ↦ j + 2048 * k` of `Fin 8 × Fin 2048` with `Fin (8 * 2048)`, then
  -- take the sum over the product one coordinate at a time.
  have h := Equiv.sum_comp (finProdFinEquiv (m := 8) (n := 2048)) (f : Fin (8 * 2048) → EReal)
  rw [Fintype.sum_prod_type] at h
  refine h.symm.trans ?_
  refine Finset.sum_congr rfl fun k _ => Finset.sum_congr rfl fun j _ => ?_
  congr 1
  apply Fin.ext
  show j.val + 2048 * k.val = 2048 * k.val + j.val
  omega

/-- The running total of the stretches' sums, started from `0 + ` the first and adding one stretch at a time, is after
    stretch `k` the sum of the stretches up to `k`. -/
def runTotal (P : ℕ → EReal) : ℕ → EReal
  | 0 => 0 + P 0
  | k + 1 => runTotal P k + P (k + 1)

theorem runTotal_eq (P : ℕ → EReal) (k : ℕ) : runTotal P k = ∑ k' ∈ Finset.range (k + 1), P k' := by
  induction k with
  | zero => rw [runTotal, zero_add, Finset.sum_range_one]
  | succ k ih => rw [runTotal, ih, Finset.sum_range_succ _ (k + 1)]

/-- After the eighth stretch the running total is the whole sum. -/
theorem runTotal_seven (f : Fin 16384 → EReal) :
    runTotal (fun k => if h : k < 8 then ∑ j : Fin 2048, f ⟨2048 * k + j.val, by omega⟩ else 0) 7 = ∑ l : Fin 16384, f l := by
  -- The running total is the sum over `range 8`, which is the sum over `Fin 8`, where every index is below 8.
  rw [runTotal_eq, sum_blocks, ← Fin.sum_univ_eq_sum_range]
  refine Finset.sum_congr rfl fun k _ => ?_
  rw [dif_pos k.isLt]

/-- A sum over 256 indices is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- A maximum from `⊥` over 128 values of which all from the 40th on are `⊥` is the maximum over the first 40. -/
theorem fold_max_pad (g : Fin 128 → EReal) (hg : ∀ c : Fin 128, 40 ≤ c.val → g c = ⊥) :
    (Finset.univ : Finset (Fin 128)).fold max ⊥ g = (Finset.univ : Finset (Fin 40)).fold max ⊥ fun c => g ⟨c.val, by omega⟩ := by
  -- Each side is below the other: a value of `g` is either among the first 40 or is `⊥`.
  apply le_antisymm
  · rw [Finset.fold_max_le]
    refine ⟨bot_le, fun c _ => ?_⟩
    by_cases h : c.val < 40
    · rw [Finset.le_fold_max]
      exact Or.inr ⟨⟨c.val, h⟩, Finset.mem_univ _, le_rfl⟩
    · rw [hg c (by omega)]
      exact bot_le
  · rw [Finset.fold_max_le]
    refine ⟨bot_le, fun c _ => ?_⟩
    rw [Finset.le_fold_max]
    exact Or.inr ⟨⟨c.val, by omega⟩, Finset.mem_univ _, le_rfl⟩

/-- `⊥` less anything is `⊥`, whose `exp` is `0`. -/
theorem exp_bot_sub (m : EReal) : Ideal.exp (⊥ - m) = 0 := by
  rw [EReal.bot_sub]
  rfl

/-- `exp` of `⊥` less anything is `0`, so such padding adds nothing to a sum of exponentials. -/
theorem sum_exp_pad (g : Fin 128 → EReal) (hg : ∀ c : Fin 128, 40 ≤ c.val → g c = ⊥) (m : EReal) :
    ∑ c : Fin 128, Ideal.exp (g c - m) = ∑ c : Fin 40, Ideal.exp (g ⟨c.val, by omega⟩ - m) := by
  -- Cut the 128 columns into the first 40 and the last 88; every term of the second sum is `0`.
  have h := Fin.sum_univ_add (a := 40) (b := 88) fun c : Fin (40 + 88) => Ideal.exp (g c - m)
  refine h.trans ?_
  have hz : ∑ i : Fin 88, Ideal.exp (g (Fin.natAdd 40 i) - m) = 0 :=
    Finset.sum_eq_zero fun i _ => by
      rw [hg (Fin.natAdd 40 i) (Nat.le_add_right 40 i.val)]
      exact exp_bot_sub m
  rw [hz, add_zero]
  rfl

end Cert.Spec

end
-- ==== Proof.KIPay.lean ====
/-
  The kernels' arithmetic, read entry by entry over the extended reals. Each value a kernel body stores is a
  pure function of the vectors it loaded; here every such function is evaluated at a row `p` and a column `q`.
  Rounding to a narrower format and casting a vector to its own shape change nothing over the extended reals, a
  product accumulated from zero is a plain finite sum over the contracted coordinate, a `[1, 128]` bias row
  broadcast over 1024 rows reads its one row, and the positive part is `max · 0`. The last body is a row-wise
  log-softmax over 128 columns of which only the first 40 carry data: the others are masked to `⊥`, so the row's
  maximum and the sum of exponentials over 128 columns are those over the first 40.
-/
import proofs.«102636_j72069551227476_2_alg».proof.Proof.Gen.KernelIdeal.Skeleton
import proofs.«102636_j72069551227476_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

/-! ## A product with 128 contracted columns, read at an index -/

theorem lhs_k128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_k128_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_k128_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_k128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Into a zero accumulator the product's entry `(p, q)` is the sum over the contracted coordinate `k` of
    `a (p, k) * b (k, q)`. -/
theorem matmul_k128_apply {φ₁ φ₂ : FTy} (a : FVec Ideal S1024x128 φ₁) (b : FVec Ideal S128x128 φ₂) (p : Fin 1024) (q : Fin 128) :
    matmul (F := Ideal) dot_S1024x128_S128x128_S1024x128_1_0_0_1_n_n none a b (constant (F := Ideal) S1024x128 .f32 0x00000000#32) (ix2 p q)
      = ∑ k : Fin 128, a (ix2 p k) * b (ix2 k q) := by
  refine (Ideal.matmul_constant_zero_apply dot_S1024x128_S128x128_S1024x128_1_0_0_1_n_n none a b (ix2 p q)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_k128_0 _ _
    | ⟨1, _⟩ => exact (lhs_k128_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_k128_0 _ _).trans hk
    | ⟨1, _⟩ => exact rhs_k128_1 _ _)
  rw [el, er]

/-! ## A product with 2048 contracted columns, read at an index -/

theorem lhs_k2048_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_k2048_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_k2048_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_k2048_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Into a zero accumulator the product's entry `(p, q)` is the sum over the contracted coordinate `k` of
    `a (p, k) * b (k, q)`. -/
theorem matmul_k2048_apply {φ₁ φ₂ : FTy} (a : FVec Ideal S1024x2048 φ₁) (b : FVec Ideal S2048x128 φ₂) (p : Fin 1024) (q : Fin 128) :
    matmul (F := Ideal) dot_S1024x2048_S2048x128_S1024x128_1_0_0_1_n_n none a b (constant (F := Ideal) S1024x128 .f32 0x00000000#32) (ix2 p q)
      = ∑ k : Fin 2048, a (ix2 p k) * b (ix2 k q) := by
  refine (Ideal.matmul_constant_zero_apply dot_S1024x2048_S2048x128_S1024x128_1_0_0_1_n_n none a b (ix2 p q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_k2048_0 _ _
    | ⟨1, _⟩ => exact (lhs_k2048_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_k2048_0 _ _).trans hk
    | ⟨1, _⟩ => exact rhs_k2048_1 _ _)
  rw [el, er]

/-! ## The accumulator's reset: zero everywhere -/

theorem pay1_0 (p : Fin 1024) (q : Fin 128) : k0_pay1 (F := Ideal) (ix2 p q) = 0 := by
  unfold k0_pay1
  rw [shapeCast_self]
  exact Ideal.ofBits_zero_f32

theorem pay1_1 (p : Fin 1024) (q : Fin 128) : k1_pay1 (F := Ideal) (ix2 p q) = 0 := by
  unfold k1_pay1
  rw [shapeCast_self]
  exact Ideal.ofBits_zero_f32

/-! ## One step of the neighbour sum: the accumulator plus 2048 products -/

theorem pay2_0 (v6 : Vec Ideal S2048x128 .f32) (v7 : Vec Ideal S1024x2048 .f32) (v10 : Vec Ideal S1024x128 .f32)
    (p : Fin 1024) (q : Fin 128) :
    k0_pay2 v6 v7 v10 (ix2 p q) = v10 (ix2 p q) + ∑ j : Fin 2048, v7 (ix2 p j) * v6 (ix2 j q) := by
  unfold k0_pay2
  rw [shapeCast_self]
  refine (addf_apply _ _ _).trans ?_
  exact congrArg (v10 (ix2 p q) + ·) (matmul_k2048_apply _ _ p q)

theorem pay2_1 (v6 : Vec Ideal S2048x128 .f32) (v8 : Vec Ideal S1024x2048 .f32) (v11 : Vec Ideal S1024x128 .f32)
    (p : Fin 1024) (q : Fin 128) :
    k1_pay2 v6 v8 v11 (ix2 p q) = v11 (ix2 p q) + ∑ j : Fin 2048, v8 (ix2 p j) * v6 (ix2 j q) := by
  unfold k1_pay2
  rw [shapeCast_self, shapeCast_self]
  refine (addf_apply _ _ _).trans ?_
  exact congrArg (v11 (ix2 p q) + ·) (matmul_k2048_apply _ _ p q)

/-! ## A layer: two products of 128 columns, the bias row, and the positive part -/

theorem pay3_0 (v22 v23 : Vec Ideal S1024x128 .f32) (v26 v29 : Vec Ideal S128x128 .f32) (v35 : Vec Ideal S1x128 .f32)
    (p : Fin 1024) (q : Fin 128) :
    k0_pay3 v22 v23 v26 v29 v35 (ix2 p q)
      = max (((∑ k : Fin 128, v22 (ix2 p k) * v29 (ix2 k q)) + ∑ k : Fin 128, v23 (ix2 p k) * v26 (ix2 k q))
          + v35 (ix2 (0 : Fin 1) q)) 0 := by
  unfold k0_pay3
  rw [shapeCast_self, shapeCast_self, shapeCast_self]
  refine (maximumf_apply _ _ _).trans ?_
  refine congrArg₂ max ?_ Ideal.ofBits_zero_f32
  refine (addf_apply _ _ _).trans ?_
  refine congrArg₂ (· + ·) ?_ (broadcastTo_1b_ab_apply v35 _ p q)
  refine (addf_apply _ _ _).trans ?_
  exact congrArg₂ (· + ·) (matmul_k128_apply _ _ p q) (matmul_k128_apply _ _ p q)

theorem pay4_1 (v23 v25 : Vec Ideal S1024x128 .f32) (v28 v31 : Vec Ideal S128x128 .f32) (v37 : Vec Ideal S1x128 .f32)
    (p : Fin 1024) (q : Fin 128) :
    k1_pay4 v23 v25 v28 v31 v37 (ix2 p q)
      = max (((∑ k : Fin 128, v23 (ix2 p k) * v31 (ix2 k q)) + ∑ k : Fin 128, v25 (ix2 p k) * v28 (ix2 k q))
          + v37 (ix2 (0 : Fin 1) q)) 0 := by
  unfold k1_pay4
  rw [shapeCast_self, shapeCast_self, shapeCast_self, shapeCast_self]
  refine (maximumf_apply _ _ _).trans ?_
  refine congrArg₂ max ?_ Ideal.ofBits_zero_f32
  refine (addf_apply _ _ _).trans ?_
  refine congrArg₂ (· + ·) ?_ (broadcastTo_1b_ab_apply v37 _ p q)
  refine (addf_apply _ _ _).trans ?_
  exact congrArg₂ (· + ·) (matmul_k128_apply _ _ p q) (matmul_k128_apply _ _ p q)

/-! ## The linear head: one product of 128 columns of the second layer, plus the bias row -/

theorem pay5_1 (v23 v25 : Vec Ideal S1024x128 .f32) (v28 v31 : Vec Ideal S128x128 .f32) (v37 : Vec Ideal S1x128 .f32)
    (v45 : Vec Ideal S128x128 .f32) (v49 : Vec Ideal S1x128 .f32) (p : Fin 1024) (q : Fin 128) :
    k1_pay5 v23 v25 v28 v31 v37 v45 v49 (ix2 p q)
      = (∑ k : Fin 128, k1_pay4 v23 v25 v28 v31 v37 (ix2 p k) * v45 (ix2 k q)) + v49 (ix2 (0 : Fin 1) q) := by
  unfold k1_pay5
  rw [shapeCast_self, shapeCast_self]
  refine (addf_apply _ _ _).trans ?_
  exact congrArg₂ (· + ·) (matmul_k128_apply _ _ p q) (broadcastTo_1b_ab_apply v49 _ p q)

/-! ## Keepdims column forms: a vector of row values viewed as one column, then spread over the columns -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The mask: columns below 40 keep their value, the others hold `⊥` -/

/-- The table of named constants gives the large negative filler the value `⊥`. -/
theorem neg_big_bot : Named.named (F := Ideal) κ "neg_big" (φ := .f32) 0xF149F2CA#32 = (⊥ : EReal) :=
  IdealRules.named_const.ideal_named_scalar _ _ _ _ rfl

/-- The word of negative infinity denotes `⊥`. -/
theorem neg_inf_bot : Ideal.ofBits .f32 0xFF800000#32 = (⊥ : EReal) := by
  simp [Ideal.ofBits, Ideal.ieee]

/-- A column number below 128, as a signed 32-bit word, compares below `40` exactly when the number is below 40. -/
theorem slt_40 (c : Fin 128) : IntOp.cmpi .slt (BitVec.ofNat 32 c.val) 40#32 = 1#1 ↔ c.val < 40 := by
  have hc := c.isLt
  rw [IntOp.cmpi_slt, BitVec.toInt_eq_toNat_cond, BitVec.toInt_eq_toNat_cond, BitVec.toNat_ofNat, BitVec.toNat_ofNat]
  rw [if_pos (by omega), if_pos (by omega)]
  omega

/-- The row index over a reduced row index `p`, with column `k` put back. -/
theorem lift_row (p : Fin 1024) (k : Fin 128) : reduces_S1024x128_S1024.lift (ix1 p) k = ix2 p k :=
  funext fun a => Fin.ext (by
    match a with
    | ⟨0, _⟩ => rfl
    | ⟨1, _⟩ => rfl)

/-- The logits with their padding columns masked: a column keeps its value when its number is below 40 and
    holds the filler otherwise. -/
def masked (v52 : FVec Ideal S1024x128 .f32) : FVec Ideal S1024x128 .f32 :=
  select (cmpi .slt (iota .tc S1024x128 32 [1] iota_S1024x128_d1_w32) (broadcast S1024x128 40#32)) v52
    (broadcast S1024x128 (Named.named (F := Ideal) κ "neg_big" (φ := .f32) 0xF149F2CA#32))

theorem masked_apply (v52 : FVec Ideal S1024x128 .f32) (p : Fin 1024) (c : Fin 128) :
    masked v52 (ix2 p c) = if c.val < 40 then v52 (ix2 p c) else ⊥ := by
  show Scalar.select (IntOp.cmpi .slt (iota .tc S1024x128 32 [1] iota_S1024x128_d1_w32 (ix2 p c)) 40#32) (v52 (ix2 p c))
    (Named.named (F := Ideal) κ "neg_big" (φ := .f32) 0xF149F2CA#32) = _
  rw [iota_single_apply, neg_big_bot]
  show Scalar.select (IntOp.cmpi .slt (BitVec.ofNat 32 c.val) 40#32) _ _ = _
  by_cases h : c.val < 40
  · rw [(slt_40 c).2 h, select_one, if_pos h]
  · rw [eq_zero_of_ne_one (mt (slt_40 c).1 h), select_zero, if_neg h]

theorem masked_lt (v52 : FVec Ideal S1024x128 .f32) (p : Fin 1024) (c : Fin 128) (h : c.val < 40) :
    masked v52 (ix2 p c) = v52 (ix2 p c) := (masked_apply v52 p c).trans (if_pos h)

theorem masked_ge (v52 : FVec Ideal S1024x128 .f32) (p : Fin 1024) (c : Fin 128) (h : 40 ≤ c.val) :
    masked v52 (ix2 p c) = ⊥ := (masked_apply v52 p c).trans (if_neg (by omega))

/-! ## A row's maximum and a row's sum, kept as a column and spread back over the row -/

/-- The maximum over the 128 columns of row `p`, from `⊥`. -/
theorem rowmax_apply (x : FVec Ideal S1024x128 .f32) (p : Fin 1024) :
    multiReduction (F := Ideal) .maximumf [1] S1024 x 0xFF800000#32 reduces_S1024x128_S1024 (.inl rfl) rfl (ix1 p)
      = (Finset.univ : Finset (Fin 128)).fold max ⊥ (fun k => x (ix2 p k)) := by
  refine (Ideal.multiReduction_maximumf_single x _ reduces_S1024x128_S1024 (.inl rfl) rfl (ix1 p)).trans ?_
  have e : (x ∘ reduces_S1024x128_S1024.lift (ix1 p)) = fun k : Fin 128 => x (ix2 p k) :=
    funext fun k => congrArg x (lift_row p k)
  rw [e]
  exact congrArg (fun b => (Finset.univ : Finset (Fin 128)).fold max b fun k => x (ix2 p k)) neg_inf_bot

/-- The sum over the 128 columns of row `p`. -/
theorem rowsum_apply (x : FVec Ideal S1024x128 .f32) (p : Fin 1024) :
    multiReduction (F := Ideal) .add [1] S1024 x 0x00000000#32 reduces_S1024x128_S1024 (.inl rfl) rfl (ix1 p)
      = ∑ k : Fin 128, x (ix2 p k) := by
  refine (Ideal.multiReduction_add_single x _ reduces_S1024x128_S1024 (.inl rfl) rfl (ix1 p)).trans ?_
  exact Finset.sum_congr rfl fun k _ => congrArg x (lift_row p k)

/-- Every row's maximum, spread over the row's columns. -/
def rowMaxCol (m : FVec Ideal S1024x128 .f32) : FVec Ideal S1024x128 .f32 :=
  broadcastTo S1024x128
    (shapeCast S1024x1 (multiReduction (F := Ideal) .maximumf [1] S1024 m 0xFF800000#32 reduces_S1024x128_S1024 (.inl rfl) rfl)
      shapeCasts_S1024_S1024x1)
    broadcasts_S1024x1_S1024x128

/-- The logarithm of every row's sum of exponentials, spread over the row's columns. -/
def logSumCol (y : FVec Ideal S1024x128 .f32) : FVec Ideal S1024x128 .f32 :=
  broadcastTo S1024x128
    (log (shapeCast S1024x1 (multiReduction (F := Ideal) .add [1] S1024 (exp y) 0x00000000#32 reduces_S1024x128_S1024 (.inl rfl) rfl)
      shapeCasts_S1024_S1024x1))
    broadcasts_S1024x1_S1024x128

theorem rowMaxCol_apply (m : FVec Ideal S1024x128 .f32) (p : Fin 1024) (c : Fin 128) :
    rowMaxCol m (ix2 p c) = (Finset.univ : Finset (Fin 128)).fold max ⊥ (fun k => m (ix2 p k)) :=
  (broadcastTo_a1_ab_apply _ _ p c).trans ((shapeCast_a_a1_apply _ _ p 0).trans (rowmax_apply m p))

theorem logSumCol_apply (y : FVec Ideal S1024x128 .f32) (p : Fin 1024) (c : Fin 128) :
    logSumCol y (ix2 p c) = Ideal.log (∑ k : Fin 128, Ideal.exp (y (ix2 p k))) :=
  (broadcastTo_a1_ab_apply _ _ p c).trans
    (congrArg Ideal.log ((shapeCast_a_a1_apply _ _ p 0).trans (rowsum_apply (exp y) p)))

/-- The stored value is the masked logits, centred at their row maximum, less the logarithm of the row's sum of
    exponentials. -/
theorem k1_pay3_eq (v52 : FVec Ideal S1024x128 .f32) :
    k1_pay3 v52 (iota .tc S1024x128 32 [1] iota_S1024x128_d1_w32) 40#32
      = subf (subf (masked v52) (rowMaxCol (masked v52))) (logSumCol (subf (masked v52) (rowMaxCol (masked v52)))) := rfl

/-! ## The row-wise log-softmax over the first 40 columns -/

/-- The maximum of row `p` over its first 40 columns, from `⊥`. -/
def rowM (v52 : Vec Ideal S1024x128 .f32) (p : Fin 1024) : EReal :=
  (Finset.univ : Finset (Fin 40)).fold max ⊥ (fun c' : Fin 40 => v52 (ix2 p ⟨c'.val, by omega⟩))

/-- The masked row's maximum over all 128 columns is the row's maximum over its first 40. -/
theorem masked_rowmax (v52 : FVec Ideal S1024x128 .f32) (p : Fin 1024) :
    (Finset.univ : Finset (Fin 128)).fold max ⊥ (fun k => masked v52 (ix2 p k)) = rowM v52 p := by
  refine (Cert.Spec.fold_max_pad (fun k => masked v52 (ix2 p k)) fun c hc => masked_ge v52 p c hc).trans ?_
  exact congrArg ((Finset.univ : Finset (Fin 40)).fold max ⊥)
    (funext fun c' : Fin 40 => masked_lt v52 p ⟨c'.val, by omega⟩ c'.isLt)

theorem centred_apply (v52 : FVec Ideal S1024x128 .f32) (p : Fin 1024) (c : Fin 128) :
    subf (masked v52) (rowMaxCol (masked v52)) (ix2 p c) = masked v52 (ix2 p c) - rowM v52 p :=
  (subf_apply _ _ _).trans (congrArg (masked v52 (ix2 p c) - ·) ((rowMaxCol_apply _ p c).trans (masked_rowmax v52 p)))

theorem pay3_1 (v52 : Vec Ideal S1024x128 .f32) (p : Fin 1024) (q : Fin 128) (hq : q.val < 40) :
    k1_pay3 (F := Ideal) v52 (iota .tc S1024x128 32 [1] iota_S1024x128_d1_w32) 40#32 (ix2 p q)
      = (v52 (ix2 p q) - rowM v52 p)
        - Ideal.log (∑ c' : Fin 40, Ideal.exp (v52 (ix2 p ⟨c'.val, by omega⟩) - rowM v52 p)) := by
  rw [k1_pay3_eq]
  refine (subf_apply _ _ _).trans ?_
  refine congrArg₂ (· - ·) ?_ ?_
  · rw [centred_apply, masked_lt v52 p q hq]
  · refine (logSumCol_apply _ p q).trans (congrArg Ideal.log ?_)
    have e : (fun k : Fin 128 => Ideal.exp (subf (masked v52) (rowMaxCol (masked v52)) (ix2 p k)))
        = fun k : Fin 128 => Ideal.exp (masked v52 (ix2 p k) - rowM v52 p) :=
      funext fun k => congrArg Ideal.exp (centred_apply v52 p k)
    refine (congrArg (fun f : Fin 128 → EReal => ∑ k : Fin 128, f k) e).trans ?_
    refine (Cert.Spec.sum_exp_pad (fun k => masked v52 (ix2 p k)) (fun c hc => masked_ge v52 p c hc) (rowM v52 p)).trans ?_
    exact Finset.sum_congr rfl fun c' _ =>
      congrArg (fun t => Ideal.exp (t - rowM v52 p)) (masked_lt v52 p ⟨c'.val, by omega⟩ c'.isLt)

end Cert.KernelIdeal.Pay
-- ==== Proof.KIVal0.lean ====
/-
  What region 0's output array holds after the region, over the extended reals: one GraphSAGE layer
  `relu (x · Wx + (adj · x) · Ws + b)` of the arrays as the region finds them. The region's 128 points are the pairs
  `(i, k)`, `i < 16`, `k < 8`, point `t` being `(t / 8, t % 8)`. Point `(i, k)` reads the `1024 × 2048` block of `adj` at rows
  `1024 i …` and columns `2048 k …`, and rows `2048 k …` of `x`, and adds their product to an accumulator: after point
  `(i, k)` entry `(p, q)` of the accumulator is the sum, over the first `k + 1` stretches of 2048 neighbours, of row
  `1024 i + p` of `adj` against column `q` of `x` — by induction along the row of eight points. After the eighth stretch
  that is the whole sum over 16384 neighbours, and the point `(i, 7)` stores the layer on rows `1024 i …`. Those sixteen
  blocks are written back and cover the array.
-/
import proofs.«102636_j72069551227476_2_alg».proof.Proof.KIR0
import proofs.«102636_j72069551227476_2_alg».proof.Proof.KIPay
import proofs.«102636_j72069551227476_2_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Where the points sit and what their blocks are

Point `t` of the 16 × 8 grid is `(i, k) = (t / 8, t % 8)`. The block of `adj` it reads is rows `1024 i …` and columns
`2048 k …`; the other inputs are read whole; the output block is rows `1024 i …`. -/

theorem coords_t : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem index_adj : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem index_x : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_wx : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_ws : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_b : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_out : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- Entry `(p, j)` of the `adj` block at point `t` is `adj (1024 (t / 8) + p, 2048 (t % 8) + j)`. -/
theorem blk_adj (A : S16384x16384.Idx → EReal) (t : Fin cfg0.N) (y : S1024x2048.Idx) (k : S16384x16384.Idx)
    (hk0 : (k 0).val = 1024 * (t.val / 8) + (y 0).val) (hk1 : (k 1).val = 2048 * (t.val % 8) + (y 1).val) :
    (((cfg0.win 0).blk t).view.read (Elt Ideal) A : S1024x2048.Idx → EReal) y = A k := by
  obtain ⟨e0, e1⟩ := index_adj t
  rw [View.read_apply]
  show A _ = A _
  congr 1
  funext a; apply Fin.ext
  match a with
  | ⟨0, _⟩ => show win0_0.index t (0 : Fin 2) * 1024 + 1 * (y 0).val = (k 0).val; rw [e0, hk0]; omega
  | ⟨1, _⟩ => show win0_0.index t (1 : Fin 2) * 2048 + 1 * (y 1).val = (k 1).val; rw [e1, hk1]; omega

/-- The block of `x` at any point is all of `x`, -/
theorem blk_x (X : S16384x128.Idx → EReal) (t : Fin cfg0.N) :
    (((cfg0.win 1).blk t).view.read (Elt Ideal) X : S16384x128.Idx → EReal) = X := by
  obtain ⟨e0, e1⟩ := index_x t
  funext y
  rw [View.read_apply]
  show X _ = X _
  congr 1
  funext a; apply Fin.ext
  match a with
  | ⟨0, _⟩ => show win0_1.index t (0 : Fin 2) * 16384 + 1 * (y 0).val = (y 0).val; rw [e0]; omega
  | ⟨1, _⟩ => show win0_1.index t (1 : Fin 2) * 128 + 1 * (y 1).val = (y 1).val; rw [e1]; omega

/-- and so for the two weight matrices -/
theorem blk_wx (W : S128x128.Idx → EReal) (t : Fin cfg0.N) :
    (((cfg0.win 2).blk t).view.read (Elt Ideal) W : S128x128.Idx → EReal) = W := by
  obtain ⟨e0, e1⟩ := index_wx t
  funext y
  rw [View.read_apply]
  show W _ = W _
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk_ws (W : S128x128.Idx → EReal) (t : Fin cfg0.N) :
    (((cfg0.win 3).blk t).view.read (Elt Ideal) W : S128x128.Idx → EReal) = W := by
  obtain ⟨e0, e1⟩ := index_ws t
  funext y
  rw [View.read_apply]
  show W _ = W _
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- and the bias row. -/
theorem blk_b (B : S1x128.Idx → EReal) (t : Fin cfg0.N) :
    (((cfg0.win 4).blk t).view.read (Elt Ideal) B : S1x128.Idx → EReal) = B := by
  obtain ⟨e0, e1⟩ := index_b t
  funext y
  rw [View.read_apply]
  show B _ = B _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## What a point loads of `x` -/

/-- Row `j` of the 2048 rows a point multiplies its `adj` block with is row `2048 k + j` of `x`. -/
theorem ld_rows_k (i : grid0.Coords) (x : S16384x128.Idx → EReal) (y : S2048x128.Idx) (l : S16384x128.Idx)
    (hl0 : (l 0).val = 2048 * (i 1).val + (y 0).val) (hl1 : (l 1).val = (y 1).val) :
    View.ld (Val := Elt Ideal) (e' := .f32) x (Rect.unit (s := S16384x128) (k0_off1 i) S2048x128.size (k0_off1_inb i)) y = x l := by
  show x _ = x _
  congr 1
  funext a; apply Fin.ext
  match a with
  | ⟨0, _⟩ => show k0_off1 i (0 : Fin 2) + 1 * (y 0).val = (l 0).val; rw [k0_off1_eq i, hl0]; show 2048 * (i 1).val + 1 * (y 0).val = _; omega
  | ⟨1, _⟩ => show k0_off1 i (1 : Fin 2) + 1 * (y 1).val = (l 1).val; rw [k0_off1_eq i, hl1]; show 0 + 1 * (y 1).val = _; omega

/-- Row `p` of the 1024 rows a last point loads for its own block is row `1024 i + p` of `x`. -/
theorem ld_rows_i (i : grid0.Coords) (h : k0_cond2 i = 1#1) (x : S16384x128.Idx → EReal) (y : S1024x128.Idx) (l : S16384x128.Idx)
    (hl0 : (l 0).val = 1024 * (i 0).val + (y 0).val) (hl1 : (l 1).val = (y 1).val) :
    View.ld (Val := Elt Ideal) (e' := .f32) x (Rect.unit (s := S16384x128) (k0_off2 i) S1024x128.size (k0_off2_inb i h)) y = x l := by
  show x _ = x _
  congr 1
  funext a; apply Fin.ext
  match a with
  | ⟨0, _⟩ => show k0_off2 i (0 : Fin 2) + 1 * (y 0).val = (l 0).val; rw [k0_off2_eq i, hl0]; show 1024 * (i 0).val + 1 * (y 0).val = _; omega
  | ⟨1, _⟩ => show k0_off2 i (1 : Fin 2) + 1 * (y 1).val = (l 1).val; rw [k0_off2_eq i, hl1]; show 0 + 1 * (y 1).val = _; omega

/-! ## The arrays as matrices, and the neighbour sum 2048 at a time -/

variable (V : (c : Dev nD) → (b : Ref sig .tc) → Buf (Elt Ideal) ((c : Thread nD τ).loc b))

/-- `adj` and `x` as the region finds them. -/
abbrev adjM (c : Dev nD) : Spec.Mat 16384 16384 := Spec.mat (V c main_arg1 : S16384x16384.Idx → EReal)
abbrev xM (c : Dev nD) : Spec.Mat 16384 128 := Spec.mat (V c main_arg0 : S16384x128.Idx → EReal)

/-- The `k`-th stretch of 2048 terms of a sum over 16384 neighbours (nothing from the eighth stretch on). -/
def part (f : Fin 16384 → EReal) (k : ℕ) : EReal :=
  if h : k < 8 then ∑ j : Fin 2048, f ⟨2048 * k + j.val, by omega⟩ else 0

/-- The input blocks at a point, at their literal types. -/
abbrev adjBlk (c : Dev nD) (t : Fin cfg0.N) : Vec Ideal S1024x2048 .f32 := R0.iblk V c 0 t
abbrev xBlk (c : Dev nD) (t : Fin cfg0.N) : Vec Ideal S16384x128 .f32 := R0.iblk V c 1 t
abbrev wxBlk (c : Dev nD) (t : Fin cfg0.N) : Vec Ideal S128x128 .f32 := R0.iblk V c 2 t
abbrev wsBlk (c : Dev nD) (t : Fin cfg0.N) : Vec Ideal S128x128 .f32 := R0.iblk V c 3 t
abbrev bBlk (c : Dev nD) (t : Fin cfg0.N) : Vec Ideal S1x128 .f32 := R0.iblk V c 4 t

/-- The 2048 products a point adds to entry `(p, q)` of the accumulator are stretch `t % 8` of row
    `1024 (t / 8) + p` of `adj` against column `q` of `x`. -/
theorem point_sum (c : Dev nD) (t : Fin cfg0.N) (p : Fin 1024) (q : Fin 128) (r : Fin 16384)
    (hr : r.val = 1024 * (t.val / 8) + p.val) :
    (∑ j : Fin 2048, adjBlk V c t (ix2 p j) * R0.xk (grid0.coords t) (xBlk V c t) (ix2 j q))
      = part (fun l => adjM V c r l * xM V c l q) (t.val % 8) := by
  have hk : t.val % 8 < 8 := Nat.mod_lt _ (by decide)
  obtain ⟨-, c1⟩ := coords_t t
  unfold part
  rw [dif_pos hk]
  refine Finset.sum_congr rfl fun j _ => ?_
  refine congrArg₂ (· * ·) ?_ ?_
  · exact blk_adj (V c main_arg1) t (ix2 p j) (ix2 r ⟨2048 * (t.val % 8) + j.val, by omega⟩) hr rfl
  · refine (ld_rows_k (grid0.coords t) (xBlk V c t) (ix2 j q) (ix2 (⟨2048 * (t.val % 8) + j.val, by omega⟩ : Fin 16384) q) ?_ rfl).trans ?_
    · show 2048 * (t.val % 8) + j.val = 2048 * ((grid0.coords t) 1).val + j.val
      rw [c1]
    · exact congrFun (blk_x (V c main_arg0) t) _

/-- THE ACCUMULATOR after point `n`, at entry `(p, q)`: the running total, up to stretch `n % 8`, of row
    `1024 (n / 8) + p` of `adj` against column `q` of `x`. By induction on the point: a first point of a row of eight
    starts the total from zero, every other adds its stretch to what the point before left. -/
theorem acc_apply (c : Dev nD) : ∀ (n : ℕ) (hn : n < cfg0.N) (p : Fin 1024) (q : Fin 128) (r : Fin 16384),
    r.val = 1024 * (n / 8) + p.val →
    (R0.acc V c n hn : Vec Ideal S1024x128 .f32) (ix2 p q) = Spec.runTotal (part (fun l => adjM V c r l * xM V c l q)) (n % 8)
  | 0, hn, p, q, r, hr => by
    refine (congrFun (R0.acc_first V c ⟨0, hn⟩ rfl) (ix2 p q)).trans ?_
    refine (Pay.pay2_0 (R0.xk (grid0.coords ⟨0, hn⟩) (xBlk V c ⟨0, hn⟩)) (adjBlk V c ⟨0, hn⟩) (k0_pay1 (F := Ideal)) p q).trans ?_
    show _ = 0 + part _ 0
    exact congrArg₂ (· + ·) (Pay.pay1_0 p q) (point_sum V c ⟨0, hn⟩ p q r hr)
  | n + 1, hn, p, q, r, hr => by
    by_cases h0 : (n + 1) % 8 = 0
    · refine (congrFun (R0.acc_first V c ⟨n + 1, hn⟩ h0) (ix2 p q)).trans ?_
      refine (Pay.pay2_0 (R0.xk (grid0.coords ⟨n + 1, hn⟩) (xBlk V c ⟨n + 1, hn⟩)) (adjBlk V c ⟨n + 1, hn⟩) (k0_pay1 (F := Ideal)) p q).trans ?_
      rw [h0]
      show _ = 0 + part _ 0
      refine congrArg₂ (· + ·) (Pay.pay1_0 p q) ?_
      have := point_sum V c ⟨n + 1, hn⟩ p q r hr
      rw [show (⟨n + 1, hn⟩ : Fin cfg0.N).val % 8 = 0 from h0] at this
      exact this
    · refine (congrFun (R0.acc_step V c ⟨n + 1, hn⟩ h0) (ix2 p q)).trans ?_
      refine (Pay.pay2_0 (R0.xk (grid0.coords ⟨n + 1, hn⟩) (xBlk V c ⟨n + 1, hn⟩)) (adjBlk V c ⟨n + 1, hn⟩)
        (R0.acc V c n (Nat.lt_of_succ_lt hn)) p q).trans ?_
      have hd : n / 8 = (n + 1) / 8 := by omega
      have hm : (n + 1) % 8 = n % 8 + 1 := by omega
      rw [hm]
      show _ = Spec.runTotal _ (n % 8) + part _ (n % 8 + 1)
      refine congrArg₂ (· + ·) (acc_apply c n (Nat.lt_of_succ_lt hn) p q r (by rw [hd]; exact hr)) ?_
      have := point_sum V c ⟨n + 1, hn⟩ p q r hr
      rw [show (⟨n + 1, hn⟩ : Fin cfg0.N).val % 8 = n % 8 + 1 from hm] at this
      exact this

/-! ## What a last point stores, and the array after the region -/

/-- The layer on the arrays as the region finds them, as contents of the output array. -/
abbrev layerArr (c : Dev nD) : S16384x128.Idx → EReal :=
  Spec.unmat (Spec.layer (Spec.mat (V c main_arg1)) (Spec.mat (V c main_arg0)) (Spec.mat (V c main_v0)) (Spec.mat (V c main_v1))
    (fun o => V c main_v4 (ix2 (0 : Fin 1) o)))

/-- Entry `(p, q)` of the block a last point stores is the layer at row `1024 (t / 8) + p`: the block's own rows of `x`
    against `Wx`, the finished accumulator (after the eighth stretch the whole sum over 16384 neighbours) against `Ws`,
    the bias, the positive part. -/
theorem outAt_apply (c : Dev nD) (t : Fin cfg0.N) (h : R0.condLast (grid0.coords t)) (p : Fin 1024) (q : Fin 128) (r : Fin 16384)
    (hr : r.val = 1024 * (t.val / 8) + p.val) :
    (R0.outAt V c t h : Vec Ideal S1024x128 .f32) (ix2 p q) = layerArr V c (ix2 r q) := by
  have h7 : t.val % 8 = 7 := (R0.hcondLast t).mp h
  obtain ⟨c0, -⟩ := coords_t t
  refine (Pay.pay3_0 (R0.xi (grid0.coords t) h (xBlk V c t)) (R0.acc V c t.val t.isLt) (wsBlk V c t) (wxBlk V c t) (bBlk V c t) p q).trans ?_
  show max ((_ + _) + _) 0 = max (((∑ k : Fin 128, xM V c r k * Spec.mat (V c main_v0) k q) + ∑ k : Fin 128, Spec.agg (adjM V c) (xM V c) r k * Spec.mat (V c main_v1) k q) + V c main_v4 (ix2 (0 : Fin 1) q)) 0
  refine congrArg (fun z => max z 0) ?_
  refine congrArg₂ (· + ·) (congrArg₂ (· + ·) ?_ ?_) ?_
  · refine Finset.sum_congr rfl fun k _ => congrArg₂ (· * ·) ?_ ?_
    · refine (ld_rows_i (grid0.coords t) h (xBlk V c t) (ix2 p k) (ix2 r k) ?_ rfl).trans (congrFun (blk_x (V c main_arg0) t) _)
      show r.val = 1024 * ((grid0.coords t) 0).val + p.val
      rw [c0]; exact hr
    · exact congrFun (blk_wx (V c main_v0) t) (ix2 k q)
  · refine Finset.sum_congr rfl fun k _ => congrArg₂ (· * ·) ?_ ?_
    · refine (acc_apply V c t.val t.isLt p k r hr).trans ?_
      rw [h7]
      exact Spec.runTotal_seven (fun l => adjM V c r l * xM V c l k)
    · exact congrFun (blk_ws (V c main_v1) t) (ix2 k q)
  · exact congrFun (blk_b (V c main_v4) t) (ix2 (0 : Fin 1) q)

/-- Entry `(p, q)` of the output's block at point `t` is entry `(1024 (t / 8) + p, q)` of the array. -/
theorem blk_out (O : S16384x128.Idx → EReal) (t : Fin cfg0.N) (y : S1024x128.Idx) (k : S16384x128.Idx)
    (hk0 : (k 0).val = 1024 * (t.val / 8) + (y 0).val) (hk1 : (k 1).val = (y 1).val) :
    (((cfg0.win 5).blk t).view.read (Elt Ideal) O : S1024x128.Idx → EReal) y = O k := by
  obtain ⟨e0, e1⟩ := index_out t
  rw [View.read_apply]
  show O _ = O _
  congr 1
  funext a; apply Fin.ext
  match a with
  | ⟨0, _⟩ => show win0_5.index t (0 : Fin 2) * 1024 + 1 * (y 0).val = (k 0).val; rw [e0, hk0]; omega
  | ⟨1, _⟩ => show win0_5.index t (1 : Fin 2) * 128 + 1 * (y 1).val = (k 1).val; rw [e1, hk1]; omega

/-- The block a last point stores is its block of the layer's array. -/
theorem stored_eq (c : Dev nD) (t : Fin cfg0.N) (h : R0.condLast (grid0.coords t)) :
    (R0.outAt V c t h : S1024x128.Idx → EReal) = (((cfg0.win 5).blk t).view.read (Elt Ideal) (layerArr V c) : S1024x128.Idx → EReal) := by
  have hN : cfg0.N = 128 := N_0
  have ht : t.val < 128 := hN ▸ t.isLt
  funext y
  obtain ⟨p, q, rfl⟩ : ∃ (p : Fin 1024) (q : Fin 128), y = ix2 p q := ⟨y 0, y 1, eq_ix2 y⟩
  have hp : p.val < 1024 := p.isLt
  refine (outAt_apply V c t h p q ⟨1024 * (t.val / 8) + p.val, by omega⟩ rfl).trans ?_
  exact (blk_out (layerArr V c) t (ix2 p q) (ix2 ⟨1024 * (t.val / 8) + p.val, by omega⟩ q) rfl rfl).symm

/-- WHAT A POINT WRITES BACK (a last point: the others write nothing back) is its block of the layer's array. -/
theorem flushed_eq (c : Dev nD) (t : Fin cfg0.N) (hf : (cfg0.win 5).flush t = true) :
    (R0.dat (F := Ideal) V c).flushed 5 t = ((cfg0.win 5).blk t).view.read (Elt Ideal) (layerArr V c) := by
  have h7 : t.val % 8 = 7 := (flush0_5 t).mp hf
  have hc : R0.condLast (grid0.coords t) := (R0.hcondLast t).mpr h7
  show (cfg0.win 5).cut (grid0.coords t) ((R0.dat (F := Ideal) V c).after 5 t) = _
  rw [R0.after5]
  unfold R0.outB
  rw [dif_pos hc]
  exact stored_eq V c t hc

/-- An index of the array is in point `t`'s block iff each coordinate is in the block's range on its axis. -/
theorem mem_blk_out (t : Fin cfg0.N) (i : S16384x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v9).slice (win0_5.rect t)).set ↔ _
  rw [View.set_slice_whole, Rect.mem_set_unit]
  exact Iff.rfl

/-- Row `n` of the array lies in the block written back at the last point of its row of eight, `8 (n / 1024) + 7`. -/
theorem covered (i : S16384x128.Idx) : ∃ t : Fin cfg0.N, (cfg0.win 5).flush t = true ∧ i ∈ ((cfg0.win 5).blk t).view.set := by
  have h0 : (i 0).val < 16384 := (i 0).isLt
  have h1 : (i 1).val < 128 := (i 1).isLt
  have hN : cfg0.N = 128 := N_0
  have hlt : 8 * ((i 0).val / 1024) + 7 < cfg0.N := by rw [hN]; omega
  obtain ⟨e0, e1⟩ := index_out ⟨8 * ((i 0).val / 1024) + 7, hlt⟩
  refine ⟨⟨8 * ((i 0).val / 1024) + 7, hlt⟩, (flush0_5 _).mpr ?_, ?_⟩
  · show (8 * ((i 0).val / 1024) + 7) % 8 = 7
    omega
  · rw [mem_blk_out]
    intro a
    match a with
    | ⟨0, _⟩ =>
      show win0_5.index ⟨8 * ((i 0).val / 1024) + 7, hlt⟩ (0 : Fin 2) * 1024 ≤ (i 0).val ∧ (i 0).val < win0_5.index ⟨8 * ((i 0).val / 1024) + 7, hlt⟩ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_5.index ⟨8 * ((i 0).val / 1024) + 7, hlt⟩ (1 : Fin 2) * 128 ≤ (i 1).val ∧ (i 1).val < win0_5.index ⟨8 * ((i 0).val / 1024) + 7, hlt⟩ (1 : Fin 2) * 128 + 128
      rw [e1]
      omega

/-- THE OUTPUT ARRAY AFTER REGION 0 holds the layer `relu (x · Wx + (adj · x) · Ws + b)` of the arrays as the region
    finds them: every last point writes back its block of it, and those blocks cover the array. -/
theorem final (c : Dev nD) : (R0.dat (F := Ideal) V c).arrAt 5 cfg0.N
      = Spec.unmat (Spec.layer (Spec.mat (V c main_arg1)) (Spec.mat (V c main_arg0)) (Spec.mat (V c main_v0)) (Spec.mat (V c main_v1)) (fun o => V c main_v4 (ix2 (0 : Fin 1) o))) :=
  (R0.dat (F := Ideal) V c).arrAt_eq_of_cover 5 (layerArr V c) (fun t ht => flushed_eq V c t ht) covered

end Cert.KernelIdeal.Val0

end
-- ==== Proof.KIVal1a.lean ====
/-
  What the second region's blocks hold, read entry by entry: each window's block at a grid point as entries of its
  array, the rows of the first layer's output a point loads, the neighbour sum a row of eight points accumulates as the
  running total of eight stretches of 2048 products, and the row-wise log-softmax at every column (the padding
  columns included).
-/
import proofs.«102636_j72069551227476_2_alg».proof.Proof.Gen.KernelIdeal.Points
import proofs.«102636_j72069551227476_2_alg».proof.Proof.Gen.KernelIdeal.Skeleton
import proofs.«102636_j72069551227476_2_alg».proof.Proof.KIPay
import proofs.«102636_j72069551227476_2_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The index maps and the load offsets, point by point

Point `t` of the 16 × 8 grid is `(i, k)` with `i = t / 8` and `k = t % 8`. -/

/-- The input windows: `adj` moves by blocks `(i, k)`; the six others are whole arrays. -/
theorem idx_in : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The output windows move by row blocks `(i, 0)`. -/
theorem idx_out : ∀ t : Fin cfg1.N,
    win1_7.index t (0 : Fin 2) = t.val / 8 ∧ win1_7.index t (1 : Fin 2) = 0
    ∧ win1_8.index t (0 : Fin 2) = t.val / 8 ∧ win1_8.index t (1 : Fin 2) = 0
    ∧ win1_9.index t (0 : Fin 2) = t.val / 8 ∧ win1_9.index t (1 : Fin 2) = 0 :=
  (by decide +kernel : ∀ t : Fin grid1.N, _)

/-- The rows a point loads start at `2048 k` (the stretch it multiplies `adj`'s block with) and at `1024 i` (the output
    block's own rows). -/
theorem off_facts : ∀ t : Fin cfg1.N,
    k1_off1 (grid1.coords t) (0 : Fin 2) = 2048 * (t.val % 8) ∧ k1_off1 (grid1.coords t) (1 : Fin 2) = 0
    ∧ k1_off2 (grid1.coords t) (0 : Fin 2) = 1024 * (t.val / 8) ∧ k1_off2 (grid1.coords t) (1 : Fin 2) = 0 :=
  (by decide +kernel : ∀ t : Fin grid1.N, _)

/-- The grid has 128 points. -/
theorem N1 : cfg1.N = 128 := by decide

/-! ## The windows' blocks as entries of their arrays -/

variable (V : (c : Dev nD) → (b : Ref sig .tc) → Buf (Elt Ideal) ((c : Thread nD τ).loc b))

/-- Entry `y` of block `(i, k)` of `adj` is entry `(1024 i + y₀, 2048 k + y₁)` of `adj`. -/
theorem blk0_apply (c : Dev nD) (t : Fin cfg1.N) (y : S1024x2048.Idx) (i : S16384x16384.Idx)
    (h0 : (i 0).val = 1024 * (t.val / 8) + (y 0).val) (h1 : (i 1).val = 2048 * (t.val % 8) + (y 1).val) :
    (((cfg1.win 0).blk t).view.read (Elt Ideal) (V c (Pipeline.arrRef spec1 0)) : S1024x2048.Idx → EReal) y
      = (V c main_arg1 : S16384x16384.Idx → EReal) i := by
  obtain ⟨e0, e1, -⟩ := idx_in t
  show V c main_arg1 (((cfg1.win 0).blk t).view.emb y) = V c main_arg1 i
  refine congrArg (V c main_arg1) ?_
  funext a; apply Fin.ext
  match a with
  | ⟨0, _⟩ => show win1_0.index t (0 : Fin 2) * 1024 + 1 * (y 0).val = (i 0).val; rw [e0, h0]; omega
  | ⟨1, _⟩ => show win1_0.index t (1 : Fin 2) * 2048 + 1 * (y 1).val = (i 1).val; rw [e1, h1]; omega

/-- The first layer's output is read whole. -/
theorem blk1_eq (c : Dev nD) (t : Fin cfg1.N) :
    (((cfg1.win 1).blk t).view.read (Elt Ideal) (V c (Pipeline.arrRef spec1 1)) : S16384x128.Idx → EReal) = V c main_v9 := by
  obtain ⟨-, -, e0, e1, -⟩ := idx_in t
  funext y
  show V c main_v9 (((cfg1.win 1).blk t).view.emb y) = V c main_v9 y
  refine congrArg (V c main_v9) ?_
  funext a; apply Fin.ext
  match a with
  | ⟨0, _⟩ => show win1_1.index t (0 : Fin 2) * 16384 + 1 * (y 0).val = (y 0).val; rw [e0]; omega
  | ⟨1, _⟩ => show win1_1.index t (1 : Fin 2) * 128 + 1 * (y 1).val = (y 1).val; rw [e1]; omega

/-- The weights that multiply a node's own row are read whole. -/
theorem blk2_eq (c : Dev nD) (t : Fin cfg1.N) :
    (((cfg1.win 2).blk t).view.read (Elt Ideal) (V c (Pipeline.arrRef spec1 2)) : S128x128.Idx → EReal) = V c main_v2 := by
  obtain ⟨-, -, -, -, e0, e1, -⟩ := idx_in t
  funext y
  show V c main_v2 (((cfg1.win 2).blk t).view.emb y) = V c main_v2 y
  refine congrArg (V c main_v2) ?_
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The weights that multiply the neighbour sum are read whole. -/
theorem blk3_eq (c : Dev nD) (t : Fin cfg1.N) :
    (((cfg1.win 3).blk t).view.read (Elt Ideal) (V c (Pipeline.arrRef spec1 3)) : S128x128.Idx → EReal) = V c main_v3 := by
  obtain ⟨-, -, -, -, -, -, e0, e1, -⟩ := idx_in t
  funext y
  show V c main_v3 (((cfg1.win 3).blk t).view.emb y) = V c main_v3 y
  refine congrArg (V c main_v3) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The layer's bias row is read whole. -/
theorem blk4_eq (c : Dev nD) (t : Fin cfg1.N) :
    (((cfg1.win 4).blk t).view.read (Elt Ideal) (V c (Pipeline.arrRef spec1 4)) : S1x128.Idx → EReal) = V c main_v5 := by
  obtain ⟨-, -, -, -, -, -, -, -, e0, e1, -⟩ := idx_in t
  funext y
  show V c main_v5 (((cfg1.win 4).blk t).view.emb y) = V c main_v5 y
  refine congrArg (V c main_v5) ?_
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The head's weights are read whole. -/
theorem blk5_eq (c : Dev nD) (t : Fin cfg1.N) :
    (((cfg1.win 5).blk t).view.read (Elt Ideal) (V c (Pipeline.arrRef spec1 5)) : S128x128.Idx → EReal) = V c main_v6 := by
  obtain ⟨-, -, -, -, -, -, -, -, -, -, e0, e1, -⟩ := idx_in t
  funext y
  show V c main_v6 (((cfg1.win 5).blk t).view.emb y) = V c main_v6 y
  refine congrArg (V c main_v6) ?_
  funext a; apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The head's bias row is read whole. -/
theorem blk6_eq (c : Dev nD) (t : Fin cfg1.N) :
    (((cfg1.win 6).blk t).view.read (Elt Ideal) (V c (Pipeline.arrRef spec1 6)) : S1x128.Idx → EReal) = V c main_v8 := by
  obtain ⟨-, -, -, -, -, -, -, -, -, -, -, -, e0, e1⟩ := idx_in t
  funext y
  show V c main_v8 (((cfg1.win 6).blk t).view.emb y) = V c main_v8 y
  refine congrArg (V c main_v8) ?_
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## The rows a point loads -/

/-- A load of `m` rows from row `r` on reads, at `(p, q)`, the array at `(r + p, q)`. -/
theorem ld_rows (m : ℕ) (off : Fin 2 → ℕ) (r : ℕ) (h0 : off 0 = r) (h1 : off 1 = 0) (x : S16384x128.Idx → EReal)
    (inb : ∀ a, off a + (![m, 128] : Fin 2 → ℕ) a ≤ S16384x128.size a) (p : Fin m) (q : Fin 128) (hr : r + p.val < 16384) :
    View.ld (Val := Elt Ideal) (e' := .f32) x (Rect.unit (s := S16384x128) off ![m, 128] inb) (ix2 p q) = x (ix2 ⟨r + p.val, hr⟩ q) := by
  show x _ = x _
  refine congrArg x ?_
  funext a; apply Fin.ext
  match a with
  | ⟨0, _⟩ => show off 0 + 1 * p.val = r + p.val; rw [h0]; omega
  | ⟨1, _⟩ => show off 1 + 1 * q.val = q.val; rw [h1]; omega

/-! ## The neighbour sum, accumulated over a row of eight points -/

/-- The products point `k` of a row adds: stretch `k` of 2048 terms of a sum over 16384 neighbours. -/
def stretch (f : Fin 16384 → EReal) (k : ℕ) : EReal :=
  if h : k < 8 then ∑ j : Fin 2048, f ⟨2048 * k + j.val, by omega⟩ else 0

/-- After the eighth stretch the running total is the whole sum. -/
theorem runTotal_stretch (f : Fin 16384 → EReal) : Spec.runTotal (stretch f) 7 = ∑ l : Fin 16384, f l :=
  Spec.runTotal_seven f

/-- An accumulator that point `(i, 0)` sets to `0 +` its products and every later point of the row adds its products to
    holds, after point `(i, k)`, at `(p, q)`, the running total of the first `k + 1` stretches of row `1024 i + p` of
    `adj · x` at column `q`: by induction on `k`. -/
theorem acc_closed (adj : Spec.Mat 16384 16384) (x : Spec.Mat 16384 128)
    (A : (n : ℕ) → n < cfg1.N → Vec Ideal S1024x128 .f32)
    (B : (n : ℕ) → n < cfg1.N → Vec Ideal S1024x2048 .f32)
    (X : (n : ℕ) → n < cfg1.N → Vec Ideal S2048x128 .f32)
    (hB : ∀ (b k : ℕ) (hb : b < 16) (hk : k < 8) (hn : 8 * b + k < cfg1.N) (p : Fin 1024) (j : Fin 2048),
        B (8 * b + k) hn (ix2 p j) = adj ⟨1024 * b + p.val, by omega⟩ ⟨2048 * k + j.val, by omega⟩)
    (hX : ∀ (b k : ℕ) (hb : b < 16) (hk : k < 8) (hn : 8 * b + k < cfg1.N) (j : Fin 2048) (q : Fin 128),
        X (8 * b + k) hn (ix2 j q) = x ⟨2048 * k + j.val, by omega⟩ q)
    (hfirst : ∀ (n : ℕ) (hn : n < cfg1.N), n % 8 = 0 → A n hn = k1_pay2 (X n hn) (B n hn) (k1_pay1 (F := Ideal)))
    (hstep : ∀ (n : ℕ) (hn : n + 1 < cfg1.N), ¬(n + 1) % 8 = 0 →
        A (n + 1) hn = k1_pay2 (X (n + 1) hn) (B (n + 1) hn) (A n (Nat.lt_of_succ_lt hn)))
    (b : ℕ) (hb : b < 16) (p : Fin 1024) (q : Fin 128) :
    ∀ (k : ℕ) (hk : k < 8) (hn : 8 * b + k < cfg1.N),
      A (8 * b + k) hn (ix2 p q)
        = Spec.runTotal (stretch fun l => adj ⟨1024 * b + p.val, by omega⟩ l * x l q) k := by
  intro k
  induction k with
  | zero =>
    intro hk hn
    rw [hfirst (8 * b + 0) hn (by omega)]
    refine (Pay.pay2_1 _ _ _ p q).trans ?_
    rw [Pay.pay1_1 p q]
    show _ = 0 + stretch _ 0
    refine congrArg (0 + ·) ?_
    rw [stretch, dif_pos hk]
    refine Finset.sum_congr rfl fun j _ => ?_
    exact congrArg₂ (· * ·) (hB b 0 hb hk hn p j) (hX b 0 hb hk hn j q)
  | succ k ih =>
    intro hk hn
    refine (congrFun (hstep (8 * b + k) hn (by omega)) (ix2 p q)).trans ?_
    refine (Pay.pay2_1 _ _ _ p q).trans ?_
    show _ = Spec.runTotal _ k + stretch _ (k + 1)
    refine congrArg₂ (· + ·) (ih (by omega) (by omega)) ?_
    rw [stretch, dif_pos hk]
    refine Finset.sum_congr rfl fun j _ => ?_
    exact congrArg₂ (· * ·) (hB b (k + 1) hb hk hn p j) (hX b (k + 1) hb hk hn j q)

/-- So after the row's last point the accumulator holds rows `1024 i …` of `adj · x`. -/
theorem acc_last (adj : Spec.Mat 16384 16384) (x : Spec.Mat 16384 128)
    (A : (n : ℕ) → n < cfg1.N → Vec Ideal S1024x128 .f32)
    (B : (n : ℕ) → n < cfg1.N → Vec Ideal S1024x2048 .f32)
    (X : (n : ℕ) → n < cfg1.N → Vec Ideal S2048x128 .f32)
    (hB : ∀ (b k : ℕ) (hb : b < 16) (hk : k < 8) (hn : 8 * b + k < cfg1.N) (p : Fin 1024) (j : Fin 2048),
        B (8 * b + k) hn (ix2 p j) = adj ⟨1024 * b + p.val, by omega⟩ ⟨2048 * k + j.val, by omega⟩)
    (hX : ∀ (b k : ℕ) (hb : b < 16) (hk : k < 8) (hn : 8 * b + k < cfg1.N) (j : Fin 2048) (q : Fin 128),
        X (8 * b + k) hn (ix2 j q) = x ⟨2048 * k + j.val, by omega⟩ q)
    (hfirst : ∀ (n : ℕ) (hn : n < cfg1.N), n % 8 = 0 → A n hn = k1_pay2 (X n hn) (B n hn) (k1_pay1 (F := Ideal)))
    (hstep : ∀ (n : ℕ) (hn : n + 1 < cfg1.N), ¬(n + 1) % 8 = 0 →
        A (n + 1) hn = k1_pay2 (X (n + 1) hn) (B (n + 1) hn) (A n (Nat.lt_of_succ_lt hn)))
    (t : Fin cfg1.N) (h7 : t.val % 8 = 7) (p : Fin 1024) (q : Fin 128) (hr : 1024 * (t.val / 8) + p.val < 16384) :
    A t.val t.isLt (ix2 p q) = Spec.agg adj x ⟨1024 * (t.val / 8) + p.val, hr⟩ q := by
  have hN : cfg1.N = 128 := N1
  have ht := t.isLt
  have e : 8 * (t.val / 8) + 7 = t.val := by omega
  have key : ∀ (n : ℕ) (hn : n < cfg1.N), n = t.val → A n hn = A t.val t.isLt := by
    intro n hn en; subst en; rfl
  rw [← key (8 * (t.val / 8) + 7) (by omega) e]
  refine (acc_closed adj x A B X hB hX hfirst hstep (t.val / 8) (by omega) p q 7 (by omega) (by omega)).trans ?_
  exact runTotal_stretch _

/-! ## The log-softmax of a row, at every column -/

/-- The log-softmax of the first 40 entries of a row of 128, read at column `q`: the padding columns hold `⊥` less
    the row's maximum less the logarithm of the row's sum of exponentials. -/
def rowLS (r : Fin 128 → EReal) (q : Fin 128) : EReal :=
  ((if q.val < 40 then r q else ⊥) - (Finset.univ : Finset (Fin 40)).fold max ⊥ (fun c' : Fin 40 => r ⟨c'.val, by omega⟩))
    - Ideal.log (∑ c' : Fin 40, Ideal.exp (r ⟨c'.val, by omega⟩
        - (Finset.univ : Finset (Fin 40)).fold max ⊥ (fun c' : Fin 40 => r ⟨c'.val, by omega⟩)))

/-- The last payload is the log-softmax of each row of its operand. -/
theorem pay3_all (v52 : Vec Ideal S1024x128 .f32) (p : Fin 1024) (q : Fin 128) :
    k1_pay3 (F := Ideal) v52 (iota .tc S1024x128 32 [1] iota_S1024x128_d1_w32) 40#32 (ix2 p q)
      = rowLS (fun k => v52 (ix2 p k)) q := by
  rw [Pay.k1_pay3_eq]
  refine (subf_apply _ _ _).trans ?_
  refine congrArg₂ (· - ·) ?_ ?_
  · rw [Pay.centred_apply, Pay.masked_apply]; rfl
  · refine (Pay.logSumCol_apply _ p q).trans (congrArg Ideal.log ?_)
    have e : (fun k : Fin 128 => Ideal.exp (subf (Pay.masked v52) (Pay.rowMaxCol (Pay.masked v52)) (ix2 p k)))
        = fun k : Fin 128 => Ideal.exp (Pay.masked v52 (ix2 p k) - Pay.rowM v52 p) :=
      funext fun k => congrArg Ideal.exp (Pay.centred_apply v52 p k)
    refine (congrArg (fun f : Fin 128 → EReal => ∑ k : Fin 128, f k) e).trans ?_
    refine (Cert.Spec.sum_exp_pad (fun k => Pay.masked v52 (ix2 p k)) (fun c hc => Pay.masked_ge v52 p c hc) (Pay.rowM v52 p)).trans ?_
    exact Finset.sum_congr rfl fun c' _ =>
      congrArg (fun t => Ideal.exp (t - Pay.rowM v52 p)) (Pay.masked_lt v52 p ⟨c'.val, by omega⟩ c'.isLt)

end Cert.KernelIdeal.Val1

end
-- ==== Proof.KIVal1.lean ====
/-
  What the second region's three output arrays hold after the region: the hidden-layer array the second GraphSAGE layer
  of the first layer's output, the logits array that layer through the head's weights plus the head's bias, and the
  log-probabilities array, below column 40, the row-wise log-softmax of the logits array's first 40 columns. Each last
  point of a row of eight writes back one block of 1024 rows; the block is the corresponding rows of one function of the
  arrays the region finds, and the sixteen blocks tile the array.
-/
import proofs.«102636_j72069551227476_2_alg».proof.Proof.KIR1
import proofs.«102636_j72069551227476_2_alg».proof.Proof.KIVal1a
import proofs.«102636_j72069551227476_2_alg».proof.Proof.KIPay
import proofs.«102636_j72069551227476_2_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## What the second region's three output arrays hold -/

variable (V : (c : Dev nD) → (b : Ref sig .tc) → Buf (Elt Ideal) ((c : Thread nD τ).loc b))

/-- The second layer's activations, as a function of the arrays the region finds. -/
def HH (c : Dev nD) : Spec.Mat 16384 128 :=
  Spec.layer (Spec.mat (V c main_arg1)) (Spec.mat (V c main_v9)) (Spec.mat (V c main_v2)) (Spec.mat (V c main_v3))
    (fun o => V c main_v5 (ix2 (0 : Fin 1) o))

/-! ### The accumulator after a row's last point -/

/-- The block of `adj` point `(i, k)` multiplies, entry by entry. -/
theorem hB1 (c : Dev nD) (b k : ℕ) (hb : b < 16) (hk : k < 8) (hn : 8 * b + k < cfg1.N) (p : Fin 1024) (j : Fin 2048) :
    (R1.iblk (F := Ideal) V c 0 ⟨8 * b + k, hn⟩ : Vec Ideal S1024x2048 .f32) (ix2 p j)
      = Spec.mat (V c main_arg1) ⟨1024 * b + p.val, by omega⟩ ⟨2048 * k + j.val, by omega⟩ :=
  blk0_apply V c ⟨8 * b + k, hn⟩ (ix2 p j) (ix2 ⟨1024 * b + p.val, by omega⟩ ⟨2048 * k + j.val, by omega⟩)
    (by show 1024 * b + p.val = 1024 * ((8 * b + k) / 8) + p.val; omega)
    (by show 2048 * k + j.val = 2048 * ((8 * b + k) % 8) + j.val; omega)

/-- The rows of the first layer's output point `(i, k)` multiplies it with, entry by entry. -/
theorem hX1 (c : Dev nD) (b k : ℕ) (hb : b < 16) (hk : k < 8) (hn : 8 * b + k < cfg1.N) (j : Fin 2048) (q : Fin 128) :
    R1.xk (F := Ideal) (grid1.coords ⟨8 * b + k, hn⟩) (R1.iblk V c 1 ⟨8 * b + k, hn⟩) (ix2 j q)
      = Spec.mat (V c main_v9) ⟨2048 * k + j.val, by omega⟩ q := by
  obtain ⟨e0, e1, -⟩ := off_facts ⟨8 * b + k, hn⟩
  refine (ld_rows 2048 (k1_off1 (grid1.coords ⟨8 * b + k, hn⟩)) (2048 * k)
    (e0.trans (by show 2048 * ((8 * b + k) % 8) = 2048 * k; omega)) e1 (R1.iblk V c 1 ⟨8 * b + k, hn⟩)
    (k1_off1_inb (grid1.coords ⟨8 * b + k, hn⟩)) j q (by omega)).trans ?_
  exact congrFun (blk1_eq V c ⟨8 * b + k, hn⟩) _

/-- After a row's last point the accumulator holds the row block of `adj · x`. -/
theorem acc7 (c : Dev nD) (t : Fin cfg1.N) (h7 : t.val % 8 = 7) (p : Fin 1024) (q : Fin 128)
    (hr : 1024 * (t.val / 8) + p.val < 16384) :
    R1.acc (F := Ideal) V c t.val t.isLt (ix2 p q)
      = Spec.agg (Spec.mat (V c main_arg1)) (Spec.mat (V c main_v9)) ⟨1024 * (t.val / 8) + p.val, hr⟩ q :=
  acc_last (Spec.mat (V c main_arg1)) (Spec.mat (V c main_v9)) (R1.acc (F := Ideal) V c)
    (fun n hn => R1.iblk (F := Ideal) V c 0 ⟨n, hn⟩)
    (fun n hn => R1.xk (F := Ideal) (grid1.coords ⟨n, hn⟩) (R1.iblk V c 1 ⟨n, hn⟩))
    (hB1 V c) (hX1 V c)
    (fun n hn h => R1.acc_first V c ⟨n, hn⟩ h)
    (fun n hn h => R1.acc_step V c ⟨n + 1, hn⟩ h)
    t h7 p q hr

/-! ### The three blocks a last point stores, entry by entry -/

/-- The hidden-layer block is the layer's rows `1024 i …`. -/
theorem out7_apply (c : Dev nD) (t : Fin cfg1.N) (h : R1.condLast (grid1.coords t)) (h7 : t.val % 8 = 7)
    (p : Fin 1024) (q : Fin 128) (hr : 1024 * (t.val / 8) + p.val < 16384) :
    R1.out7At (F := Ideal) V c t h (ix2 p q) = HH V c ⟨1024 * (t.val / 8) + p.val, hr⟩ q := by
  obtain ⟨-, -, e0, e1⟩ := off_facts t
  unfold R1.out7At
  refine (Pay.pay4_1 (R1.xi (grid1.coords t) h (R1.iblk V c 1 t)) (R1.acc V c t.val t.isLt) (R1.iblk V c 3 t)
    (R1.iblk V c 2 t) (R1.iblk V c 4 t) p q).trans ?_
  show _ = max (((∑ k : Fin 128, Spec.mat (V c main_v9) ⟨_, hr⟩ k * Spec.mat (V c main_v2) k q)
      + ∑ k : Fin 128, Spec.agg (Spec.mat (V c main_arg1)) (Spec.mat (V c main_v9)) ⟨_, hr⟩ k * Spec.mat (V c main_v3) k q)
    + V c main_v5 (ix2 (0 : Fin 1) q)) 0
  refine congrArg (max · 0) ?_
  refine congrArg₂ (· + ·) (congrArg₂ (· + ·) ?_ ?_) ?_
  · refine Finset.sum_congr rfl fun k _ => congrArg₂ (· * ·) ?_ ?_
    · refine (ld_rows 1024 (k1_off2 (grid1.coords t)) (1024 * (t.val / 8)) e0 e1 (R1.iblk V c 1 t)
        (k1_off2_inb (grid1.coords t) h) p k hr).trans ?_
      exact congrFun (blk1_eq V c t) _
    · exact congrFun (blk2_eq V c t) (ix2 k q)
  · refine Finset.sum_congr rfl fun k _ => congrArg₂ (· * ·) ?_ ?_
    · exact acc7 V c t h7 p k hr
    · exact congrFun (blk3_eq V c t) (ix2 k q)
  · exact congrFun (blk4_eq V c t) (ix2 (0 : Fin 1) q)

/-- The logits, as a function of the arrays the region finds: the layer through the head's weights and bias. -/
def G8 (c : Dev nD) : S16384x128.Idx → EReal := fun i =>
  (∑ k : Fin 128, HH V c (i 0) k * V c main_v6 (ix2 k (i 1))) + V c main_v8 (ix2 (0 : Fin 1) (i 1))

/-- The logits block is the logits' rows `1024 i …`. -/
theorem out8_apply (c : Dev nD) (t : Fin cfg1.N) (h : R1.condLast (grid1.coords t)) (h7 : t.val % 8 = 7)
    (p : Fin 1024) (q : Fin 128) (hr : 1024 * (t.val / 8) + p.val < 16384) :
    R1.out8At (F := Ideal) V c t h (ix2 p q) = G8 V c (ix2 ⟨1024 * (t.val / 8) + p.val, hr⟩ q) := by
  unfold R1.out8At
  refine (Pay.pay5_1 (R1.xi (grid1.coords t) h (R1.iblk V c 1 t)) (R1.acc V c t.val t.isLt) (R1.iblk V c 3 t)
    (R1.iblk V c 2 t) (R1.iblk V c 4 t) (R1.iblk V c 5 t) (R1.iblk V c 6 t) p q).trans ?_
  show _ = (∑ k : Fin 128, HH V c ⟨_, hr⟩ k * V c main_v6 (ix2 k q)) + V c main_v8 (ix2 (0 : Fin 1) q)
  refine congrArg₂ (· + ·) ?_ ?_
  · refine Finset.sum_congr rfl fun k _ => congrArg₂ (· * ·) ?_ ?_
    · exact out7_apply V c t h h7 p k hr
    · exact congrFun (blk5_eq V c t) (ix2 k q)
  · exact congrFun (blk6_eq V c t) (ix2 (0 : Fin 1) q)

/-- The log-probabilities at every column, as a function of the arrays the region finds. -/
def G9 (c : Dev nD) : S16384x128.Idx → EReal := fun i => rowLS (fun k => G8 V c (ix2 (i 0) k)) (i 1)

/-- The log-softmax block is the log-probabilities' rows `1024 i …`. -/
theorem out9_apply (c : Dev nD) (t : Fin cfg1.N) (h : R1.condLast (grid1.coords t)) (h7 : t.val % 8 = 7)
    (p : Fin 1024) (q : Fin 128) (hr : 1024 * (t.val / 8) + p.val < 16384) :
    R1.out9At (F := Ideal) V c t h (ix2 p q) = G9 V c (ix2 ⟨1024 * (t.val / 8) + p.val, hr⟩ q) := by
  unfold R1.out9At
  refine (pay3_all (R1.out8At (F := Ideal) V c t h) p q).trans ?_
  show rowLS (fun k => R1.out8At (F := Ideal) V c t h (ix2 p k)) q = rowLS (fun k => G8 V c (ix2 ⟨_, hr⟩ k)) q
  refine congrArg (fun r => rowLS r q) (funext fun k => ?_)
  exact out8_apply V c t h h7 p k hr

/-! ### What a last point writes back is its block of the whole-array function -/

theorem flushed7_eq (c : Dev nD) (t : Fin cfg1.N) (hf : (cfg1.win 7).flush t = true) :
    (R1.dat (F := Ideal) V c).flushed 7 t = ((cfg1.win 7).blk t).view.read (Elt Ideal) (Spec.unmat (HH V c)) := by
  have h7 : t.val % 8 = 7 := (flush1_7 t).mp hf
  have hc : R1.condLast (grid1.coords t) := (R1.hcondLast t).mpr h7
  have hN : cfg1.N = 128 := N1
  have ht := t.isLt
  obtain ⟨e0, e1, -⟩ := idx_out t
  show (cfg1.win 7).cut (grid1.coords t) ((R1.dat (F := Ideal) V c).after 7 t) = _
  rw [R1.after7]
  funext y
  obtain ⟨p, q, rfl⟩ : ∃ (p : Fin 1024) (q : Fin 128), y = ix2 p q := ⟨y 0, y 1, eq_ix2 y⟩
  show R1.outB7 (F := Ideal) V c t (ix2 p q) = Spec.unmat (HH V c) (((cfg1.win 7).blk t).view.emb (ix2 p q))
  unfold R1.outB7
  rw [dif_pos hc]
  refine (out7_apply V c t hc h7 p q (by omega)).trans ?_
  show Spec.unmat (HH V c) (ix2 ⟨1024 * (t.val / 8) + p.val, by omega⟩ q) = _
  refine congrArg (Spec.unmat (HH V c)) ?_
  funext a; apply Fin.ext
  match a with
  | ⟨0, _⟩ => show 1024 * (t.val / 8) + p.val = win1_7.index t (0 : Fin 2) * 1024 + 1 * p.val; rw [e0]; omega
  | ⟨1, _⟩ => show q.val = win1_7.index t (1 : Fin 2) * 128 + 1 * q.val; rw [e1]; omega

theorem flushed8_eq (c : Dev nD) (t : Fin cfg1.N) (hf : (cfg1.win 8).flush t = true) :
    (R1.dat (F := Ideal) V c).flushed 8 t = ((cfg1.win 8).blk t).view.read (Elt Ideal) (G8 V c) := by
  have h7 : t.val % 8 = 7 := (flush1_8 t).mp hf
  have hc : R1.condLast (grid1.coords t) := (R1.hcondLast t).mpr h7
  have hN : cfg1.N = 128 := N1
  have ht := t.isLt
  obtain ⟨-, -, e0, e1, -⟩ := idx_out t
  show (cfg1.win 8).cut (grid1.coords t) ((R1.dat (F := Ideal) V c).after 8 t) = _
  rw [R1.after8]
  funext y
  obtain ⟨p, q, rfl⟩ : ∃ (p : Fin 1024) (q : Fin 128), y = ix2 p q := ⟨y 0, y 1, eq_ix2 y⟩
  show R1.outB8 (F := Ideal) V c t (ix2 p q) = G8 V c (((cfg1.win 8).blk t).view.emb (ix2 p q))
  unfold R1.outB8
  rw [dif_pos hc]
  refine (out8_apply V c t hc h7 p q (by omega)).trans ?_
  refine congrArg (G8 V c) ?_
  funext a; apply Fin.ext
  match a with
  | ⟨0, _⟩ => show 1024 * (t.val / 8) + p.val = win1_8.index t (0 : Fin 2) * 1024 + 1 * p.val; rw [e0]; omega
  | ⟨1, _⟩ => show q.val = win1_8.index t (1 : Fin 2) * 128 + 1 * q.val; rw [e1]; omega

theorem flushed9_eq (c : Dev nD) (t : Fin cfg1.N) (hf : (cfg1.win 9).flush t = true) :
    (R1.dat (F := Ideal) V c).flushed 9 t = ((cfg1.win 9).blk t).view.read (Elt Ideal) (G9 V c) := by
  have h7 : t.val % 8 = 7 := (flush1_9 t).mp hf
  have hc : R1.condLast (grid1.coords t) := (R1.hcondLast t).mpr h7
  have hN : cfg1.N = 128 := N1
  have ht := t.isLt
  obtain ⟨-, -, -, -, e0, e1⟩ := idx_out t
  show (cfg1.win 9).cut (grid1.coords t) ((R1.dat (F := Ideal) V c).after 9 t) = _
  rw [R1.after9]
  funext y
  obtain ⟨p, q, rfl⟩ : ∃ (p : Fin 1024) (q : Fin 128), y = ix2 p q := ⟨y 0, y 1, eq_ix2 y⟩
  show R1.outB9 (F := Ideal) V c t (ix2 p q) = G9 V c (((cfg1.win 9).blk t).view.emb (ix2 p q))
  unfold R1.outB9
  rw [dif_pos hc]
  refine (out9_apply V c t hc h7 p q (by omega)).trans ?_
  refine congrArg (G9 V c) ?_
  funext a; apply Fin.ext
  match a with
  | ⟨0, _⟩ => show 1024 * (t.val / 8) + p.val = win1_9.index t (0 : Fin 2) * 1024 + 1 * p.val; rw [e0]; omega
  | ⟨1, _⟩ => show q.val = win1_9.index t (1 : Fin 2) * 128 + 1 * q.val; rw [e1]; omega

/-! ### The row blocks tile the arrays: row `n` lies in the block written at point `(n / 1024, 7)` -/

theorem mem_blk7 (t : Fin cfg1.N) (i : S16384x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v10_0).slice (win1_7.rect t)).set ↔ _
  rw [View.set_slice_whole, Rect.mem_set_unit]
  exact Iff.rfl

theorem mem_blk8 (t : Fin cfg1.N) (i : S16384x128.Idx) :
    i ∈ ((cfg1.win 8).blk t).view.set ↔ ∀ a : Fin 2, win1_8.index t a * S1024x128.size a ≤ (i a).val ∧ (i a).val < win1_8.index t a * S1024x128.size a + S1024x128.size a := by
  show i ∈ ((View.whole main_v10_1).slice (win1_8.rect t)).set ↔ _
  rw [View.set_slice_whole, Rect.mem_set_unit]
  exact Iff.rfl

theorem mem_blk9 (t : Fin cfg1.N) (i : S16384x128.Idx) :
    i ∈ ((cfg1.win 9).blk t).view.set ↔ ∀ a : Fin 2, win1_9.index t a * S1024x128.size a ≤ (i a).val ∧ (i a).val < win1_9.index t a * S1024x128.size a + S1024x128.size a := by
  show i ∈ ((View.whole main_v10_2).slice (win1_9.rect t)).set ↔ _
  rw [View.set_slice_whole, Rect.mem_set_unit]
  exact Iff.rfl

theorem cover7 (i : S16384x128.Idx) :
    ∃ t : Fin cfg1.N, (cfg1.win 7).flush t = true ∧ i ∈ ((cfg1.win 7).blk t).view.set := by
  have hi0 : (i 0).val < 16384 := (i 0).isLt
  have hi1 : (i 1).val < 128 := (i 1).isLt
  have hN : cfg1.N = 128 := N1
  have hlt : 8 * ((i 0).val / 1024) + 7 < cfg1.N := by omega
  obtain ⟨e0, e1, -⟩ := idx_out ⟨8 * ((i 0).val / 1024) + 7, hlt⟩
  refine ⟨⟨8 * ((i 0).val / 1024) + 7, hlt⟩, (flush1_7 _).mpr (by show (8 * ((i 0).val / 1024) + 7) % 8 = 7; omega), ?_⟩
  rw [mem_blk7]
  intro a
  match a with
  | ⟨0, _⟩ =>
    show win1_7.index ⟨8 * ((i 0).val / 1024) + 7, hlt⟩ (0 : Fin 2) * 1024 ≤ (i 0).val
      ∧ (i 0).val < win1_7.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_7.index ⟨8 * ((i 0).val / 1024) + 7, hlt⟩ (1 : Fin 2) * 128 ≤ (i 1).val
      ∧ (i 1).val < win1_7.index ⟨8 * ((i 0).val / 1024) + 7, hlt⟩ (1 : Fin 2) * 128 + 128
    rw [e1]; omega

theorem cover8 (i : S16384x128.Idx) :
    ∃ t : Fin cfg1.N, (cfg1.win 8).flush t = true ∧ i ∈ ((cfg1.win 8).blk t).view.set := by
  have hi0 : (i 0).val < 16384 := (i 0).isLt
  have hi1 : (i 1).val < 128 := (i 1).isLt
  have hN : cfg1.N = 128 := N1
  have hlt : 8 * ((i 0).val / 1024) + 7 < cfg1.N := by omega
  obtain ⟨-, -, e0, e1, -⟩ := idx_out ⟨8 * ((i 0).val / 1024) + 7, hlt⟩
  refine ⟨⟨8 * ((i 0).val / 1024) + 7, hlt⟩, (flush1_8 _).mpr (by show (8 * ((i 0).val / 1024) + 7) % 8 = 7; omega), ?_⟩
  rw [mem_blk8]
  intro a
  match a with
  | ⟨0, _⟩ =>
    show win1_8.index ⟨8 * ((i 0).val / 1024) + 7, hlt⟩ (0 : Fin 2) * 1024 ≤ (i 0).val
      ∧ (i 0).val < win1_8.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_8.index ⟨8 * ((i 0).val / 1024) + 7, hlt⟩ (1 : Fin 2) * 128 ≤ (i 1).val
      ∧ (i 1).val < win1_8.index ⟨8 * ((i 0).val / 1024) + 7, hlt⟩ (1 : Fin 2) * 128 + 128
    rw [e1]; omega

theorem cover9 (i : S16384x128.Idx) :
    ∃ t : Fin cfg1.N, (cfg1.win 9).flush t = true ∧ i ∈ ((cfg1.win 9).blk t).view.set := by
  have hi0 : (i 0).val < 16384 := (i 0).isLt
  have hi1 : (i 1).val < 128 := (i 1).isLt
  have hN : cfg1.N = 128 := N1
  have hlt : 8 * ((i 0).val / 1024) + 7 < cfg1.N := by omega
  obtain ⟨-, -, -, -, e0, e1⟩ := idx_out ⟨8 * ((i 0).val / 1024) + 7, hlt⟩
  refine ⟨⟨8 * ((i 0).val / 1024) + 7, hlt⟩, (flush1_9 _).mpr (by show (8 * ((i 0).val / 1024) + 7) % 8 = 7; omega), ?_⟩
  rw [mem_blk9]
  intro a
  match a with
  | ⟨0, _⟩ =>
    show win1_9.index ⟨8 * ((i 0).val / 1024) + 7, hlt⟩ (0 : Fin 2) * 1024 ≤ (i 0).val
      ∧ (i 0).val < win1_9.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_9.index ⟨8 * ((i 0).val / 1024) + 7, hlt⟩ (1 : Fin 2) * 128 ≤ (i 1).val
      ∧ (i 1).val < win1_9.index ⟨8 * ((i 0).val / 1024) + 7, hlt⟩ (1 : Fin 2) * 128 + 128
    rw [e1]; omega

/-! ### The arrays after the region -/

/-- The hidden-layer array ends holding the second layer. -/
theorem final7 (c : Dev nD) : (R1.dat (F := Ideal) V c).arrAt 7 cfg1.N = Spec.unmat (HH V c) :=
  (R1.dat (F := Ideal) V c).arrAt_eq_of_cover 7 (Spec.unmat (HH V c)) (fun t ht => flushed7_eq V c t ht) cover7

/-- The logits array ends holding the logits, -/
theorem arr8 (c : Dev nD) : (R1.dat (F := Ideal) V c).arrAt 8 cfg1.N = G8 V c :=
  (R1.dat (F := Ideal) V c).arrAt_eq_of_cover 8 (G8 V c) (fun t ht => flushed8_eq V c t ht) cover8

/-- entry by entry: the second layer's row through the head's weights, plus the head's bias. -/
theorem final8 (c : Dev nD) (n : Fin 16384) (q : Fin 128) :
    (R1.dat (F := Ideal) V c).arrAt 8 cfg1.N (ix2 n q)
      = (∑ k : Fin 128, HH V c n k * V c main_v6 (ix2 k q)) + V c main_v8 (ix2 (0 : Fin 1) q) :=
  congrFun (arr8 V c) (ix2 n q)

/-- The log-probabilities array ends holding the row-wise log-softmax of the logits array, at every column. -/
theorem arr9 (c : Dev nD) : (R1.dat (F := Ideal) V c).arrAt 9 cfg1.N = G9 V c :=
  (R1.dat (F := Ideal) V c).arrAt_eq_of_cover 9 (G9 V c) (fun t ht => flushed9_eq V c t ht) cover9

/-- The logits array's entry `(n, q)`, -/
abbrev L9 (c : Dev nD) (n : Fin 16384) (q : Fin 128) : EReal := (R1.dat (F := Ideal) V c).arrAt 8 cfg1.N (ix2 n q)
/-- and the maximum of its row `n` over the first 40 columns, from `⊥`. -/
abbrev M9 (c : Dev nD) (n : Fin 16384) : EReal :=
  (Finset.univ : Finset (Fin 40)).fold max ⊥ (fun c' : Fin 40 => L9 V c n ⟨c'.val, by omega⟩)

/-- Below column 40 the log-probabilities array holds the log-softmax of the logits array's first 40 columns. -/
theorem final9 (c : Dev nD) (n : Fin 16384) (q : Fin 128) (hq : q.val < 40) :
    (R1.dat (F := Ideal) V c).arrAt 9 cfg1.N (ix2 n q)
      = (L9 V c n q - M9 V c n) - Ideal.log (∑ c' : Fin 40, Ideal.exp (L9 V c n ⟨c'.val, by omega⟩ - M9 V c n)) := by
  refine (congrFun (arr9 V c) (ix2 n q)).trans ?_
  have e : (fun k : Fin 128 => G8 V c (ix2 n k)) = fun k : Fin 128 => L9 V c n k :=
    funext fun k => (congrFun (arr8 V c) (ix2 n k)).symm
  show rowLS (fun k : Fin 128 => G8 V c (ix2 n k)) q = _
  rw [e]
  show ((if q.val < 40 then L9 V c n q else ⊥) - M9 V c n)
      - Ideal.log (∑ c' : Fin 40, Ideal.exp (L9 V c n ⟨c'.val, by omega⟩ - M9 V c n)) = _
  rw [if_pos hq]

end Cert.KernelIdeal.Val1

end
-- ==== Proof.KIHost.lean ====
/-
  What the host operations around the two kernel regions compute, read entry by entry over the extended reals.
  Before the regions the program cuts each 256 × 128 weight matrix into its upper and lower 128 rows, lays each
  128-entry bias out as a one-row matrix, and widens the 128 × 40 head weights and the 40-entry head bias to 128
  columns by padding with the float conversion of the integer zero, which is zero. After the regions it keeps the
  first 40 columns of two 16384 × 128 results. No operation touches the first two arguments.
-/
import proofs.«102636_j72069551227476_2_alg».proof.Proof.Gen.KernelIdeal.Regions
import proofs.«102636_j72069551227476_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Host

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : Outs (F := Ideal)) (c : Dev nD)

/-! ## The first two arguments reach the first region as launched -/

theorem v4_arg0 : V4 m c main_arg0 = m ((c : Thread nD τ).loc main_arg0) :=
  (V4_of m c main_arg0 (by decide)).trans <| (V3_of m c main_arg0 (by decide)).trans <| (V2_of m c main_arg0 (by decide)).trans <| (V1_of m c main_arg0 (by decide)).trans rfl

theorem v4_arg1 : V4 m c main_arg1 = m ((c : Thread nD τ).loc main_arg1) :=
  (V4_of m c main_arg1 (by decide)).trans <| (V3_of m c main_arg1 (by decide)).trans <| (V2_of m c main_arg1 (by decide)).trans <| (V1_of m c main_arg1 (by decide)).trans rfl

/-! ## The weight matrices' halves -/

theorem v1_v0 : (V1 m c main_v0 : S128x128.Idx → EReal)
    = extractStridedSlice S128x128 ![0, 0] (m ((c : Thread nD τ).loc main_arg2)) slices_S256x128_S128x128_0_0 := by
  dsimp only [V1, V0, hostOps0]; after_results

theorem v1_v1 : (V1 m c main_v1 : S128x128.Idx → EReal)
    = extractStridedSlice S128x128 ![128, 0] (m ((c : Thread nD τ).loc main_arg2)) slices_S256x128_S128x128_128_0 := by
  dsimp only [V1, V0, hostOps0]; after_results

theorem v1_v2 : (V1 m c main_v2 : S128x128.Idx → EReal)
    = extractStridedSlice S128x128 ![0, 0] (m ((c : Thread nD τ).loc main_arg4)) slices_S256x128_S128x128_0_0 := by
  dsimp only [V1, V0, hostOps0]; after_results

theorem v1_v3 : (V1 m c main_v3 : S128x128.Idx → EReal)
    = extractStridedSlice S128x128 ![128, 0] (m ((c : Thread nD τ).loc main_arg4)) slices_S256x128_S128x128_128_0 := by
  dsimp only [V1, V0, hostOps0]; after_results

/-- The first layer's weights for a node's own features are the upper 128 rows of the first weight matrix. -/
theorem v4_v0 : Spec.mat (V4 m c main_v0) = Spec.top (Spec.mat (m ((c : Thread nD τ).loc main_arg2))) := by
  funext p q
  show V4 m c main_v0 (ix2 p q) = m ((c : Thread nD τ).loc main_arg2) (ix2 ⟨p.val, by omega⟩ q)
  rw [V4_of m c main_v0 (by decide), V3_of m c main_v0 (by decide), V2_of m c main_v0 (by decide), v1_v0]
  exact slice2_axis0_apply 0 _ _ p q _ (Nat.zero_add _).symm

/-- Its weights for the aggregated neighbours are the lower 128 rows. -/
theorem v4_v1 : Spec.mat (V4 m c main_v1) = Spec.bot (Spec.mat (m ((c : Thread nD τ).loc main_arg2))) := by
  funext p q
  show V4 m c main_v1 (ix2 p q) = m ((c : Thread nD τ).loc main_arg2) (ix2 ⟨128 + p.val, by omega⟩ q)
  rw [V4_of m c main_v1 (by decide), V3_of m c main_v1 (by decide), V2_of m c main_v1 (by decide), v1_v1]
  exact slice2_axis0_apply 128 _ _ p q _ rfl

/-- The second layer's, of the second weight matrix: the upper rows -/
theorem v4_v2 : Spec.mat (V4 m c main_v2) = Spec.top (Spec.mat (m ((c : Thread nD τ).loc main_arg4))) := by
  funext p q
  show V4 m c main_v2 (ix2 p q) = m ((c : Thread nD τ).loc main_arg4) (ix2 ⟨p.val, by omega⟩ q)
  rw [V4_of m c main_v2 (by decide), V3_of m c main_v2 (by decide), V2_of m c main_v2 (by decide), v1_v2]
  exact slice2_axis0_apply 0 _ _ p q _ (Nat.zero_add _).symm

/-- and the lower rows. -/
theorem v4_v3 : Spec.mat (V4 m c main_v3) = Spec.bot (Spec.mat (m ((c : Thread nD τ).loc main_arg4))) := by
  funext p q
  show V4 m c main_v3 (ix2 p q) = m ((c : Thread nD τ).loc main_arg4) (ix2 ⟨128 + p.val, by omega⟩ q)
  rw [V4_of m c main_v3 (by decide), V3_of m c main_v3 (by decide), V2_of m c main_v3 (by decide), v1_v3]
  exact slice2_axis0_apply 128 _ _ p q _ rfl

/-! ## The biases as one-row matrices -/

theorem v1_v4 : (V1 m c main_v4 : S1x128.Idx → EReal)
    = shapeCast S1x128 (m ((c : Thread nD τ).loc main_arg3)) shapeCasts_S128_S1x128 := by
  dsimp only [V1, V0, hostOps0]; after_results; rfl

theorem v1_v5 : (V1 m c main_v5 : S1x128.Idx → EReal)
    = shapeCast S1x128 (m ((c : Thread nD τ).loc main_arg5)) shapeCasts_S128_S1x128 := by
  dsimp only [V1, V0, hostOps0]; after_results; rfl

/-- The first layer's bias row holds the bias. -/
theorem v4_v4 (o : Fin 128) : V4 m c main_v4 (ix2 (0 : Fin 1) o) = m ((c : Thread nD τ).loc main_arg3) (ix1 o) := by
  rw [V4_of m c main_v4 (by decide), V3_of m c main_v4 (by decide), V2_of m c main_v4 (by decide), v1_v4]
  exact shapeCast_a_1a_apply _ _ 0 o

/-- The second layer's bias row holds the bias. -/
theorem v4_v5 (o : Fin 128) : V4 m c main_v5 (ix2 (0 : Fin 1) o) = m ((c : Thread nD τ).loc main_arg5) (ix1 o) := by
  rw [V4_of m c main_v5 (by decide), V3_of m c main_v5 (by decide), V2_of m c main_v5 (by decide), v1_v5]
  exact shapeCast_a_1a_apply _ _ 0 o

/-! ## The head's weights and bias widened to 128 columns -/

/-- The padding value: the integer zero converted is the float zero. -/
theorem padValue : (sitofp (F := Ideal) .f32 (constantI S_ 32 0#32) : S_.Idx → EReal) (Shape.Idx.first h_S_) = 0 :=
  sitofp_zero

theorem v2_v6 : (V2 m c main_v6 : S128x128.Idx → EReal)
    = pad S128x128 ![0, 0] ![0, 88] ![0, 0] (m ((c : Thread nD τ).loc main_arg6))
        (sitofp (F := Ideal) .f32 (constantI S_ 32 0#32)) pads_S128x40_S128x128_000_0880 h_S_ := by
  dsimp only [V2, V1, V0, hostOps0_1, hostOps0]; after_results; rfl

/-- The head's weights: the first 40 columns hold them, the other 88 hold zero. -/
theorem v4_v6 (k : Fin 128) (q : Fin 128) :
    V4 m c main_v6 (ix2 k q) = (if h : q.val < 40 then m ((c : Thread nD τ).loc main_arg6) (ix2 k ⟨q.val, h⟩) else 0 : EReal) := by
  rw [V4_of m c main_v6 (by decide), V3_of m c main_v6 (by decide), v2_v6]
  by_cases h : q.val < 40
  · rw [dif_pos h]
    refine pad_apply_of_inside _ _ _ _ _ _ _ (ix2 k q) (ix2 k ⟨q.val, h⟩) fun a => ?_
    match a with
    | ⟨0, _⟩ => show k.val = 0 + k.val * (0 + 1); omega
    | ⟨1, _⟩ => show q.val = 0 + q.val * (0 + 1); omega
  · rw [dif_neg h]
    refine (pad_apply_of_not_inside _ _ _ _ _ _ _ (ix2 k q) 1 ?_).trans padValue
    show ¬(0 ≤ q.val ∧ (q.val - 0) % (0 + 1) = 0 ∧ (q.val - 0) / (0 + 1) < 40)
    omega

theorem v4_v8_term : (V4 m c main_v8 : S1x128.Idx → EReal)
    = pad S1x128 ![0, 0] ![0, 88] ![0, 0] (shapeCast S1x40 (m ((c : Thread nD τ).loc main_arg7)) shapeCasts_S40_S1x40)
        (sitofp (F := Ideal) .f32 (constantI S_ 32 0#32)) pads_S1x40_S1x128_000_0880 h_S_ := by
  dsimp only [V4, V3, V2, V1, V0, hostOps0_3, hostOps0_2, hostOps0_1, hostOps0]; after_results; rfl

/-- The head's bias row: the first 40 columns hold the bias, the other 88 hold zero. -/
theorem v4_v8 (q : Fin 128) :
    V4 m c main_v8 (ix2 (0 : Fin 1) q) = (if h : q.val < 40 then m ((c : Thread nD τ).loc main_arg7) (ix1 ⟨q.val, h⟩) else 0 : EReal) := by
  rw [v4_v8_term]
  by_cases h : q.val < 40
  · rw [dif_pos h]
    refine (pad_apply_of_inside _ _ _ _ _ _ _ (ix2 (0 : Fin 1) q) (ix2 (0 : Fin 1) ⟨q.val, h⟩) fun a => ?_).trans
      (shapeCast_a_1a_apply _ _ 0 ⟨q.val, h⟩)
    match a with
    | ⟨0, _⟩ => rfl
    | ⟨1, _⟩ => show q.val = 0 + q.val * (0 + 1); omega
  · rw [dif_neg h]
    refine (pad_apply_of_not_inside _ _ _ _ _ _ _ (ix2 (0 : Fin 1) q) 1 ?_).trans padValue
    show ¬(0 ≤ q.val ∧ (q.val - 0) % (0 + 1) = 0 ∧ (q.val - 0) / (0 + 1) < 40)
    omega

/-! ## After the regions: the first 40 columns of two results -/

theorem v7_v11_term : (V7 m outs c main_v11 : S16384x40.Idx → EReal)
    = extractStridedSlice S16384x40 ![0, 0] (V6 m outs c main_v10_1) slices_S16384x128_S16384x40_0_0 := by
  show StableHlo.after hostOps2 (V6 m outs c) (Proc.devRef .tc main_v11) = _
  dsimp only [hostOps2]; after_results

theorem v7_v12_term : (V7 m outs c main_v12 : S16384x40.Idx → EReal)
    = extractStridedSlice S16384x40 ![0, 0] (V6 m outs c main_v10_2) slices_S16384x128_S16384x40_0_0 := by
  show StableHlo.after hostOps2 (V6 m outs c) (Proc.devRef .tc main_v12) = _
  dsimp only [hostOps2]; after_results

/-- One cut keeps the first 40 columns of what the second region leaves in its second result, -/
theorem v7_v11 (n : Fin 16384) (q : Fin 40) :
    V7 m outs c main_v11 (ix2 n q) = V6 m outs c main_v10_1 (ix2 n ⟨q.val, by omega⟩) := by
  rw [v7_v11_term]
  exact slice2_axis1_apply 0 _ _ n q _ (Nat.zero_add _).symm

/-- the other the first 40 columns of what it leaves in its third. -/
theorem v7_v12 (n : Fin 16384) (q : Fin 40) :
    V7 m outs c main_v12 (ix2 n q) = V6 m outs c main_v10_2 (ix2 n ⟨q.val, by omega⟩) := by
  rw [v7_v12_term]
  exact slice2_axis1_apply 0 _ _ n q _ (Nat.zero_add _).symm

/-- The last stretch and the second region leave the first region's result alone, -/
theorem v7_v9 : V7 m outs c main_v9 = V5 m outs c main_v9 :=
  (V7_of m outs c main_v9 (by decide)).trans (V6_of m outs c main_v9 (by decide))

/-- and the last stretch the second region's first result. -/
theorem v7_v10_0 : V7 m outs c main_v10_0 = V6 m outs c main_v10_0 :=
  V7_of m outs c main_v10_0 (by decide)

end Cert.KernelIdeal.Host

end
-- ==== Proof.KIRun.lean ====
/-
  What the idealized kernel's run leaves in its four results, as the specification's functions of the eight arguments.
  The run is the regions' launch read whole at its end: every unscoped buffer at the last valuation. Region 0's output
  array is the first layer; region 1, entered with that array as its feature matrix, leaves the second layer, the head's
  logits over 128 zero-padded columns and their masked log-softmax; the host's two slices keep the 40 real columns, on
  which the padding contributes a zero product to each logit, `⊥` to the row maximum and `0` to the sum of exponentials.
-/
import proofs.«102636_j72069551227476_2_alg».proof.Proof.KIRegs
import proofs.«102636_j72069551227476_2_alg».proof.Proof.KIRunCond
import proofs.«102636_j72069551227476_2_alg».proof.Proof.KIVal0
import proofs.«102636_j72069551227476_2_alg».proof.Proof.KIVal1
import proofs.«102636_j72069551227476_2_alg».proof.Proof.KIHost
import proofs.«102636_j72069551227476_2_alg».proof.Proof.Spec

set_option maxRecDepth 16384

noncomputable section

namespace Cert.KernelIdeal.Run

open Cert.KernelIdeal Cert.KernelIdeal.Gen Cert.KernelIdeal.Regs Cert.Spec
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-! ## The arguments as matrices -/

abbrev X : Mat 16384 128 := mat (m ((c : Thread nD τ).loc main_arg0))
abbrev ADJ : Mat 16384 16384 := mat (m ((c : Thread nD τ).loc main_arg1))
abbrev W1 : Mat 256 128 := mat (m ((c : Thread nD τ).loc main_arg2))
abbrev B1 : Fin 128 → EReal := vec (m ((c : Thread nD τ).loc main_arg3))
abbrev W2 : Mat 256 128 := mat (m ((c : Thread nD τ).loc main_arg4))
abbrev B2 : Fin 128 → EReal := vec (m ((c : Thread nD τ).loc main_arg5))
abbrev WL : Mat 128 40 := mat (m ((c : Thread nD τ).loc main_arg6))
abbrev BL : Fin 40 → EReal := vec (m ((c : Thread nD τ).loc main_arg7))

theorem mat_unmat {a b : ℕ} (M : Mat a b) : mat (unmat M) = M := rfl

/-! ## Region 0: the first layer -/

theorem h1_arr : Wx0 m c main_v9 = unmat (H1 (X m c) (ADJ m c) (W1 m c) (B1 m c)) := by
  refine (Wx0_arr m c 5).trans ((Val0.final (Ve0 m) c).trans ?_)
  unfold H1
  dsimp only [Ve0]
  rw [Host.v4_arg0 m c, Host.v4_arg1 m c, Host.v4_v0 m c, Host.v4_v1 m c,
    show (fun o => V4 m c main_v4 (ix2 (0 : Fin 1) o)) = vec (m ((c : Thread nD τ).loc main_arg3)) from funext fun o => Host.v4_v4 m c o]

/-! ## Region 1's entry contents -/

theorem e1_of (r : Ref sig .tc) (h : r ∉ ([main_v9] : List (Ref sig .tc))) : Ve1 m c r = V4 m c r := V5_of m (outs m) c r h
theorem e1_v9 : Ve1 m c main_v9 = unmat (H1 (X m c) (ADJ m c) (W1 m c) (B1 m c)) :=
  (Function.update_self (f := V4 m c) (Proc.devRef .tc main_v9) _).trans (h1_arr m c)

/-- The second layer, as region 1 computes it from its entry contents. -/
theorem HH_eq : Val1.HH (Ve1 m) c = H2 (X m c) (ADJ m c) (W1 m c) (B1 m c) (W2 m c) (B2 m c) := by
  unfold Val1.HH H2
  rw [e1_v9 m c, mat_unmat, e1_of m c main_arg1 (by decide), Host.v4_arg1 m c,
    e1_of m c main_v2 (by decide), e1_of m c main_v3 (by decide), Host.v4_v2 m c, Host.v4_v3 m c,
    show (fun o => Ve1 m c main_v5 (ix2 (0 : Fin 1) o)) = vec (m ((c : Thread nD τ).loc main_arg5)) from
      funext fun o => (congrFun (e1_of m c main_v5 (by decide)) _).trans (Host.v4_v5 m c o)]

theorem h2_arr : Wx1 m c main_v10_0 = unmat (H2 (X m c) (ADJ m c) (W1 m c) (B1 m c) (W2 m c) (B2 m c)) :=
  (Wx1_arr m c 7).trans ((Val1.final7 (Ve1 m) c).trans (congrArg unmat (HH_eq m c)))

/-! ## The logits and the log-probabilities on the 40 real columns -/

theorem lg_arr (n : Fin 16384) (q : Fin 40) :
    Wx1 m c main_v10_1 (ix2 n ⟨q.val, by omega⟩) = LG (X m c) (ADJ m c) (W1 m c) (B1 m c) (W2 m c) (B2 m c) (WL m c) (BL m c) n q := by
  refine (congrFun (Wx1_arr m c 8) _).trans ((Val1.final8 (Ve1 m) c n ⟨q.val, by omega⟩).trans ?_)
  rw [HH_eq m c]
  unfold LG logits
  have h6 : ∀ k : Fin 128, Ve1 m c main_v6 (ix2 k (⟨q.val, by omega⟩ : Fin 128)) = WL m c k q := fun k =>
    (congrFun (e1_of m c main_v6 (by decide)) _).trans ((Host.v4_v6 m c k ⟨q.val, by omega⟩).trans (dif_pos q.isLt))
  have h8 : Ve1 m c main_v8 (ix2 (0 : Fin 1) (⟨q.val, by omega⟩ : Fin 128)) = BL m c q :=
    (congrFun (e1_of m c main_v8 (by decide)) _).trans ((Host.v4_v8 m c ⟨q.val, by omega⟩).trans (dif_pos q.isLt))
  rw [h8]
  exact congrArg (· + BL m c q) (Finset.sum_congr rfl fun k _ => by rw [h6 k])

theorem lp_arr (n : Fin 16384) (q : Fin 40) :
    Wx1 m c main_v10_2 (ix2 n ⟨q.val, by omega⟩) = LP (X m c) (ADJ m c) (W1 m c) (B1 m c) (W2 m c) (B2 m c) (WL m c) (BL m c) n q := by
  refine (congrFun (Wx1_arr m c 9) _).trans ((Val1.final9 (Ve1 m) c n ⟨q.val, by omega⟩ q.isLt).trans ?_)
  have hL : ∀ c' : Fin 40, Val1.L9 (Ve1 m) c n ⟨c'.val, by omega⟩ = LG (X m c) (ADJ m c) (W1 m c) (B1 m c) (W2 m c) (B2 m c) (WL m c) (BL m c) n c' := fun c' =>
    (congrFun (Wx1_arr m c 8).symm _).trans (lg_arr m c n c')
  have hM : Val1.M9 (Ve1 m) c n = rowMax (LG (X m c) (ADJ m c) (W1 m c) (B1 m c) (W2 m c) (B2 m c) (WL m c) (BL m c)) n :=
    congrArg ((Finset.univ : Finset (Fin 40)).fold max ⊥) (funext fun c' => hL c')
  rw [hM]
  unfold LP logSoftmax
  have hq : Val1.L9 (Ve1 m) c n ⟨q.val, by omega⟩ = LG (X m c) (ADJ m c) (W1 m c) (B1 m c) (W2 m c) (B2 m c) (WL m c) (BL m c) n q := hL q
  rw [hq]
  exact congrArg (fun s => (LG (X m c) (ADJ m c) (W1 m c) (B1 m c) (W2 m c) (B2 m c) (WL m c) (BL m c) n q - rowMax (LG (X m c) (ADJ m c) (W1 m c) (B1 m c) (W2 m c) (B2 m c) (WL m c) (BL m c)) n) - Ideal.log s)
    (Finset.sum_congr rfl fun c' _ => by rw [hL c'])

/-! ## The run -/

set_option backward.isDefEq.respectTransparency.types false in
/-- Every weakly fair execution of @main terminates, nothing faulting, with every unscoped buffer at the last valuation. -/
theorem run_all (ρ : Dev nD → PrngReg) : θ_run defs (onTc (τ := τ) (main (F := Ideal))) ⟨m, fun _ => 0, ρ⟩
    (fun r => ∀ c : Dev nD, ∀ b ∈ Pipeline.ucRefs τ sig, r.2.mem ((c : Thread nD τ).1, b) = V7 m (outs m) c b) :=
  GenRun.run_cond m emb₁ () Variants.none L lv (fun _ _ => rfl) ρ (outs m) (pdats m) (O₀ := 0) (G := fun _ => iprop(emp))
    (u₀ := initOf (Pipeline.cells cfgs cellOf_inj) (Pipeline.launchToks cfgs cellOf_inj)) (hu₀ := hu0)
    (E := fun _ c => R c) (hE0 := hE0 ρ) (hE2 := hE2)
    (reg0 m) (fun c => .rfl) (fun c => .rfl) (reg1 m) (fun c => .rfl) (fun c => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The idealized kernel's run: its four results at the specification's functions of the arguments, the arguments as
    launched. -/
theorem run (ρ : Dev nD → PrngReg) : θ_run defs (onTc (τ := τ) (main (F := Ideal))) ⟨m, fun _ => 0, ρ⟩ (fun r => ∀ c : Dev nD,
      r.2.mem ((c.tc : Thread nD τ).loc main_v12) = unmat (LP (X m c) (ADJ m c) (W1 m c) (B1 m c) (W2 m c) (B2 m c) (WL m c) (BL m c))
      ∧ r.2.mem ((c.tc : Thread nD τ).loc main_v9) = unmat (H1 (X m c) (ADJ m c) (W1 m c) (B1 m c))
      ∧ r.2.mem ((c.tc : Thread nD τ).loc main_v10_0) = unmat (H2 (X m c) (ADJ m c) (W1 m c) (B1 m c) (W2 m c) (B2 m c))
      ∧ r.2.mem ((c.tc : Thread nD τ).loc main_v11) = unmat (LG (X m c) (ADJ m c) (W1 m c) (B1 m c) (W2 m c) (B2 m c) (WL m c) (BL m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_all m ρ)
  have hb := h c
  refine ⟨?_, ?_, ?_, ?_,
    (hb _ (mem_uc main_arg0 (by decide))).trans (V7_main_arg0 m (outs m) c), (hb _ (mem_uc main_arg1 (by decide))).trans (V7_main_arg1 m (outs m) c),
    (hb _ (mem_uc main_arg2 (by decide))).trans (V7_main_arg2 m (outs m) c), (hb _ (mem_uc main_arg3 (by decide))).trans (V7_main_arg3 m (outs m) c),
    (hb _ (mem_uc main_arg4 (by decide))).trans (V7_main_arg4 m (outs m) c), (hb _ (mem_uc main_arg5 (by decide))).trans (V7_main_arg5 m (outs m) c),
    (hb _ (mem_uc main_arg6 (by decide))).trans (V7_main_arg6 m (outs m) c), (hb _ (mem_uc main_arg7 (by decide))).trans (V7_main_arg7 m (outs m) c)⟩
  · refine (hb _ (mem_uc main_v12 (by decide))).trans ?_
    funext i
    obtain ⟨n, q, rfl⟩ : ∃ (n : Fin 16384) (q : Fin 40), i = ix2 n q := ⟨i 0, i 1, eq_ix2 i⟩
    exact (Host.v7_v12 m (outs m) c n q).trans ((congrFun (V6_v10_2 m c) _).trans (lp_arr m c n q))
  · exact (hb _ (mem_uc main_v9 (by decide))).trans ((Host.v7_v9 m (outs m) c).trans
      ((Function.update_self (f := V4 m c) (Proc.devRef .tc main_v9) _).trans (h1_arr m c)))
  · exact (hb _ (mem_uc main_v10_0 (by decide))).trans ((Host.v7_v10_0 m (outs m) c).trans ((V6_v10_0 m c).trans (h2_arr m c)))
  · refine (hb _ (mem_uc main_v11 (by decide))).trans ?_
    funext i
    obtain ⟨n, q, rfl⟩ : ∃ (n : Fin 16384) (q : Fin 40), i = ix2 n q := ⟨i 0, i 1, eq_ix2 i⟩
    exact (Host.v7_v11 m (outs m) c n q).trans ((congrFun (V6_v10_1 m c) _).trans (lg_arr m c n q))

end Cert.KernelIdeal.Run

end
-- ==== Proof.RefValue.lean ====
/-
  The reference program, read index by index, is the specification.

  The reference joins a node's features with its aggregated neighbours' (a concatenation along the feature axis) and
  multiplies by a 256-row weight matrix; read at a column, the joined array is the node's own features below column 128
  and the aggregated ones from there on, so the 256-term sum splits into the specification's two 128-term sums over the
  top and the bottom half of the weights. Bias and rectifier are pointwise. The second layer is the same operations run on
  the first layer's activations. The head is a matrix product plus a bias. The log-softmax takes a row's maximum by a
  maximum-reduce from minus infinity over the 40 columns (a fold of max from the bottom of the extended reals; the further
  maximum with a broadcast minus infinity changes nothing), subtracts it, sums the exponentials from zero, and subtracts
  the logarithm of that sum. Each stage is read at an index built from its coordinates; the last theorem puts the four
  results of the reference's run in that form.
-/
import proofs.«102636_j72069551227476_2_alg».proof.Proof.RefRun
import proofs.«102636_j72069551227476_2_alg».proof.Proof.RefRead
import proofs.«102636_j72069551227476_2_alg».proof.Proof.Spec
import Idealize.ShloMosaic.Lib.Pipeline.Value
import Idealize.ShloMosaic.Lib.ValueIdx
import Idealize.ShloMosaic.PureOps.Ideal.Laws
import Idealize.ShloMosaic.PureOps.Reduce
import Mathlib.Algebra.BigOperators.Group.Finset.Basic
import Mathlib.Algebra.BigOperators.Fin
import Mathlib.Data.Finset.Fold
import Mathlib.Order.BoundedOrder.Lattice

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP Cert.Spec

/-- A rank-2 index with the given coordinates is the one built from them. -/
theorem ix2_ext {a b : ℕ} (i : (⟨2, ![a, b]⟩ : Shape).Idx) (p : Fin a) (q : Fin b)
    (h0 : (i 0).val = p.val) (h1 : (i 1).val = q.val) : i = ix2 p q :=
  funext fun d => Fin.ext (by match d with | ⟨0, _⟩ => exact h0 | ⟨1, _⟩ => exact h1)

/-- A rank-1 index with the given coordinate is the one built from it. -/
theorem ix1_ext {a : ℕ} (i : (⟨1, ![a]⟩ : Shape).Idx) (p : Fin a) (h0 : (i 0).val = p.val) : i = ix1 p :=
  funext fun d => Fin.ext (by match d with | ⟨0, _⟩ => exact h0)

section
variable (x0 : (⟨S16384x128, .f32⟩ : BufTy).Contents (Elt Ideal)) (x1 : (⟨S16384x16384, .f32⟩ : BufTy).Contents (Elt Ideal))
  (x2 : (⟨S256x128, .f32⟩ : BufTy).Contents (Elt Ideal)) (x3 : (⟨S128, .f32⟩ : BufTy).Contents (Elt Ideal))

/-- The joined features at a column below 128 are the node's own. -/
theorem cat_left (a b : (⟨S16384x128, .f32⟩ : BufTy).Contents (Elt Ideal)) (n : Fin 16384) (k : Fin 128) :
    concatenate S16384x256 1 [⟨S16384x128, a⟩, ⟨S16384x128, b⟩] concatenates_S16384x128_S16384x128_S16384x256_d1
      (ix2 n (⟨k.val, by omega⟩ : Fin 256)) = a (ix2 n k) :=
  concatenate_pair_apply_left (1 : Fin S16384x256.rank) a b _ _ rfl (ix2 n k)
    (fun b' => by match b' with | ⟨0, _⟩ => rfl | ⟨1, _⟩ => rfl)

/-- The joined features at a column from 128 on are the aggregated neighbours', 128 columns back. -/
theorem cat_right (a b : (⟨S16384x128, .f32⟩ : BufTy).Contents (Elt Ideal)) (n : Fin 16384) (k : Fin 128) :
    concatenate S16384x256 1 [⟨S16384x128, a⟩, ⟨S16384x128, b⟩] concatenates_S16384x128_S16384x128_S16384x256_d1
      (ix2 n (⟨128 + k.val, by omega⟩ : Fin 256)) = b (ix2 n k) :=
  concatenate_pair_apply_right (1 : Fin S16384x256.rank) a b _ _ rfl rfl (ix2 n k)
    (fun b' hb => by
      match b', hb with
      | ⟨0, _⟩, _ => rfl
      | ⟨1, _⟩, hb => exact absurd (Fin.ext rfl) hb)
    (by show k.val + 128 = 128 + k.val; omega)

/-- The aggregation: row n of adj · x. -/
theorem v0_at (n : Fin 16384) (f : Fin 128) :
    val_main_v0 (F := Ideal) x0 x1 (ix2 n f) = agg (mat x1) (mat x0) n f := by
  rw [val_main_v0_apply]
  refine Finset.sum_congr rfl fun k _ => ?_
  rw [ix2_ext (lidx_main_v0 (ix2 n f) k) n k rfl rfl, ix2_ext (ridx_main_v0 (ix2 n f) k) k f rfl rfl]
  rfl

/-- The first matrix product: the joined features times the 256-row weights, as the two halves' sums. -/
theorem v2_at (n : Fin 16384) (o : Fin 128) :
    val_main_v2 (F := Ideal) x0 x1 x2 (ix2 n o)
      = (∑ k : Fin 128, mat x0 n k * top (mat x2) k o) + ∑ k : Fin 128, agg (mat x1) (mat x0) n k * bot (mat x2) k o := by
  rw [val_main_v2_apply]
  have e : ∀ k : Fin 256, val_main_v1 (F := Ideal) x0 x1 (lidx_main_v2 (ix2 n o) k) * x2 (ridx_main_v2 (ix2 n o) k)
      = val_main_v1 (F := Ideal) x0 x1 (ix2 n k) * x2 (ix2 k o) := fun k => by
    rw [ix2_ext (lidx_main_v2 (ix2 n o) k) n k rfl rfl, ix2_ext (ridx_main_v2 (ix2 n o) k) k o rfl rfl]
  rw [Finset.sum_congr rfl fun k _ => e k, sum_halves]
  refine congrArg₂ (· + ·) (Finset.sum_congr rfl fun k _ => ?_) (Finset.sum_congr rfl fun k _ => ?_)
  · unfold val_main_v1
    rw [cat_left]
    rfl
  · unfold val_main_v1
    rw [cat_right, v0_at]
    rfl

/-- The bias, broadcast down the rows. -/
theorem v4_at (n : Fin 16384) (o : Fin 128) : val_main_v4 (F := Ideal) x3 (ix2 n o) = vec x3 o := by
  rw [val_main_v4_apply, val_main_v3_apply, ix1_ext (idx_main_v3 (idx_main_v4 (ix2 n o))) o rfl]
  rfl

/-- The broadcast zero of the rectifier. -/
theorem call0_at (i : S16384x128.Idx) : val_main_call0_v0 (F := Ideal) i = 0 := by
  rw [val_main_call0_v0_apply, val_main_call0_cst_apply]
  exact Ideal.ofBits_zero_f32

/-- One layer, at an index. -/
theorem v6_at (n : Fin 16384) (o : Fin 128) :
    val_main_v6 (F := Ideal) x0 x1 x2 x3 (ix2 n o) = layer (mat x1) (mat x0) (top (mat x2)) (bot (mat x2)) (vec x3) n o := by
  rw [val_main_v6_apply, val_main_v5_apply, v2_at, v4_at, call0_at]
  rfl

/-- One layer, as an array. -/
theorem v6_eq : val_main_v6 (F := Ideal) x0 x1 x2 x3 = unmat (layer (mat x1) (mat x0) (top (mat x2)) (bot (mat x2)) (vec x3)) := by
  funext i
  obtain ⟨n, o, rfl⟩ : ∃ (n : Fin 16384) (o : Fin 128), i = ix2 n o := ⟨i 0, i 1, eq_ix2 i⟩
  exact v6_at x0 x1 x2 x3 n o

end

end Cert.RefValue

namespace Cert.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP Cert.Spec

/-- An array made from a matrix, read back as a matrix, is the matrix. -/
theorem mat_unmat {a b : ℕ} (M : Mat a b) : mat (unmat M) = M := rfl

/-- The second layer's stages are the first layer's, run on the first layer's activations with the second layer's
    weights: the program applies the same operations twice. -/
theorem v13_as_v6 {F : FTy → Type} [FloatOps F] (x0 : (⟨S16384x128, .f32⟩ : BufTy).Contents (Elt F)) (x1 : (⟨S16384x16384, .f32⟩ : BufTy).Contents (Elt F))
    (x2 : (⟨S256x128, .f32⟩ : BufTy).Contents (Elt F)) (x3 : (⟨S128, .f32⟩ : BufTy).Contents (Elt F))
    (x4 : (⟨S256x128, .f32⟩ : BufTy).Contents (Elt F)) (x5 : (⟨S128, .f32⟩ : BufTy).Contents (Elt F)) :
    val_main_v13 (F := F) x0 x1 x2 x3 x4 x5 = val_main_v6 (F := F) (val_main_v6 (F := F) x0 x1 x2 x3) x1 x4 x5 := rfl

section
variable (x0 : (⟨S16384x128, .f32⟩ : BufTy).Contents (Elt Ideal)) (x1 : (⟨S16384x16384, .f32⟩ : BufTy).Contents (Elt Ideal))
  (x2 : (⟨S256x128, .f32⟩ : BufTy).Contents (Elt Ideal)) (x3 : (⟨S128, .f32⟩ : BufTy).Contents (Elt Ideal))
  (x4 : (⟨S256x128, .f32⟩ : BufTy).Contents (Elt Ideal)) (x5 : (⟨S128, .f32⟩ : BufTy).Contents (Elt Ideal))
  (x6 : (⟨S128x40, .f32⟩ : BufTy).Contents (Elt Ideal)) (x7 : (⟨S40, .f32⟩ : BufTy).Contents (Elt Ideal))

/-- The first layer's activations. -/
theorem h1_eq : val_main_v6 (F := Ideal) x0 x1 x2 x3 = unmat (H1 (mat x0) (mat x1) (mat x2) (vec x3)) :=
  v6_eq x0 x1 x2 x3

/-- The second layer's activations. -/
theorem h2_eq : val_main_v13 (F := Ideal) x0 x1 x2 x3 x4 x5
    = unmat (H2 (mat x0) (mat x1) (mat x2) (vec x3) (mat x4) (vec x5)) := by
  rw [v13_as_v6, v6_eq, v6_eq]
  rfl

/-- The logits at an index. -/
theorem v17_at (n : Fin 16384) (c : Fin 40) :
    val_main_v17 (F := Ideal) x0 x1 x2 x3 x4 x5 x6 x7 (ix2 n c)
      = logits (mat (val_main_v13 (F := Ideal) x0 x1 x2 x3 x4 x5)) (mat x6) (vec x7) n c := by
  rw [val_main_v17_apply, val_main_v14_apply, val_main_v16_apply, val_main_v15_apply,
    ix1_ext (idx_main_v15 (idx_main_v16 (ix2 n c))) c rfl]
  have e : ∀ k : Fin 128, val_main_v13 (F := Ideal) x0 x1 x2 x3 x4 x5 (lidx_main_v14 (ix2 n c) k) * x6 (ridx_main_v14 (ix2 n c) k)
      = val_main_v13 (F := Ideal) x0 x1 x2 x3 x4 x5 (ix2 n k) * x6 (ix2 k c) := fun k => by
    rw [ix2_ext (lidx_main_v14 (ix2 n c) k) n k rfl rfl, ix2_ext (ridx_main_v14 (ix2 n c) k) k c rfl rfl]
  rw [Finset.sum_congr rfl fun k _ => e k]
  rfl

/-- The logits. -/
theorem lg_eq : val_main_v17 (F := Ideal) x0 x1 x2 x3 x4 x5 x6 x7
    = unmat (LG (mat x0) (mat x1) (mat x2) (vec x3) (mat x4) (vec x5) (mat x6) (vec x7)) := by
  funext i
  obtain ⟨n, c, rfl⟩ : ∃ (n : Fin 16384) (c : Fin 40), i = ix2 n c := ⟨i 0, i 1, eq_ix2 i⟩
  rw [v17_at, h2_eq]
  rfl

/-! The row-wise log-softmax, over an abbreviation for the logits array. -/

/-- The reduced index n with column k put back is (n, k). -/
theorem lift_row (h : S16384x40.Reduces [1] S16384) (n : Fin 16384) (k : Fin (S16384x40.size 1)) :
    h.lift (ix1 n) k = ix2 n (⟨k.val, k.isLt⟩ : Fin 40) :=
  funext fun d => Fin.ext (by match d with | ⟨0, _⟩ => rfl | ⟨1, _⟩ => rfl)

/-- The word of minus infinity is the bottom of the extended reals. -/
theorem neg_inf : (FloatOps.ofBits (F := Ideal) .f32 0xFF800000#32) = (⊥ : EReal) := by
  simp [Ideal.ofBits, Ideal.ieee]

local notation "lgv" => val_main_v17 (F := Ideal) x0 x1 x2 x3 x4 x5 x6 x7

/-- The maximum-reduce over the 40 columns is the row's maximum from the bottom. -/
theorem call2_v0_at (n : Fin 16384) :
    val_main_call2_v0 (F := Ideal) x0 x1 x2 x3 x4 x5 x6 x7 (ix1 n) = rowMax (mat lgv) n := by
  unfold val_main_call2_v0
  have h : S16384x40.Reduces [1] S16384 := by decide
  rw [Host.reduce_eq_fold_single FloatOps.maximumf _ _ reducesTo_S16384x40_S16384_d1 h h_S_, val_main_call2_cst_apply, neg_inf]
  have hf : (lgv ∘ h.lift (ix1 n)) = fun c : Fin 40 => mat lgv n c := funext fun k => congrArg lgv (lift_row h n k)
  exact congrArg (fun f => Finset.fold max (⊥ : EReal) f (Finset.univ : Finset (Fin 40))) hf

/-- The maximum with the broadcast minus infinity changes nothing. -/
theorem call2_v2_at (n : Fin 16384) :
    val_main_call2_v2 (F := Ideal) x0 x1 x2 x3 x4 x5 x6 x7 (ix1 n) = rowMax (mat lgv) n := by
  rw [val_main_call2_v2_apply, val_main_call2_v1_apply, val_main_call2_cst_0_apply, neg_inf, call2_v0_at]
  exact max_bot_left _

/-- The row's maximum, broadcast along the row. -/
theorem call2_v4_at (n : Fin 16384) (c : Fin 40) :
    val_main_call2_v4 (F := Ideal) x0 x1 x2 x3 x4 x5 x6 x7 (ix2 n c) = rowMax (mat lgv) n := by
  rw [val_main_call2_v4_apply, val_main_call2_v3_apply,
    ix1_ext (idx_main_call2_v3 (idx_main_call2_v4 (ix2 n c))) n rfl, call2_v2_at]

/-- The shifted logits. -/
theorem call2_v5_at (n : Fin 16384) (c : Fin 40) :
    val_main_call2_v5 (F := Ideal) x0 x1 x2 x3 x4 x5 x6 x7 (ix2 n c) = mat lgv n c - rowMax (mat lgv) n := by
  rw [val_main_call2_v5_apply, call2_v4_at]
  rfl

/-- The sum of the exponentials of a row's shifted logits. -/
theorem call2_v7_at (n : Fin 16384) :
    val_main_call2_v7 (F := Ideal) x0 x1 x2 x3 x4 x5 x6 x7 (ix1 n)
      = ∑ c' : Fin 40, Ideal.exp (mat lgv n c' - rowMax (mat lgv) n) := by
  rw [val_main_call2_v7_apply, val_main_call2_cst_1_apply]
  have e : ∀ k : Fin 40, val_main_call2_v6 (F := Ideal) x0 x1 x2 x3 x4 x5 x6 x7 (idx_main_call2_v7 (ix1 n) k)
      = Ideal.exp (mat lgv n k - rowMax (mat lgv) n) := fun k => by
    rw [ix2_ext (idx_main_call2_v7 (ix1 n) k) n k rfl rfl, val_main_call2_v6_apply, call2_v5_at]
    rfl
  rw [Finset.sum_congr rfl fun k _ => e k]
  show Ideal.ofBits .f32 0x00000000#32 + _ = _
  rw [Ideal.ofBits_zero_f32, zero_add]

/-- The logarithm of that sum, broadcast along the row. -/
theorem call2_v10_at (n : Fin 16384) (c : Fin 40) :
    val_main_call2_v10 (F := Ideal) x0 x1 x2 x3 x4 x5 x6 x7 (ix2 n c)
      = Ideal.log (∑ c' : Fin 40, Ideal.exp (mat lgv n c' - rowMax (mat lgv) n)) := by
  rw [val_main_call2_v10_apply, val_main_call2_v9_apply, val_main_call2_v8_apply,
    ix1_ext (idx_main_call2_v8 (idx_main_call2_v10 (ix2 n c))) n rfl, call2_v7_at]
  rfl

/-- The log-probabilities at an index. -/
theorem v18_at (n : Fin 16384) (c : Fin 40) :
    val_main_v18 (F := Ideal) x0 x1 x2 x3 x4 x5 x6 x7 (ix2 n c) = logSoftmax (mat lgv) n c := by
  rw [val_main_v18_apply, call2_v5_at, call2_v10_at]
  rfl

/-- The log-probabilities. -/
theorem lp_eq : val_main_v18 (F := Ideal) x0 x1 x2 x3 x4 x5 x6 x7
    = unmat (LP (mat x0) (mat x1) (mat x2) (vec x3) (mat x4) (vec x5) (mat x6) (vec x7)) := by
  funext i
  obtain ⟨n, c, rfl⟩ : ∃ (n : Fin 16384) (c : Fin 40), i = ix2 n c := ⟨i 0, i 1, eq_ix2 i⟩
  rw [v18_at, lg_eq]
  rfl

end

end Cert.RefValue

namespace Cert.RefValue

open Cert.ReferenceIdeal Cert.ReferenceIdeal.Gen Idealize.ShloMosaic Idealize.ShloMosaic.TcCoe Idealize.SL.Sem Cert.Spec

/-- The reference's run, its four results stated through the specification: on every device, from any memory with zero
    counters, every weakly fair execution ends with the log-probabilities, the two layers' activations and the logits
    at the specification's functions of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = unmat (LP (mat (a := 16384) (b := 128) (m ((c.tc : Thread nD τ).loc main_arg0))) (mat (a := 16384) (b := 16384) (m ((c.tc : Thread nD τ).loc main_arg1))) (mat (a := 256) (b := 128) (m ((c.tc : Thread nD τ).loc main_arg2))) (vec (a := 128) (m ((c.tc : Thread nD τ).loc main_arg3))) (mat (a := 256) (b := 128) (m ((c.tc : Thread nD τ).loc main_arg4))) (vec (a := 128) (m ((c.tc : Thread nD τ).loc main_arg5))) (mat (a := 128) (b := 40) (m ((c.tc : Thread nD τ).loc main_arg6))) (vec (a := 40) (m ((c.tc : Thread nD τ).loc main_arg7))))
      ∧ r.2.mem ((c.tc : Thread nD τ).loc main_v6) = unmat (H1 (mat (a := 16384) (b := 128) (m ((c.tc : Thread nD τ).loc main_arg0))) (mat (a := 16384) (b := 16384) (m ((c.tc : Thread nD τ).loc main_arg1))) (mat (a := 256) (b := 128) (m ((c.tc : Thread nD τ).loc main_arg2))) (vec (a := 128) (m ((c.tc : Thread nD τ).loc main_arg3))))
      ∧ r.2.mem ((c.tc : Thread nD τ).loc main_v13) = unmat (H2 (mat (a := 16384) (b := 128) (m ((c.tc : Thread nD τ).loc main_arg0))) (mat (a := 16384) (b := 16384) (m ((c.tc : Thread nD τ).loc main_arg1))) (mat (a := 256) (b := 128) (m ((c.tc : Thread nD τ).loc main_arg2))) (vec (a := 128) (m ((c.tc : Thread nD τ).loc main_arg3))) (mat (a := 256) (b := 128) (m ((c.tc : Thread nD τ).loc main_arg4))) (vec (a := 128) (m ((c.tc : Thread nD τ).loc main_arg5))))
      ∧ r.2.mem ((c.tc : Thread nD τ).loc main_v17) = unmat (LG (mat (a := 16384) (b := 128) (m ((c.tc : Thread nD τ).loc main_arg0))) (mat (a := 16384) (b := 16384) (m ((c.tc : Thread nD τ).loc main_arg1))) (mat (a := 256) (b := 128) (m ((c.tc : Thread nD τ).loc main_arg2))) (vec (a := 128) (m ((c.tc : Thread nD τ).loc main_arg3))) (mat (a := 256) (b := 128) (m ((c.tc : Thread nD τ).loc main_arg4))) (vec (a := 128) (m ((c.tc : Thread nD τ).loc main_arg5))) (mat (a := 128) (b := 40) (m ((c.tc : Thread nD τ).loc main_arg6))) (vec (a := 40) (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans ((Cert.ReferenceIdeal.ReadP.val_main_v18_eq m c).trans (lp_eq _ _ _ _ _ _ _ _)),
      (h c).2.1.trans ((Cert.ReferenceIdeal.ReadP.val_main_v6_eq _ _ _ _).trans (h1_eq _ _ _ _)),
      (h c).2.2.1.trans ((Cert.ReferenceIdeal.ReadP.val_main_v13_eq _ _ _ _ _ _).trans (h2_eq _ _ _ _ _ _)),
      (h c).2.2.2.1.trans ((Cert.ReferenceIdeal.ReadP.val_main_v17_eq _ _ _ _ _ _ _ _).trans (lg_eq _ _ _ _ _ _ _ _)),
      (h c).2.2.2.2⟩)
    (Cert.ReferenceIdeal.ValueP.run (F := Ideal) m ρ)

end Cert.RefValue

end
-- ==== Proof.lean ====
/-
  A two-layer GraphSAGE forward pass on a dense adjacency with a linear head and a row-wise log-softmax, as two Pallas
  kernels, against its jnp reference: equal over the extended reals.

  Each kernel runs on a 16 × 8 grid. Point (i, k) adds the product of the 1024 × 2048 block (i, k) of `adj` with rows
  2048 k … of the feature matrix to an accumulator carried from point to point; at k = 7 the accumulator is rows 1024 i …
  of `adj · x` (a sum over 16384 neighbours taken 2048 at a time), and the point stores `relu (x · Wx + (adj · x) · Ws + b)`,
  which is the reference's `relu ([x, adj · x] · W + b)` with the sum over the 256 concatenated features taken as two sums
  of 128. The second kernel also stores the head's logits over 128 columns, the last 88 of zero weights and bias, and
  their log-softmax with those 88 columns filled with the named constant `neg_big`, which the idealization reads as `⊥`:
  a maximum is unchanged by `⊥`, `⊥ - m = ⊥`, and `exp ⊥ = 0`, so on the 40 real columns the padded log-softmax is the
  reference's. The format changes (f32 to bf16 before each product) are the identity on the extended reals; no law used
  needs the inputs finite.

  The frames: neither program's frame is generated whole (two regions, each kernel carrying its accumulator between
  points), so each region's body certificate and segment record are written out (KIR0, KIR1, KIRegs for the idealized
  program; the word-level program's are the same text at its own names) over the generated conditional frame. The
  reference's frame is its run with the results dropped.
-/
import proofs.«102636_j72069551227476_2_alg».proof.Defs
import proofs.«102636_j72069551227476_2_alg».proof.Proof.Gen.Kernel
import proofs.«102636_j72069551227476_2_alg».proof.Proof.Gen.KernelIdeal
import proofs.«102636_j72069551227476_2_alg».proof.Proof.Gen.ReferenceIdeal
import proofs.«102636_j72069551227476_2_alg».proof.Proof.Gen.Pre_finite_inputs
import proofs.«102636_j72069551227476_2_alg».proof.Proof.KRegs
import proofs.«102636_j72069551227476_2_alg».proof.Proof.KIRegs
import proofs.«102636_j72069551227476_2_alg».proof.Proof.KIRun
import proofs.«102636_j72069551227476_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Regs.frame m ρ

theorem frame_kernelIdeal : Cert.frame_KernelIdeal := fun m ρ _ => Cert.KernelIdeal.Regs.frame m ρ

theorem frame_referenceIdeal : Cert.frame_ReferenceIdeal := fun m ρ _ =>
  (θ_run Cert.ReferenceIdeal.defs _ _).mono (fun _ h c => (h c).2.2.2.2) (Cert.RefValue.run m ρ)

/-- The one rewrite of the idealization: the mask fill `-1e30` is named, and the name denotes `⊥`. -/
theorem preserves : Cert.preserves_Kernel_KernelIdeal :=
  IdealRules.named_const.statement Cert.KernelIdeal.κ "neg_big" .f32 0xF149F2CA#32 ⊥ rfl

/-- Both runs end with the four results at the same functions of the arguments. -/
theorem algebraic : Cert.algebraic_KernelIdeal_ReferenceIdeal := by
  intro m ρ m' ρ' _ hagree
  refine ⟨_, _, _, _, Cert.KernelIdeal.Run.run m ρ, ?_⟩
  refine (θ_run Cert.ReferenceIdeal.defs _ _).mono (fun r h c => ?_) (Cert.RefValue.run m' ρ')
  obtain ⟨h0, h1, h2, h3, h4⟩ := h c
  obtain ⟨a0, a1, a2, a3, a4, a5, a6, a7⟩ := hagree c
  refine ⟨h0.trans ?_, h1.trans ?_, h2.trans ?_, h3.trans ?_, h4⟩
  all_goals simp only [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
